-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S128x1203 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x900x1203 : Shape := ⟨3, ![8, 900, 1203]⟩
abbrev S8x900x4 : Shape := ⟨3, ![8, 900, 4]⟩
abbrev S8x100 : Shape := ⟨2, ![8, 100]⟩
abbrev S8x100x4 : Shape := ⟨3, ![8, 100, 4]⟩
abbrev S_ : Shape := ⟨0, ![]⟩

class Facts : Prop where
  bcast_S_S8x900x1203 : S_.BroadcastsInDim S8x900x1203 (![] : Fin 0 → Fin S8x900x1203.rank)
  reducesTo_S8x900x1203_S_d0_1_2 : S8x900x1203.ReducesTo [0, 1, 2] S_
  h_S_ : 0 < S_.numel
  bcast_S_S8x900x4 : S_.BroadcastsInDim S8x900x4 (![] : Fin 0 → Fin S8x900x4.rank)
  reducesTo_S8x900x4_S_d0_1_2 : S8x900x4.ReducesTo [0, 1, 2] S_
  bcast_S_S8x100x4 : S_.BroadcastsInDim S8x100x4 (![] : Fin 0 → Fin S8x100x4.rank)
  reducesTo_S8x100x4_S_d0_1_2 : S8x100x4.ReducesTo [0, 1, 2] S_
  bcast_S_S8x100 : S_.BroadcastsInDim S8x100 (![] : Fin 0 → Fin S8x100.rank)
  reducesTo_S8x100_S_d0_1 : S8x100.ReducesTo [0, 1] S_

variable [Facts]

def fn_part1 {F : FTy → Type} [FloatOps F] (main_arg2 : IVec S8x100 32) (main_v13 : IVec S_ 1) (main_v15 : IVec S8x100 1) (main_c_5 : IVec S_ 32) : IVec S_ 1 :=
  let main_v16 : IVec S8x100 32 := broadcastInDim S8x100 ![] bcast_S_S8x100 main_c_5
  let main_v17 : IVec S8x100 1 := cmpi .slt main_arg2 main_v16
  let main_v18 : IVec S8x100 1 := andi main_v15 main_v17
  let main_c_6 : IVec S_ 1 := constantI S_ 1 1#1
  let main_v19 : IVec S_ 1 := (fun x v => Host.reduce IntOp.andi x v reducesTo_S8x100_S_d0_1 h_S_) main_v18 main_c_6
  let main_v20 : IVec S_ 1 := andi main_v13 main_v19
  main_v20

def fn {F : FTy → Type} [FloatOps F] (main_arg0 : FVec F S8x900x1203 .f32) (main_arg1 : FVec F S8x900x4 .f32) (main_arg2 : IVec S8x100 32) (main_arg3 : FVec F S8x100x4 .f32) : IVec S_ 1 :=
  let main_v0 : FVec F S8x900x1203 .f32 := Host.absf main_arg0
  let main_cst : FVec F S_ .f32 := constant S_ .f32 0x7F800000#32
  let main_v1 : FVec F S8x900x1203 .f32 := broadcastInDim S8x900x1203 ![] bcast_S_S8x900x1203 main_cst
  let main_v2 : IVec S8x900x1203 1 := cmpf .olt main_v0 main_v1
  let main_c : IVec S_ 1 := constantI S_ 1 1#1
  let main_v3 : IVec S_ 1 := (fun x v => Host.reduce IntOp.andi x v reducesTo_S8x900x1203_S_d0_1_2 h_S_) main_v2 main_c
  let main_v4 : FVec F S8x900x4 .f32 := Host.absf main_arg1
  let main_cst_0 : FVec F S_ .f32 := constant S_ .f32 0x7F800000#32
  let main_v5 : FVec F S8x900x4 .f32 := broadcastInDim S8x900x4 ![] bcast_S_S8x900x4 main_cst_0
  let main_v6 : IVec S8x900x4 1 := cmpf .olt main_v4 main_v5
  let main_c_1 : IVec S_ 1 := constantI S_ 1 1#1
  let main_v7 : IVec S_ 1 := (fun x v => Host.reduce IntOp.andi x v reducesTo_S8x900x4_S_d0_1_2 h_S_) main_v6 main_c_1
  let main_v8 : IVec S_ 1 := andi main_v3 main_v7
  let main_v9 : FVec F S8x100x4 .f32 := Host.absf main_arg3
  let main_cst_2 : FVec F S_ .f32 := constant S_ .f32 0x7F800000#32
  let main_v10 : FVec F S8x100x4 .f32 := broadcastInDim S8x100x4 ![] bcast_S_S8x100x4 main_cst_2
  let main_v11 : IVec S8x100x4 1 := cmpf .olt main_v9 main_v10
  let main_c_3 : IVec S_ 1 := constantI S_ 1 1#1
  let main_v12 : IVec S_ 1 := (fun x v => Host.reduce IntOp.andi x v reducesTo_S8x100x4_S_d0_1_2 h_S_) main_v11 main_c_3
  let main_v13 : IVec S_ 1 := andi main_v8 main_v12
  let main_c_4 : IVec S_ 32 := constantI S_ 32 0#32
  let main_v14 : IVec S8x100 32 := broadcastInDim S8x100 ![] bcast_S_S8x100 main_c_4
  let main_v15 : IVec S8x100 1 := cmpi .sge main_arg2 main_v14
  let main_c_5 : IVec S_ 32 := constantI S_ 32 1203#32
  fn_part1 (F := F) main_arg2 main_v13 main_v15 main_c_5
-- ==== Kernel.lean ====
abbrev S8x900x1203 : Shape := ⟨3, ![8, 900, 1203]⟩
abbrev S8x900x4 : Shape := ⟨3, ![8, 900, 4]⟩
abbrev S8x100 : Shape := ⟨2, ![8, 100]⟩
abbrev S8x100x4 : Shape := ⟨3, ![8, 100, 4]⟩
abbrev S4 : Shape := ⟨1, ![4]⟩
abbrev S_ : Shape := ⟨0, ![]⟩
abbrev S8x128 : Shape := ⟨2, ![8, 128]⟩
abbrev S8x1x128 : Shape := ⟨3, ![8, 1, 128]⟩
abbrev S8x128x4 : Shape := ⟨3, ![8, 128, 4]⟩
abbrev S128 : Shape := ⟨1, ![128]⟩
abbrev S1x128x1 : Shape := ⟨3, ![1, 128, 1]⟩
abbrev S8x4x128 : Shape := ⟨3, ![8, 4, 128]⟩
abbrev S8x900x100 : Shape := ⟨3, ![8, 900, 100]⟩
abbrev S1x128x1203 : Shape := ⟨3, ![1, 128, 1203]⟩
abbrev S1x1x128 : Shape := ⟨3, ![1, 1, 128]⟩
abbrev S1x128x4 : Shape := ⟨3, ![1, 128, 4]⟩
abbrev S1x4x128 : Shape := ⟨3, ![1, 4, 128]⟩
abbrev S1x128x100 : Shape := ⟨3, ![1, 128, 100]⟩
abbrev S128x1203 : Shape := ⟨2, ![128, 1203]⟩
abbrev S1x128 : Shape := ⟨2, ![1, 128]⟩
abbrev S1203x128 : Shape := ⟨2, ![1203, 128]⟩
abbrev S128x128 : Shape := ⟨2, ![128, 128]⟩
abbrev S128x4 : Shape := ⟨2, ![128, 4]⟩
abbrev S4x128 : Shape := ⟨2, ![4, 128]⟩
abbrev S128x1 : Shape := ⟨2, ![128, 1]⟩
abbrev S128x100 : Shape := ⟨2, ![128, 100]⟩

abbrev nBuf : Space → Nat
  | .hbm => 30
  | .vmem => 10
  | .smem => 0
  | _ => 0

abbrev bufTy : (tb : Table) → Fin (tcTables nBuf tb) → BufTy
  | .hbm, ⟨0, _⟩ => ⟨S8x900x1203, .f32⟩
  | .hbm, ⟨1, _⟩ => ⟨S8x900x4, .f32⟩
  | .hbm, ⟨2, _⟩ => ⟨S8x100, .i32⟩
  | .hbm, ⟨3, _⟩ => ⟨S8x100x4, .f32⟩
  | .hbm, ⟨4, _⟩ => ⟨S4, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S8x100, .i32⟩
  | .hbm, ⟨9, _⟩ => ⟨S8x100, .i32⟩
  | .hbm, ⟨10, _⟩ => ⟨S_, .i32⟩
  | .hbm, ⟨11, _⟩ => ⟨S8x100, .i32⟩
  | .hbm, ⟨12, _⟩ => ⟨S8x100, .i32⟩
  | .hbm, ⟨13, _⟩ => ⟨S_, .i32⟩
  | .hbm, ⟨14, _⟩ => ⟨S_, .i32⟩
  | .hbm, ⟨15, _⟩ => ⟨S8x128, .i32⟩
  | .hbm, ⟨16, _⟩ => ⟨S8x1x128, .i32⟩
  | .hbm, ⟨17, _⟩ => ⟨S_, .f32⟩
  | .hbm, ⟨18, _⟩ => ⟨S_, .f32⟩
  | .hbm, ⟨19, _⟩ => ⟨S8x128x4, .f32⟩
  | .hbm, ⟨20, _⟩ => ⟨S128, .i32⟩
  | .hbm, ⟨21, _⟩ => ⟨S_, .i32⟩
  | .hbm, ⟨22, _⟩ => ⟨S128, .i32⟩
  | .hbm, ⟨23, _⟩ => ⟨S128, .i1⟩
  | .hbm, ⟨24, _⟩ => ⟨S1x128x1, .i1⟩
  | .hbm, ⟨25, _⟩ => ⟨S8x128x4, .i1⟩
  | .hbm, ⟨26, _⟩ => ⟨S8x128x4, .f32⟩
  | .hbm, ⟨27, _⟩ => ⟨S8x128x4, .f32⟩
  | .hbm, ⟨28, _⟩ => ⟨S8x4x128, .f32⟩
  | .hbm, ⟨29, _⟩ => ⟨S8x900x100, .f32⟩
  | .local _ .vmem, ⟨0, _⟩ => ⟨S1x128x1203, .f32⟩
  | .local _ .vmem, ⟨1, _⟩ => ⟨S1x128x1203, .f32⟩
  | .local _ .vmem, ⟨2, _⟩ => ⟨S1x1x128, .i32⟩
  | .local _ .vmem, ⟨3, _⟩ => ⟨S1x1x128, .i32⟩
  | .local _ .vmem, ⟨4, _⟩ => ⟨S1x128x4, .f32⟩
  | .local _ .vmem, ⟨5, _⟩ => ⟨S1x128x4, .f32⟩
  | .local _ .vmem, ⟨6, _⟩ => ⟨S1x4x128, .f32⟩
  | .local _ .vmem, ⟨7, _⟩ => ⟨S1x4x128, .f32⟩
  | .local _ .vmem, ⟨8, _⟩ => ⟨S1x128x100, .f32⟩
  | .local _ .vmem, ⟨9, _⟩ => ⟨S1x128x100, .f32⟩
  | _, _ => ⟨S8x900x1203, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_c_1 : Ref sig .tc := ⟨.hbm, 13, rfl⟩
abbrev main_call1_v0 : Ref sig .tc := ⟨.hbm, 14, rfl⟩
abbrev main_v1 : Ref sig .tc := ⟨.hbm, 15, rfl⟩
abbrev main_v2 : Ref sig .tc := ⟨.hbm, 16, rfl⟩
abbrev main_cst_2 : Ref sig .tc := ⟨.hbm, 17, rfl⟩
abbrev main_call2_v0 : Ref sig .tc := ⟨.hbm, 18, rfl⟩
abbrev main_v3 : Ref sig .tc := ⟨.hbm, 19, rfl⟩
abbrev main_v4 : Ref sig .tc := ⟨.hbm, 20, rfl⟩
abbrev main_c_3 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call3_v0 : Ref sig .tc := ⟨.hbm, 25, rfl⟩
abbrev main_call3_v1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1203 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S8x100 : S_.BroadcastsInDim S8x100 (![] : Fin 0 → Fin S8x100.rank)
  pads_S8x100_S8x128_000_0280 : S8x100.Pads (![0, 0] : Fin 2 → Nat) ![0, 28] ![0, 0] S8x128
  h_S_ : 0 < S_.numel
  bcast_S8x128_S8x1x128_0_2 : S8x128.BroadcastsInDim S8x1x128 (![0, 2] : Fin 2 → Fin S8x1x128.rank)
  pads_S8x100x4_S8x128x4_000_0280_000 : S8x100x4.Pads (![0, 0, 0] : Fin 3 → Nat) ![0, 28, 0] ![0, 0, 0] S8x128x4
  bcast_S_S128 : S_.BroadcastsInDim S128 (![] : Fin 0 → Fin S128.rank)
  bcast_S128_S1x128x1_1 : S128.BroadcastsInDim S1x128x1 (![1] : Fin 1 → Fin S1x128x1.rank)
  bcast_S1x128x1_S8x128x4_0_1_2 : S1x128x1.BroadcastsInDim S8x128x4 (![0, 1, 2] : Fin 3 → Fin S8x128x4.rank)
  bcast_S4_S8x128x4_2 : S4.BroadcastsInDim S8x128x4 (![2] : Fin 1 → Fin S8x128x4.rank)
  transposes_S8x128x4_S8x4x128_0_2_1 : S8x128x4.Transposes [0, 2, 1] S8x4x128
  inb_S1x128x1203_S1x128x1203_0_0_0 : ∀ a, (![0, 0, 0] : Fin 3 → Nat) a + S1x128x1203.size a ≤ S1x128x1203.size a
  h_S1x128x1203 : 0 < S1x128x1203.numel
  shapeCasts_S1x128x1203_S128x1203 : S1x128x1203.ShapeCasts S128x1203
  bitsLt_bf16_f32 : FTy.bits .bf16 < FTy.bits .f32
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  iota_S1203x128_d0_w32 : S1203x128.Iotas .tc 32 [0]
  broadcasts_S1x128_S1203x128 : S1x128.Broadcasts S1203x128
  natLt_1_32 : 1 < 32
  inb_S1x128x4_S1x128x4_0_0_0 : ∀ a, (![0, 0, 0] : Fin 3 → Nat) a + S1x128x4.size a ≤ S1x128x4.size a
  h_S1x128x4 : 0 < S1x128x4.numel
  shapeCasts_S1x128x4_S128x4 : S1x128x4.ShapeCasts S128x4
  inb_S1x4x128_S1x4x128_0_0_0 : ∀ a, (![0, 0, 0] : Fin 3 → Nat) a + S1x4x128.size a ≤ S1x4x128.size a
  h_S1x4x128 : 0 < S1x4x128.numel
  shapeCasts_S1x4x128_S4x128 : S1x4x128.ShapeCasts S4x128
  slices_S128x4_o0_0_S128x1 : S128x4.Slices ![0, 0] S128x1
  slices_S128x4_o0_1_S128x1 : S128x4.Slices ![0, 1] S128x1
  slices_S128x4_o0_2_S128x1 : S128x4.Slices ![0, 2] S128x1
  slices_S128x4_o0_3_S128x1 : S128x4.Slices ![0, 3] S128x1
  slices_S4x128_o0_0_S1x128 : S4x128.Slices ![0, 0] S1x128
  slices_S4x128_o1_0_S1x128 : S4x128.Slices ![1, 0] S1x128
  slices_S4x128_o2_0_S1x128 : S4x128.Slices ![2, 0] S1x128
  slices_S4x128_o3_0_S1x128 : S4x128.Slices ![3, 0] S1x128
  broadcasts_S128x1_S128x128 : S128x1.Broadcasts S128x128
  broadcasts_S1x128_S128x128 : S1x128.Broadcasts S128x128
  slices_S128x128_o0_0_S128x100 : S128x128.Slices ![0, 0] S128x100
  inb_S1x128x100_S1x128x100_0_0_0 : ∀ a, (![0, 0, 0] : Fin 3 → Nat) a + S1x128x100.size a ≤ S1x128x100.size a
  h_S1x128x100 : 0 < S1x128x100.numel
  shapeCasts_S1x128x100_S128x100 : S1x128x100.ShapeCasts S128x100
  shapeCasts_S128x100_S1x128x100 : S128x100.ShapeCasts S1x128x100
  dot_S128x1203_S1203x128_S128x128_1_0_0_1_n_n_wf : DotDims.WF S128x1203 S1203x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x128x1203.size a < S8x900x1203.size a
  hwx0_0 : ∀ i : grid0.Coords, EltTy.bits .f32 = 32 ∨ (Rect.unit (s := S8x900x1203) (fun a => cc0_transform_0 i a * S1x128x1203.size a) (fun a => (Pipeline.Clip.of (cc0_transform_0 i a) (S1x128x1203.size a) (S8x900x1203.size a)).extent (S1x128x1203.size a)) fun a => Pipeline.Clip.inb (Pipeline.Clip.ok_of (hstart0_0 i a))).WholeWords (EltTy.packing .f32)
  hwxs0_0 : ∀ i : grid0.Coords, EltTy.bits .f32 = 32 ∨ (Rect.unit (s := S1x128x1203) (fun _ => 0) (fun a => (Pipeline.Clip.of (cc0_transform_0 i a) (S1x128x1203.size a) (S8x900x1203.size a)).extent (S1x128x1203.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S8x1x128.size a
  hwx0_1 : ∀ i : grid0.Coords, EltTy.bits .i32 = 32 ∨ (Rect.block (s := S8x1x128) S1x1x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x128x4.size a < S8x900x4.size a
  hwx0_2 : ∀ i : grid0.Coords, EltTy.bits .f32 = 32 ∨ (Rect.unit (s := S8x900x4) (fun a => cc0_transform_2 i a * S1x128x4.size a) (fun a => (Pipeline.Clip.of (cc0_transform_2 i a) (S1x128x4.size a) (S8x900x4.size a)).extent (S1x128x4.size a)) fun a => Pipeline.Clip.inb (Pipeline.Clip.ok_of (hstart0_2 i a))).WholeWords (EltTy.packing .f32)
  hwxs0_2 : ∀ i : grid0.Coords, EltTy.bits .f32 = 32 ∨ (Rect.unit (s := S1x128x4) (fun _ => 0) (fun a => (Pipeline.Clip.of (cc0_transform_2 i a) (S1x128x4.size a) (S8x900x4.size a)).extent (S1x128x4.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x128.size a ≤ S8x4x128.size a
  hwx0_3 : ∀ i : grid0.Coords, EltTy.bits .f32 = 32 ∨ (Rect.block (s := S8x4x128) S1x4x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x128x100.size a < S8x900x100.size a
  hwx0_4 : ∀ i : grid0.Coords, EltTy.bits .f32 = 32 ∨ (Rect.unit (s := S8x900x100) (fun a => cc0_transform_4 i a * S1x128x100.size a) (fun a => (Pipeline.Clip.of (cc0_transform_4 i a) (S1x128x100.size a) (S8x900x100.size a)).extent (S1x128x100.size a)) fun a => Pipeline.Clip.inb (Pipeline.Clip.ok_of (hstart0_4 i a))).WholeWords (EltTy.packing .f32)
  hwxs0_4 : ∀ i : grid0.Coords, EltTy.bits .f32 = 32 ∨ (Rect.unit (s := S1x128x100) (fun _ => 0) (fun a => (Pipeline.Clip.of (cc0_transform_4 i a) (S1x128x100.size a) (S8x900x100.size a)).extent (S1x128x100.size a)) fun a => (Nat.zero_add _).trans_le (Pipeline.Clip.extent_le (Pipeline.Clip.ok_of (hstart0_4 i a)))).WholeWords (EltTy.packing .f32)

variable [Facts₀]

def dot_S128x1203_S1203x128_S128x128_1_0_0_1_n_n : DotDims S128x1203 S1203x128 S128x128 where
  lhsContracting := [1]
  rhsContracting := [0]
  lhsNonContracting := [0]
  rhsNonContracting := [1]
  lhsBatch := []
  rhsBatch := []
  wf := dot_S128x1203_S1203x128_S128x128_1_0_0_1_n_n_wf

abbrev win0_0 : Pipeline.Window sig grid0 :=
  Pipeline.Window.ofSpecClip (Memref.whole main_arg0) S1x128x1203.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v2) S1x1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpecClip (Memref.whole main_arg1) S1x128x4.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v9) S1x4x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpecClip (Memref.whole main_v10) S1x128x100.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x900x1203 : Shape := ⟨3, ![8, 900, 1203]⟩
abbrev S8x900x4 : Shape := ⟨3, ![8, 900, 4]⟩
abbrev S8x100 : Shape := ⟨2, ![8, 100]⟩
abbrev S8x100x4 : Shape := ⟨3, ![8, 100, 4]⟩
abbrev S_ : Shape := ⟨0, ![]⟩
abbrev S8x1x100 : Shape := ⟨3, ![8, 1, 100]⟩
abbrev S8x100x1 : Shape := ⟨3, ![8, 100, 1]⟩
abbrev S1 : Shape := ⟨1, ![1]⟩
abbrev S1x1x1 : Shape := ⟨3, ![1, 1, 1]⟩
abbrev S8x900x100 : Shape := ⟨3, ![8, 900, 100]⟩
abbrev S8x900x1x4 : Shape := ⟨4, ![8, 900, 1, 4]⟩
abbrev S8x1x100x4 : Shape := ⟨4, ![8, 1, 100, 4]⟩
abbrev S8x900x100x4 : Shape := ⟨4, ![8, 900, 100, 4]⟩
abbrev S8x900x1 : Shape := ⟨3, ![8, 900, 1]⟩
abbrev S8x900 : Shape := ⟨2, ![8, 900]⟩
abbrev S8x900x2 : Shape := ⟨3, ![8, 900, 2]⟩
abbrev S8x900x1x2 : Shape := ⟨4, ![8, 900, 1, 2]⟩
abbrev S8x100x2 : Shape := ⟨3, ![8, 100, 2]⟩
abbrev S8x1x100x2 : Shape := ⟨4, ![8, 1, 100, 2]⟩
abbrev S8x900x100x2 : Shape := ⟨4, ![8, 900, 100, 2]⟩
abbrev S8x900x100x1 : Shape := ⟨4, ![8, 900, 100, 1]⟩

abbrev nBuf : Space → Nat
  | .hbm => 223
  | .vmem => 0
  | .smem => 0
  | _ => 0

abbrev hbmTy0_0 (i : Nat) : BufTy := match i % 128 with
  | 0 => ⟨S8x900x1203, .f32⟩
  | 1 => ⟨S8x900x4, .f32⟩
  | 2 => ⟨S8x100, .i32⟩
  | 3 => ⟨S8x100x4, .f32⟩
  | 4 => ⟨S8x900x1203, .f32⟩
  | 5 => ⟨S8x900x1203, .f32⟩
  | 6 => ⟨S_, .f32⟩
  | 7 => ⟨S8x900x1203, .f32⟩
  | 8 => ⟨S8x900x1203, .f32⟩
  | 9 => ⟨S_, .f32⟩
  | 10 => ⟨S8x900x1203, .f32⟩
  | 11 => ⟨S8x900x1203, .f32⟩
  | 12 => ⟨S_, .f32⟩
  | 13 => ⟨S8x900x1203, .f32⟩
  | 14 => ⟨S8x900x1203, .f32⟩
  | 15 => ⟨S_, .f32⟩
  | 16 => ⟨S8x900x1203, .f32⟩
  | 17 => ⟨S8x900x1203, .f32⟩
  | 18 => ⟨S_, .f32⟩
  | 19 => ⟨S8x900x1203, .f32⟩
  | 20 => ⟨S8x900x1203, .f32⟩
  | 21 => ⟨S_, .f32⟩
  | 22 => ⟨S8x900x1203, .f32⟩
  | 23 => ⟨S8x900x1203, .f32⟩
  | 24 => ⟨S8x900x1203, .f32⟩
  | 25 => ⟨S8x900x1203, .f32⟩
  | 26 => ⟨S_, .f32⟩
  | 27 => ⟨S8x900x1203, .f32⟩
  | 28 => ⟨S8x900x1203, .f32⟩
  | 29 => ⟨S_, .f32⟩
  | 30 => ⟨S8x900x1203, .f32⟩
  | 31 => ⟨S8x900x1203, .f32⟩
  | 32 => ⟨S_, .f32⟩
  | 33 => ⟨S8x900x1203, .f32⟩
  | 34 => ⟨S8x900x1203, .f32⟩
  | 35 => ⟨S_, .f32⟩
  | 36 => ⟨S8x900x1203, .f32⟩
  | 37 => ⟨S8x900x1203, .f32⟩
  | 38 => ⟨S8x900x1203, .f32⟩
  | 39 => ⟨S8x900x1203, .f32⟩
  | 40 => ⟨S8x900x1203, .f32⟩
  | 41 => ⟨S8x1x100, .i32⟩
  | 42 => ⟨S_, .i32⟩
  | 43 => ⟨S8x1x100, .i32⟩
  | 44 => ⟨S8x1x100, .i1⟩
  | 45 => ⟨S_, .i32⟩
  | 46 => ⟨S8x1x100, .i32⟩
  | 47 => ⟨S8x1x100, .i32⟩
  | 48 => ⟨S8x1x100, .i32⟩
  | 49 => ⟨S8x100x1, .i32⟩
  | 50 => ⟨S1, .i32⟩
  | 51 => ⟨S_, .i32⟩
  | 52 => ⟨S8x100x1, .i32⟩
  | 53 => ⟨S8x100x1, .i1⟩
  | 54 => ⟨S1x1x1, .i32⟩
  | 55 => ⟨S8x100x1, .i32⟩
  | 56 => ⟨S8x100x1, .i1⟩
  | 57 => ⟨S8x100x1, .i1⟩
  | 58 => ⟨S_, .i1⟩
  | 59 => ⟨S8x100, .i1⟩
  | 60 => ⟨S8x900x100, .f32⟩
  | 61 => ⟨S8x900x100, .i1⟩
  | 62 => ⟨S_, .f32⟩
  | 63 => ⟨S8x900x100, .f32⟩
  | 64 => ⟨S8x900x100, .f32⟩
  | 65 => ⟨S8x900x1x4, .f32⟩
  | 66 => ⟨S8x1x100x4, .f32⟩
  | 67 => ⟨S8x900x100x4, .f32⟩
  | 68 => ⟨S8x900x100x4, .f32⟩
  | 69 => ⟨S8x900x100x4, .f32⟩
  | 70 => ⟨S8x900x100x4, .f32⟩
  | 71 => ⟨S_, .f32⟩
  | 72 => ⟨S8x900x100, .f32⟩
  | 73 => ⟨S8x900x1, .f32⟩
  | 74 => ⟨S8x900, .f32⟩
  | 75 => ⟨S8x900x1, .f32⟩
  | 76 => ⟨S8x900, .f32⟩
  | 77 => ⟨S8x900x1, .f32⟩
  | 78 => ⟨S8x900, .f32⟩
  | 79 => ⟨S8x900x1, .f32⟩
  | 80 => ⟨S8x900, .f32⟩
  | 81 => ⟨S_, .f32⟩
  | 82 => ⟨S8x900, .f32⟩
  | 83 => ⟨S8x900, .f32⟩
  | 84 => ⟨S8x900, .f32⟩
  | 85 => ⟨S_, .f32⟩
  | 86 => ⟨S8x900, .f32⟩
  | 87 => ⟨S8x900, .f32⟩
  | 88 => ⟨S8x900, .f32⟩
  | 89 => ⟨S_, .f32⟩
  | 90 => ⟨S8x900, .f32⟩
  | 91 => ⟨S8x900, .f32⟩
  | 92 => ⟨S8x900, .f32⟩
  | 93 => ⟨S_, .f32⟩
  | 94 => ⟨S8x900, .f32⟩
  | 95 => ⟨S8x900, .f32⟩
  | 96 => ⟨S8x900, .f32⟩
  | 97 => ⟨S8x900x1, .f32⟩
  | 98 => ⟨S8x900x1, .f32⟩
  | 99 => ⟨S8x900x1, .f32⟩
  | 100 => ⟨S8x900x1, .f32⟩
  | 101 => ⟨S8x900x4, .f32⟩
  | 102 => ⟨S8x100x1, .f32⟩
  | 103 => ⟨S8x100, .f32⟩
  | 104 => ⟨S8x100x1, .f32⟩
  | 105 => ⟨S8x100, .f32⟩
  | 106 => ⟨S8x100x1, .f32⟩
  | 107 => ⟨S8x100, .f32⟩
  | 108 => ⟨S8x100x1, .f32⟩
  | 109 => ⟨S8x100, .f32⟩
  | 110 => ⟨S_, .f32⟩
  | 111 => ⟨S8x100, .f32⟩
  | 112 => ⟨S8x100, .f32⟩
  | 113 => ⟨S8x100, .f32⟩
  | 114 => ⟨S_, .f32⟩
  | 115 => ⟨S8x100, .f32⟩
  | 116 => ⟨S8x100, .f32⟩
  | 117 => ⟨S8x100, .f32⟩
  | 118 => ⟨S_, .f32⟩
  | 119 => ⟨S8x100, .f32⟩
  | 120 => ⟨S8x100, .f32⟩
  | 121 => ⟨S8x100, .f32⟩
  | 122 => ⟨S_, .f32⟩
  | 123 => ⟨S8x100, .f32⟩
  | 124 => ⟨S8x100, .f32⟩
  | 125 => ⟨S8x100, .f32⟩
  | 126 => ⟨S8x100x1, .f32⟩
  | 127 => ⟨S8x100x1, .f32⟩
  | _ => ⟨S8x900x1203, .f32⟩

abbrev hbmTy0_1 (i : Nat) : BufTy := match i % 128 with
  | 0 => ⟨S8x100x1, .f32⟩
  | 1 => ⟨S8x100x1, .f32⟩
  | 2 => ⟨S8x100x4, .f32⟩
  | 3 => ⟨S8x900x1, .f32⟩
  | 4 => ⟨S8x900, .f32⟩
  | 5 => ⟨S8x900x1, .f32⟩
  | 6 => ⟨S8x900, .f32⟩
  | 7 => ⟨S8x900, .f32⟩
  | 8 => ⟨S8x900x1, .f32⟩
  | 9 => ⟨S8x900, .f32⟩
  | 10 => ⟨S8x900x1, .f32⟩
  | 11 => ⟨S8x900, .f32⟩
  | 12 => ⟨S8x900, .f32⟩
  | 13 => ⟨S8x900, .f32⟩
  | 14 => ⟨S8x100x1, .f32⟩
  | 15 => ⟨S8x100, .f32⟩
  | 16 => ⟨S8x100x1, .f32⟩
  | 17 => ⟨S8x100, .f32⟩
  | 18 => ⟨S8x100, .f32⟩
  | 19 => ⟨S8x100x1, .f32⟩
  | 20 => ⟨S8x100, .f32⟩
  | 21 => ⟨S8x100x1, .f32⟩
  | 22 => ⟨S8x100, .f32⟩
  | 23 => ⟨S8x100, .f32⟩
  | 24 => ⟨S8x100, .f32⟩
  | 25 => ⟨S8x900x2, .f32⟩
  | 26 => ⟨S8x900x1x2, .f32⟩
  | 27 => ⟨S8x100x2, .f32⟩
  | 28 => ⟨S8x1x100x2, .f32⟩
  | 29 => ⟨S8x900x100x2, .f32⟩
  | 30 => ⟨S8x900x100x2, .f32⟩
  | 31 => ⟨S8x900x100x2, .f32⟩
  | 32 => ⟨S8x900x2, .f32⟩
  | 33 => ⟨S8x900x1x2, .f32⟩
  | 34 => ⟨S8x100x2, .f32⟩
  | 35 => ⟨S8x1x100x2, .f32⟩
  | 36 => ⟨S8x900x100x2, .f32⟩
  | 37 => ⟨S8x900x100x2, .f32⟩
  | 38 => ⟨S8x900x100x2, .f32⟩
  | 39 => ⟨S8x900x100x2, .f32⟩
  | 40 => ⟨S_, .f32⟩
  | 41 => ⟨S_, .f32⟩
  | 42 => ⟨S8x900x100x2, .f32⟩
  | 43 => ⟨S8x900x100x2, .f32⟩
  | 44 => ⟨S8x900x100x1, .f32⟩
  | 45 => ⟨S8x900x100, .f32⟩
  | 46 => ⟨S8x900x100x1, .f32⟩
  | 47 => ⟨S8x900x100, .f32⟩
  | 48 => ⟨S8x900x100, .f32⟩
  | 49 => ⟨S8x900x1, .f32⟩
  | 50 => ⟨S8x1x100, .f32⟩
  | 51 => ⟨S8x900x100, .f32⟩
  | 52 => ⟨S8x900x100, .f32⟩
  | 53 => ⟨S8x900x100, .f32⟩
  | 54 => ⟨S8x900x100, .f32⟩
  | 55 => ⟨S8x900x100, .f32⟩
  | 56 => ⟨S8x900x2, .f32⟩
  | 57 => ⟨S8x900x1x2, .f32⟩
  | 58 => ⟨S8x100x2, .f32⟩
  | 59 => ⟨S8x1x100x2, .f32⟩
  | 60 => ⟨S8x900x100x2, .f32⟩
  | 61 => ⟨S8x900x100x2, .f32⟩
  | 62 => ⟨S8x900x100x2, .f32⟩
  | 63 => ⟨S8x900x2, .f32⟩
  | 64 => ⟨S8x900x1x2, .f32⟩
  | 65 => ⟨S8x100x2, .f32⟩
  | 66 => ⟨S8x1x100x2, .f32⟩
  | 67 => ⟨S8x900x100x2, .f32⟩
  | 68 => ⟨S8x900x100x2, .f32⟩
  | 69 => ⟨S8x900x100x2, .f32⟩
  | 70 => ⟨S8x900x100x2, .f32⟩
  | 71 => ⟨S_, .f32⟩
  | 72 => ⟨S_, .f32⟩
  | 73 => ⟨S8x900x100x2, .f32⟩
  | 74 => ⟨S8x900x100x2, .f32⟩
  | 75 => ⟨S8x900x100x1, .f32⟩
  | 76 => ⟨S8x900x100, .f32⟩
  | 77 => ⟨S8x900x100x1, .f32⟩
  | 78 => ⟨S8x900x100, .f32⟩
  | 79 => ⟨S8x900x100, .f32⟩
  | 80 => ⟨S8x900x100, .f32⟩
  | 81 => ⟨S8x900x100, .f32⟩
  | 82 => ⟨S8x900x100, .f32⟩
  | 83 => ⟨S_, .f32⟩
  | 84 => ⟨S8x900x100, .f32⟩
  | 85 => ⟨S8x900x100, .f32⟩
  | 86 => ⟨S_, .f32⟩
  | 87 => ⟨S8x900x100, .f32⟩
  | 88 => ⟨S8x900x100, .f32⟩
  | 89 => ⟨S8x900x100, .f32⟩
  | 90 => ⟨S8x900x100, .f32⟩
  | 91 => ⟨S_, .f32⟩
  | 92 => ⟨S8x900x100, .f32⟩
  | 93 => ⟨S8x900x100, .f32⟩
  | 94 => ⟨S8x900x100, .f32⟩
  | _ => ⟨S8x900x1203, .f32⟩

abbrev hbmTy (i : Nat) : BufTy := match i / 128 with
  | 0 => hbmTy0_0 i
  | 1 => hbmTy0_1 i
  | _ => ⟨S8x900x1203, .f32⟩

abbrev bufTy : (tb : Table) → Fin (tcTables nBuf tb) → BufTy
  | .hbm, ⟨i, _⟩ => hbmTy i
  | _, _ => ⟨S8x900x1203, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_c : Ref sig .tc := ⟨.hbm, 42, rfl⟩
abbrev main_call0_v0 : Ref sig .tc := ⟨.hbm, 43, rfl⟩
abbrev main_call0_v1 : Ref sig .tc := ⟨.hbm, 44, rfl⟩
abbrev main_call0_c_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_c_1 : Ref sig .tc := ⟨.hbm, 50, rfl⟩
abbrev main_call0_c_2 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_3 : Ref sig .tc := ⟨.hbm, 58, rfl⟩
abbrev main_call0_v12 : Ref sig .tc := ⟨.hbm, 59, rfl⟩
abbrev main_call0_v13 : Ref sig .tc := ⟨.hbm, 60, rfl⟩
abbrev main_call0_v14 : Ref sig .tc := ⟨.hbm, 61, rfl⟩
abbrev main_call0_cst : Ref sig .tc := ⟨.hbm, 62, rfl⟩
abbrev main_call0_v15 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_9 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_10 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_cst_11 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_12 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_13 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_cst_14 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_cst_15 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_cst_16 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_17 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_18 : Ref sig .tc := ⟨.hbm, 168, rfl⟩
abbrev main_call1_v0 : Ref sig .tc := ⟨.hbm, 169, rfl⟩
abbrev main_call1_v1 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_cst_19 : Ref sig .tc := ⟨.hbm, 199, rfl⟩
abbrev main_call2_v0 : Ref sig .tc := ⟨.hbm, 200, rfl⟩
abbrev main_call2_v1 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_cst_20 : Ref sig .tc := ⟨.hbm, 211, rfl⟩
abbrev main_v160 : Ref sig .tc := ⟨.hbm, 212, rfl⟩
abbrev main_v161 : Ref sig .tc := ⟨.hbm, 213, rfl⟩
abbrev main_cst_21 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_cst_22 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩

abbrev nD : Nat := 1
abbrev τ : Topo := Topo.v7x

variable {F : FTy → Type} [FloatOps F]

class Facts₀ : Prop where
  bcast_S_S8x900x1203 : S_.BroadcastsInDim S8x900x1203 (![] : Fin 0 → Fin S8x900x1203.rank)
  bcast_S8x100_S8x1x100_0_2 : S8x100.BroadcastsInDim S8x1x100 (![0, 2] : Fin 2 → Fin S8x1x100.rank)
  bcast_S_S8x1x100 : S_.BroadcastsInDim S8x1x100 (![] : Fin 0 → Fin S8x1x100.rank)
  shapeCasts_S8x1x100_S8x100x1 : S8x1x100.ShapeCasts S8x100x1
  bcast_S_S8x100x1 : S_.BroadcastsInDim S8x100x1 (![] : Fin 0 → Fin S8x100x1.rank)
  bcast_S1_S1x1x1_2 : S1.BroadcastsInDim S1x1x1 (![2] : Fin 1 → Fin S1x1x1.rank)
  bcast_S1x1x1_S8x100x1_0_1_2 : S1x1x1.BroadcastsInDim S8x100x1 (![0, 1, 2] : Fin 3 → Fin S8x100x1.rank)
  reducesTo_S8x100x1_S8x100_d2 : S8x100x1.ReducesTo [2] S8x100
  h_S_ : 0 < S_.numel
  bcast_S8x100_S8x900x100_0_2 : S8x100.BroadcastsInDim S8x900x100 (![0, 2] : Fin 2 → Fin S8x900x100.rank)
  bcast_S_S8x900x100 : S_.BroadcastsInDim S8x900x100 (![] : Fin 0 → Fin S8x900x100.rank)
  bcast_S8x900x4_S8x900x1x4_0_1_3 : S8x900x4.BroadcastsInDim S8x900x1x4 (![0, 1, 3] : Fin 3 → Fin S8x900x1x4.rank)
  bcast_S8x100x4_S8x1x100x4_0_2_3 : S8x100x4.BroadcastsInDim S8x1x100x4 (![0, 2, 3] : Fin 3 → Fin S8x1x100x4.rank)
  bcast_S8x900x1x4_S8x900x100x4_0_1_2_3 : S8x900x1x4.BroadcastsInDim S8x900x100x4 (![0, 1, 2, 3] : Fin 4 → Fin S8x900x100x4.rank)
  bcast_S8x1x100x4_S8x900x100x4_0_1_2_3 : S8x1x100x4.BroadcastsInDim S8x900x100x4 (![0, 1, 2, 3] : Fin 4 → Fin S8x900x100x4.rank)
  reducesTo_S8x900x100x4_S8x900x100_d3 : S8x900x100x4.ReducesTo [3] S8x900x100
  slices_S8x900x4_S8x900x1_0_0_0 : S8x900x4.Slices ![0, 0, 0] S8x900x1
  shapeCasts_S8x900x1_S8x900 : S8x900x1.ShapeCasts S8x900
  slices_S8x900x4_S8x900x1_0_0_1 : S8x900x4.Slices ![0, 0, 1] S8x900x1
  slices_S8x900x4_S8x900x1_0_0_2 : S8x900x4.Slices ![0, 0, 2] S8x900x1
  slices_S8x900x4_S8x900x1_0_0_3 : S8x900x4.Slices ![0, 0, 3] S8x900x1
  bcast_S_S8x900 : S_.BroadcastsInDim S8x900 (![] : Fin 0 → Fin S8x900.rank)
  bcast_S8x900_S8x900x1_0_1 : S8x900.BroadcastsInDim S8x900x1 (![0, 1] : Fin 2 → Fin S8x900x1.rank)
  concatenates_S8x900x1_S8x900x1_S8x900x1_S8x900x1_S8x900x4_d2 : Shape.Concatenates [S8x900x1, S8x900x1, S8x900x1, S8x900x1] S8x900x4 2
  slices_S8x100x4_S8x100x1_0_0_0 : S8x100x4.Slices ![0, 0, 0] S8x100x1
  shapeCasts_S8x100x1_S8x100 : S8x100x1.ShapeCasts S8x100
  slices_S8x100x4_S8x100x1_0_0_1 : S8x100x4.Slices ![0, 0, 1] S8x100x1
  slices_S8x100x4_S8x100x1_0_0_2 : S8x100x4.Slices ![0, 0, 2] S8x100x1
  slices_S8x100x4_S8x100x1_0_0_3 : S8x100x4.Slices ![0, 0, 3] S8x100x1
  bcast_S_S8x100 : S_.BroadcastsInDim S8x100 (![] : Fin 0 → Fin S8x100.rank)
  bcast_S8x100_S8x100x1_0_1 : S8x100.BroadcastsInDim S8x100x1 (![0, 1] : Fin 2 → Fin S8x100x1.rank)
  concatenates_S8x100x1_S8x100x1_S8x100x1_S8x100x1_S8x100x4_d2 : Shape.Concatenates [S8x100x1, S8x100x1, S8x100x1, S8x100x1] S8x100x4 2
  slices_S8x900x4_S8x900x2_0_0_0 : S8x900x4.Slices ![0, 0, 0] S8x900x2
  bcast_S8x900x2_S8x900x1x2_0_1_3 : S8x900x2.BroadcastsInDim S8x900x1x2 (![0, 1, 3] : Fin 3 → Fin S8x900x1x2.rank)
  slices_S8x100x4_S8x100x2_0_0_0 : S8x100x4.Slices ![0, 0, 0] S8x100x2
  bcast_S8x100x2_S8x1x100x2_0_2_3 : S8x100x2.BroadcastsInDim S8x1x100x2 (![0, 2, 3] : Fin 3 → Fin S8x1x100x2.rank)
  bcast_S8x900x1x2_S8x900x100x2_0_1_2_3 : S8x900x1x2.BroadcastsInDim S8x900x100x2 (![0, 1, 2, 3] : Fin 4 → Fin S8x900x100x2.rank)
  bcast_S8x1x100x2_S8x900x100x2_0_1_2_3 : S8x1x100x2.BroadcastsInDim S8x900x100x2 (![0, 1, 2, 3] : Fin 4 → Fin S8x900x100x2.rank)
  slices_S8x900x4_S8x900x2_0_0_2 : S8x900x4.Slices ![0, 0, 2] S8x900x2
  slices_S8x100x4_S8x100x2_0_0_2 : S8x100x4.Slices ![0, 0, 2] S8x100x2
  bcast_S_S8x900x100x2 : S_.BroadcastsInDim S8x900x100x2 (![] : Fin 0 → Fin S8x900x100x2.rank)
  slices_S8x900x100x2_S8x900x100x1_0_0_0_0 : S8x900x100x2.Slices ![0, 0, 0, 0] S8x900x100x1
  shapeCasts_S8x900x100x1_S8x900x100 : S8x900x100x1.ShapeCasts S8x900x100
  slices_S8x900x100x2_S8x900x100x1_0_0_0_1 : S8x900x100x2.Slices ![0, 0, 0, 1] S8x900x100x1
  bcast_S8x900x1_S8x900x100_0_1_2 : S8x900x1.BroadcastsInDim S8x900x100 (![0, 1, 2] : Fin 3 → Fin S8x900x100.rank)
  bcast_S8x1x100_S8x900x100_0_1_2 : S8x1x100.BroadcastsInDim S8x900x100 (![0, 1, 2] : Fin 3 → Fin S8x900x100.rank)
  gather_S8x900x1203_S8x100x1_S8x900x100_1_2_0_0_2_2_19001_wf : GatherDims.WF S8x900x1203 S8x100x1 S8x900x100 [1] [2] [0] [2] [0] 2 ![1, 900, 1]

variable [Facts₀]

def gather_S8x900x1203_S8x100x1_S8x900x100_1_2_0_0_2_2_19001 : GatherDims S8x900x1203 S8x100x1 S8x900x100 where
  offsetDims := [1]
  collapsedSliceDims := [2]
  operandBatchingDims := [0]
  startIndicesBatchingDims := [0]
  startIndexMap := [2]
  indexVectorDim := 2
  sliceSizes := ![1, 900, 1]
  wf := gather_S8x900x1203_S8x100x1_S8x900x100_1_2_0_0_2_2_19001_wf

class Facts : Prop extends Facts₀ where

variable [Facts]
-- ==== Proof.WStored.lean ====
/-
  What the kernel body stores, as ONE function of the four blocks it loads.

  The body loads the logits block, the (padded) label row, the query boxes block and the (padded, transposed)
  target boxes block, and stores one value into the result block. The generated skeleton names every pure value
  on the way (`k0_pay1` … `k0_pay29`); `stored` is their composition from the four loads, generic in the float
  instance. Nothing is evaluated here.
-/
import proofs.«409724_j36000415875396_3_alg».proof.Proof.Gen.Kernel.Skeleton

noncomputable section

namespace Cert.Kernel.Hand

open Idealize.ShloMosaic Idealize.SL.Sem Cert.Kernel Cert.Kernel.Gen

variable {F : FTy → Type} [FloatOps F]

/-- The query boxes block as a 128×4 matrix, and the target boxes block as a 4×128 one. -/
abbrev qboxes (X2 : Vec F S1x128x4 .f32) : FVec F S128x4 .f32 := k0_pay3 X2
abbrev tboxes (X3 : Vec F S1x4x128 .f32) : FVec F S4x128 .f32 := k0_pay4 X3

/-- The generalised-IoU term of every (query row, target lane) pair of the block. -/
def giouBlock (X2 : Vec F S1x128x4 .f32) (X3 : Vec F S1x4x128 .f32) : FVec F S128x128 .f32 :=
  k0_pay26 (k0_pay9 (qboxes X2)) (k0_pay10 (qboxes X2)) (k0_pay11 (qboxes X2)) (k0_pay12 (qboxes X2))
    (k0_pay17 (tboxes X3)) (k0_pay18 (tboxes X3)) (k0_pay19 (tboxes X3)) (k0_pay20 (tboxes X3))
    (k0_pay21 (qboxes X2)) (k0_pay22 (tboxes X3))
    (k0_pay23 (qboxes X2) (tboxes X3)) (k0_pay24 (qboxes X2) (tboxes X3)) (k0_pay25 (qboxes X2) (tboxes X3))
    (Scalar.ofBits .f32 0x00000000#32)

/-- The L1 distance of every (query row, target lane) pair of the block. -/
def l1Block (X2 : Vec F S1x128x4 .f32) (X3 : Vec F S1x4x128 .f32) : FVec F S128x128 .f32 :=
  k0_pay27 (k0_pay5 (qboxes X2)) (k0_pay6 (qboxes X2)) (k0_pay7 (qboxes X2)) (k0_pay8 (qboxes X2))
    (k0_pay13 (tboxes X3)) (k0_pay14 (tboxes X3)) (k0_pay15 (tboxes X3)) (k0_pay16 (tboxes X3))

/-- Twice the focal class cost of every (query row, target lane) pair: the logit gathered by the one-hot product. -/
def clsBlock (X0 : Vec F S1x128x1203 .f32) (X1 : Vec F S1x1x128 .i32) : FVec F S128x128 .f32 :=
  k0_pay28 (k0_pay2 X0 X1)

/-- The value the body stores into the result block, from the contents of the four input blocks. -/
def stored (X0 : Vec F S1x128x1203 .f32) (X1 : Vec F S1x1x128 .i32) (X2 : Vec F S1x128x4 .f32) (X3 : Vec F S1x4x128 .f32) :
    FVec F S1x128x100 .f32 :=
  k0_pay1 (giouBlock X2 X3) (l1Block X2 X3) (clsBlock X0 X1) k0_pay29

end Cert.Kernel.Hand

end
-- ==== Proof.WBody.lean ====
/-
  The kernel body as a triple, at any float instance.

  The body is straight-line: it reads the whole logits block, the whole label row, the whole query boxes block and
  the whole target boxes block, reads the result block once (a value nothing uses), and writes the whole result
  block once. So from the five staging buffers at any contents it runs to the end without a fault, leaves the four
  input buffers as they were, and leaves the result buffer holding `stored` of what the four input buffers held:
  the one write covers the block, so what was there before does not matter, and a read of a whole block at offset
  zero is the block.
-/
import proofs.«409724_j36000415875396_3_alg».proof.Proof.WStored
import proofs.«409724_j36000415875396_3_alg».proof.Proof.Gen.Kernel.Frame
import Idealize.ShloMosaic.Lib.Pipeline.FrameBody
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

/-- The offsets of a whole-block access of a rank-3 block are all zero. -/
theorem offsets_zero : (![0, 0, 0] : Fin 3 → Nat) = fun _ => 0 := funext fun a => by fin_cases a <;> rfl

/-- The body's one write: the whole result block. -/
abbrev wholeResult : Rect S1x128x100 :=
  Rect.unit (s := S1x128x100) ![0, 0, 0] S1x128x100.size Gen.inb_S1x128x100_S1x128x100_0_0_0

/-- That one write covers the result block. -/
theorem wholeResult_covers (p0 : Vec F S1x128x100 .f32) (y : S1x128x100.Idx) :
    ∃ pc ∈ ([⟨wholeResult, p0⟩] : List (View.Piece (Elt F) S1x128x100 .f32)), y ∈ pc.1.set :=
  View.cover_of_tiled [⟨wholeResult, p0⟩] S1x128x100.size (by rfl) y

set_option maxHeartbeats 1000000 in
/-- The body on whole staging buffers holding `x0` (logits), `x1` (labels), `x2` (query boxes), `x3` (target
    boxes) and anything (result): it runs to the continuation with the four inputs as they were and the result
    buffer at `stored x0 x1 x2 x3`. -/
theorem sound_kernel (c : Dev nD) (E : Set ℕ) (i : grid0.Coords)
    (arg2 : Memref sig .tc .vmem S1x128x1203 .f32) (harg2 : arg2.IsWhole) (arg3 : Memref sig .tc .vmem S1x1x128 .i32) (harg3 : arg3.IsWhole)
    (arg4 : Memref sig .tc .vmem S1x128x4 .f32) (harg4 : arg4.IsWhole) (arg5 : Memref sig .tc .vmem S1x4x128 .f32) (harg5 : arg5.IsWhole)
    (arg6 : Memref sig .tc .vmem S1x128x100 .f32) (harg6 : arg6.IsWhole)
    (x0 : Vec F S1x128x1203 .f32) (x1 : Vec F S1x1x128 .i32) (x2 : Vec F S1x128x4 .f32) (x3 : Vec F S1x4x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (stored x0 x1 x2 x3)) -∗ K ⟨⟩))
      ⊢ wp frame (wpE (defs₀ (F := F)) Variants.none c none) E (cc0__cost_kernel i arg2 harg2 arg3 harg3 arg4 harg4 arg5 harg5 arg6 harg6) K := by
  simp only [cc0__cost_kernel_eq_skeleton]; unfold cc0__cost_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the result buffer read back: its one covering piece, whose payload is the composition of the loads' values
  rw [View.read_writes_eq_canon _ _ _ (wholeResult_covers _)]
  sl_unfold_words
  rw [View.canon_unit_zero offsets_zero]
  simp only [View.readAt_eq_ld, View.ld_unit_zero (S := S1x128x1203) offsets_zero, View.ld_unit_zero (S := S1x1x128) offsets_zero,
    View.ld_unit_zero (S := S1x128x4) offsets_zero, View.ld_unit_zero (S := S1x4x128) offsets_zero]
  rfl

end Cert.Kernel.Hand

end
-- ==== Proof.WFrameData.lean ====
/-
  The proof data of the launch and the body's obligation, at any float instance.

  After the body at a grid point the logits and query boxes buffers hold what their fetches brought (the block's
  rows inside the array; past the array's end anything), the label and target boxes buffers their blocks, and the
  result buffer the stored value. The result is meant to end as an array `Aout`: the proof data names, for the
  result buffer, `Aout`'s block filled out past the array's end. The body meets that description exactly when the
  stored value, cut to the rows inside the array, is `Aout`'s block (`obligation_of_cut`); and with the result
  buffer's contents left unstated it meets it outright (`obligation_forget`). Rows past the array's end are never
  compared: every clipped window is described on its rows inside the array only.
-/
import proofs.«409724_j36000415875396_3_alg».proof.Proof.WBody
import Idealize.ShloMosaic.Lib.Pipeline.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (Aout : (c : Dev nD) → S8x900x100.Idx → Elt F .f32)

/-- Contents nothing reads: what fills a clipped block out past the array's end in the proof data. -/
def pastEnd {S : Shape} {e : EltTy} : S.Idx → Elt F e := fun _ => Classical.arbitrary _

/-- `Aout`'s block at point t: what the write-back at t is meant to write. -/
def resultBlk (c : Dev nD) (t : Fin cfg0.N) : ((cfg0.win 4).xblock (cfg0.grid.coords t)).Idx → Elt F .f32 :=
  ((cfg0.win 4).blk t).view.read (Elt F) (Aout c)

/-- The proof data of the one launch on core c. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) pastEnd (iblk m c 0 t)
    | ⟨1, _⟩ => iblk m c 1 t
    | ⟨2, _⟩ => win0_2.fill (grid0.coords t) pastEnd (iblk m c 2 t)
    | ⟨3, _⟩ => iblk m c 3 t
    | ⟨4, _⟩ => win0_4.fill (grid0.coords t) pastEnd (resultBlk Aout c t)
  Φ _ := Pipeline.ΦA spec0 c
  q _ := fullShare
  owed _ := 0

theorem A_eq (c : Dev nD) (w : Fin cfg0.W) : (dats m Aout 0 c).A w = V m c (Pipeline.arrRef spec0 w) := by
  dsimp only [dats]

theorem after0_0 (c : Dev nD) (t : Fin cfg0.N) :
    (dats m Aout 0 c).after 0 t = win0_0.fill (grid0.coords t) pastEnd (iblk m c 0 t) := by dsimp only [dats]
theorem after0_1 (c : Dev nD) (t : Fin cfg0.N) : (dats m Aout 0 c).after 1 t = iblk m c 1 t := by dsimp only [dats]
theorem after0_2 (c : Dev nD) (t : Fin cfg0.N) :
    (dats m Aout 0 c).after 2 t = win0_2.fill (grid0.coords t) pastEnd (iblk m c 2 t) := by dsimp only [dats]
theorem after0_3 (c : Dev nD) (t : Fin cfg0.N) : (dats m Aout 0 c).after 3 t = iblk m c 3 t := by dsimp only [dats]
theorem after0_4 (c : Dev nD) (t : Fin cfg0.N) :
    (dats m Aout 0 c).after 4 t = win0_4.fill (grid0.coords t) pastEnd (resultBlk Aout c t) := by dsimp only [dats]

/-- The logits buffer as the body finds it: fetched at every point, so the block on the rows inside the array and
    anything past them. -/
theorem before0_0 (c : Dev nD) (t : Fin cfg0.N) (d) :
    (dats m Aout 0 c).before 0 t d = win0_0.fill (grid0.coords t) d (iblk m c 0 t) := by
  unfold Dat.before; rw [if_pos (fetch0_0 t)]; rfl
/-- The query boxes buffer likewise. -/
theorem before0_2 (c : Dev nD) (t : Fin cfg0.N) (d) :
    (dats m Aout 0 c).before 2 t d = win0_2.fill (grid0.coords t) d (iblk m c 2 t) := by
  unfold Dat.before; rw [if_pos (fetch0_2 t)]; rfl
/-- The label buffer holds its block at every point, fetched there or not; -/
theorem before0_1 (c : Dev nD) (t : Fin cfg0.N) (d) : (dats m Aout 0 c).before 1 t d = iblk m c 1 t :=
  before0_1_of m (dats m Aout 0 c) (A_eq m Aout c 1) (after0_1 m Aout c) t d
/-- and so does the target boxes buffer. -/
theorem before0_3 (c : Dev nD) (t : Fin cfg0.N) (d) : (dats m Aout 0 c).before 3 t d = iblk m c 3 t :=
  before0_3_of m (dats m Aout 0 c) (A_eq m Aout c 3) (after0_3 m Aout c) t d

/-- The value the body stores at point t when the two clipped buffers hold `d0`, `d2` past the array's end. -/
def storedAt (c : Dev nD) (t : Fin cfg0.N) (d0 : S1x128x1203.Idx → Elt F .f32) (d2 : S1x128x4.Idx → Elt F .f32) :
    S1x128x100.Idx → Elt F .f32 :=
  stored (win0_0.fill (grid0.coords t) d0 (iblk m c 0 t)) (iblk m c 1 t)
    (win0_2.fill (grid0.coords t) d2 (iblk m c 2 t)) (iblk m c 3 t)

/-- THE BODY OBLIGATION, when the stored value's rows inside the array are `Aout`'s block whatever the two clipped
    input buffers hold past the array's end. -/
theorem obligation_of_cut (c : Dev nD)
    (hcut : ∀ (t : Fin cfg0.N) d0 d2, win0_4.cut (grid0.coords t) (storedAt m c t d0 d2) = resultBlk Aout c t) :
    BodyObligationLoose (dats m Aout 0 c) (defs₀ (F := F)) Variants.none () Set.univ := fun t => by
  rw [bigSep_W0, bigSep_W0]
  simp only
  rw [show (dats m Aout 0 c).Φ t.succ = (dats m Aout 0 c).Φ t.castSucc from rfl,
    show (dats m Aout 0 c).owesAt () t.succ = (dats m Aout 0 c).owesAt () t.castSucc from rfl]
  iintro ⟨HΦ, Ho, ⟨%d0, H0⟩, ⟨%d1, H1⟩, ⟨%d2, H2⟩, ⟨%d3, H3⟩, ⟨%d4, H4⟩⟩
  rw [before0_0 m Aout c t d0, before0_1 m Aout c t d1, before0_2 m Aout c t d2, before0_3 m Aout c t d3]
  iapply (sound_kernel (F := F) c Set.univ (grid0.coords t) _ _ _ _ _ _ _ _ _ _
    (win0_0.fill (grid0.coords t) d0 (iblk m c 0 t)) (iblk m c 1 t) (win0_2.fill (grid0.coords t) d2 (iblk m c 2 t)) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  -- each clipped buffer is handed back described on its rows inside the array
  have h0 : win0_0.cut (grid0.coords t) ((dats m Aout 0 c).after 0 t) = iblk m c 0 t := by
    rw [after0_0]; exact win0_0.cut_fill _ _ _
  have h2 : win0_2.cut (grid0.coords t) ((dats m Aout 0 c).after 2 t) = iblk m c 2 t := by
    rw [after0_2]; exact win0_2.cut_fill _ _ _
  have h4 : win0_4.cut (grid0.coords t) ((dats m Aout 0 c).after 4 t) = win0_4.cut (grid0.coords t) (storedAt m c t d0 d2) := by
    rw [after0_4, hcut t d0 d2]; exact win0_4.cut_fill _ _ _
  isplitl [H0]
  · iexists d0
    change _ ⊢ owns (c : Thread nD τ) (st0_0 t) fullShare (win0_0.fill (grid0.coords t) d0 (win0_0.cut (grid0.coords t) ((dats m Aout 0 c).after 0 t)))
    rw [h0]; try iexact H0
  isplitl [H1]
  · rw [after0_1]; try iexact H1
  isplitl [H2]
  · iexists d2
    change _ ⊢ owns (c : Thread nD τ) (st0_2 t) fullShare (win0_2.fill (grid0.coords t) d2 (win0_2.cut (grid0.coords t) ((dats m Aout 0 c).after 2 t)))
    rw [h2]; try iexact H2
  isplitl [H3]
  · rw [after0_3]; try iexact H3
  · iexists storedAt m c t d0 d2
    change _ ⊢ owns (c : Thread nD τ) (st0_4 t) fullShare (win0_4.fill (grid0.coords t) (storedAt m c t d0 d2) (win0_4.cut (grid0.coords t) ((dats m Aout 0 c).after 4 t)))
    rw [h4, win0_4.fill_cut]; exact BI.Entails.refl _

/-- The result window, whose contents the frame does not read. -/
abbrev forgetResult : Fin cfg0.W → Bool := fun
  | 0 => false | 1 => false | 2 => false | 3 => false | 4 => true
  | ⟨_ + 5, h⟩ => absurd h (Nat.not_lt.2 (Nat.le_add_left _ _))

/-- THE BODY OBLIGATION with the result buffer's contents left unstated. -/
theorem obligation_forget (c : Dev nD) :
    BodyObligationLoose (dats m Aout 0 c) (defs₀ (F := F)) Variants.none () Set.univ forgetResult := fun t => by
  rw [bigSep_W0, bigSep_W0]
  simp only
  rw [show (dats m Aout 0 c).Φ t.succ = (dats m Aout 0 c).Φ t.castSucc from rfl,
    show (dats m Aout 0 c).owesAt () t.succ = (dats m Aout 0 c).owesAt () t.castSucc from rfl]
  iintro ⟨HΦ, Ho, ⟨%d0, H0⟩, ⟨%d1, H1⟩, ⟨%d2, H2⟩, ⟨%d3, H3⟩, ⟨%d4, H4⟩⟩
  rw [before0_0 m Aout c t d0, before0_1 m Aout c t d1, before0_2 m Aout c t d2, before0_3 m Aout c t d3]
  iapply (sound_kernel (F := F) c Set.univ (grid0.coords t) _ _ _ _ _ _ _ _ _ _
    (win0_0.fill (grid0.coords t) d0 (iblk m c 0 t)) (iblk m c 1 t) (win0_2.fill (grid0.coords t) d2 (iblk m c 2 t)) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  have h0 : win0_0.cut (grid0.coords t) ((dats m Aout 0 c).after 0 t) = iblk m c 0 t := by
    rw [after0_0]; exact win0_0.cut_fill _ _ _
  have h2 : win0_2.cut (grid0.coords t) ((dats m Aout 0 c).after 2 t) = iblk m c 2 t := by
    rw [after0_2]; exact win0_2.cut_fill _ _ _
  isplitl [H0]
  · iexists d0
    change _ ⊢ owns (c : Thread nD τ) (st0_0 t) fullShare (win0_0.fill (grid0.coords t) d0 (win0_0.cut (grid0.coords t) ((dats m Aout 0 c).after 0 t)))
    rw [h0]; try iexact H0
  isplitl [H1]
  · rw [after0_1]; try iexact H1
  isplitl [H2]
  · iexists d2
    change _ ⊢ owns (c : Thread nD τ) (st0_2 t) fullShare (win0_2.fill (grid0.coords t) d2 (win0_2.cut (grid0.coords t) ((dats m Aout 0 c).after 2 t)))
    rw [h2]; try iexact H2
  isplitl [H3]
  · rw [after0_3]; try iexact H3
  · iexists _; iexact H4

end Cert.Kernel.Hand

end
-- ==== Proof.WFrameAny.lean ====
/-
  The frame, at any float instance: the launch runs to the end, nothing faults, and the four argument arrays end as
  they began.

  For the frame nothing need be said of what the result array holds, so the result buffer's contents are left
  unstated in the body's obligation; the run then says of the logits and query boxes arrays, which the launch only
  reads, that they hold what they held at the launch, and of the labels and target boxes arrays, which no window
  touches, the same.
-/
import proofs.«409724_j36000415875396_3_alg».proof.Proof.WFrameData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

variable (m : (ℓ : Loc nD τ sig) → Buf (Elt F) ℓ) (ρ : Dev nD → PrngReg)

/-- An array for the proof data to name where nothing reads it. -/
def anyResult (c : Dev nD) : S8x900x100.Idx → Elt F .f32 := pastEnd

set_option backward.isDefEq.respectTransparency.types false in
/-- Every weakly fair execution of @main terminates without a fault; the arrays the windows stage hold what they may
    hold after the last write-back, the others what they held when the launch began. -/
theorem run_forget : θ_run defs (onTc (τ := τ) (main (F := F))) (s₀ m ρ)
    (Pipeline.RDat.FramePost cfg0 (fun c => (dats m anyResult 0 c).toRForget forgetResult) (V m)) :=
  Pipeline.RDat.θ_run_frame cfgs (0 : Fin 1) launch0 defs₀ Variants.none
    (fun c => (dats m anyResult 0 c).toRForget forgetResult) m ρ main
    (hbody := fun c => (obligation_forget m anyResult c).toRForget)
    (hshare := fun c => (dats m anyResult 0 c).share_full fun _ => rfl)
    (howed := fun _ _ => rfl) (V := V m) (hmain := hmain m Variants.none)
    (hA := fun c w => A_eq m anyResult c w) (hΦ := fun _ _ => rfl)

/-- THE FRAME: the four argument arrays end unchanged. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(((dats m anyResult 0 c).toRForget_arrAt_iff (fgt := forgetResult) (w := 0) rfl _ _).mp ((h c).1 0)).trans
        (((dats m anyResult 0 c).arrAt_in 0 rfl _).trans ((A_eq m anyResult c 0).trans (V_main_arg0 m c))),
      (((dats m anyResult 0 c).toRForget_arrAt_iff (fgt := forgetResult) (w := 2) rfl _ _).mp ((h c).1 2)).trans
        (((dats m anyResult 0 c).arrAt_in 2 rfl _).trans ((A_eq m anyResult c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_forget m ρ)

end Cert.Kernel.Hand

end
-- ==== Proof.Stored.lean ====
/-
  What the kernel body stores, as ONE function of the four blocks it loads.

  The body loads the logits block, the (padded) label row, the query boxes block and the (padded, transposed)
  target boxes block, and stores one value into the result block. The generated skeleton names every pure value
  on the way (`k0_pay1` … `k0_pay29`); `stored` is their composition from the four loads, generic in the float
  instance. Nothing is evaluated here.
-/
import proofs.«409724_j36000415875396_3_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F]

/-- The query boxes block as a 128×4 matrix, and the target boxes block as a 4×128 one. -/
abbrev qboxes (X2 : Vec F S1x128x4 .f32) : FVec F S128x4 .f32 := k0_pay3 X2
abbrev tboxes (X3 : Vec F S1x4x128 .f32) : FVec F S4x128 .f32 := k0_pay4 X3

/-- The generalised-IoU term of every (query row, target lane) pair of the block. -/
def giouBlock (X2 : Vec F S1x128x4 .f32) (X3 : Vec F S1x4x128 .f32) : FVec F S128x128 .f32 :=
  k0_pay26 (k0_pay9 (qboxes X2)) (k0_pay10 (qboxes X2)) (k0_pay11 (qboxes X2)) (k0_pay12 (qboxes X2))
    (k0_pay17 (tboxes X3)) (k0_pay18 (tboxes X3)) (k0_pay19 (tboxes X3)) (k0_pay20 (tboxes X3))
    (k0_pay21 (qboxes X2)) (k0_pay22 (tboxes X3))
    (k0_pay23 (qboxes X2) (tboxes X3)) (k0_pay24 (qboxes X2) (tboxes X3)) (k0_pay25 (qboxes X2) (tboxes X3))
    (Scalar.ofBits .f32 0x00000000#32)

/-- The L1 distance of every (query row, target lane) pair of the block. -/
def l1Block (X2 : Vec F S1x128x4 .f32) (X3 : Vec F S1x4x128 .f32) : FVec F S128x128 .f32 :=
  k0_pay27 (k0_pay5 (qboxes X2)) (k0_pay6 (qboxes X2)) (k0_pay7 (qboxes X2)) (k0_pay8 (qboxes X2))
    (k0_pay13 (tboxes X3)) (k0_pay14 (tboxes X3)) (k0_pay15 (tboxes X3)) (k0_pay16 (tboxes X3))

/-- Twice the focal class cost of every (query row, target lane) pair: the logit gathered by the one-hot product. -/
def clsBlock (X0 : Vec F S1x128x1203 .f32) (X1 : Vec F S1x1x128 .i32) : FVec F S128x128 .f32 :=
  k0_pay28 (k0_pay2 X0 X1)

/-- The value the body stores into the result block, from the contents of the four input blocks. -/
def stored (X0 : Vec F S1x128x1203 .f32) (X1 : Vec F S1x1x128 .i32) (X2 : Vec F S1x128x4 .f32) (X3 : Vec F S1x4x128 .f32) :
    FVec F S1x128x100 .f32 :=
  k0_pay1 (giouBlock X2 X3) (l1Block X2 X3) (clsBlock X0 X1) k0_pay29

end Cert.KernelIdeal.Hand

end
-- ==== Proof.Body.lean ====
/-
  The kernel body as a triple, at any float instance.

  The body is straight-line: it reads the whole logits block, the whole label row, the whole query boxes block and
  the whole target boxes block, reads the result block once (a value nothing uses), and writes the whole result
  block once. So from the five staging buffers at any contents it runs to the end without a fault, leaves the four
  input buffers as they were, and leaves the result buffer holding `stored` of what the four input buffers held:
  the one write covers the block, so what was there before does not matter, and a read of a whole block at offset
  zero is the block.
-/
import proofs.«409724_j36000415875396_3_alg».proof.Proof.Stored
import proofs.«409724_j36000415875396_3_alg».proof.Proof.Gen.KernelIdeal.Frame
import Idealize.ShloMosaic.Lib.Pipeline.FrameBody
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

/-- The offsets of a whole-block access of a rank-3 block are all zero. -/
theorem offsets_zero : (![0, 0, 0] : Fin 3 → Nat) = fun _ => 0 := funext fun a => by fin_cases a <;> rfl

/-- The body's one write: the whole result block. -/
abbrev wholeResult : Rect S1x128x100 :=
  Rect.unit (s := S1x128x100) ![0, 0, 0] S1x128x100.size Gen.inb_S1x128x100_S1x128x100_0_0_0

/-- That one write covers the result block. -/
theorem wholeResult_covers (p0 : Vec F S1x128x100 .f32) (y : S1x128x100.Idx) :
    ∃ pc ∈ ([⟨wholeResult, p0⟩] : List (View.Piece (Elt F) S1x128x100 .f32)), y ∈ pc.1.set :=
  View.cover_of_tiled [⟨wholeResult, p0⟩] S1x128x100.size (by rfl) y

set_option maxHeartbeats 1000000 in
/-- The body on whole staging buffers holding `x0` (logits), `x1` (labels), `x2` (query boxes), `x3` (target
    boxes) and anything (result): it runs to the continuation with the four inputs as they were and the result
    buffer at `stored x0 x1 x2 x3`. -/
theorem sound_kernel (c : Dev nD) (E : Set ℕ) (i : grid0.Coords)
    (arg2 : Memref sig .tc .vmem S1x128x1203 .f32) (harg2 : arg2.IsWhole) (arg3 : Memref sig .tc .vmem S1x1x128 .i32) (harg3 : arg3.IsWhole)
    (arg4 : Memref sig .tc .vmem S1x128x4 .f32) (harg4 : arg4.IsWhole) (arg5 : Memref sig .tc .vmem S1x4x128 .f32) (harg5 : arg5.IsWhole)
    (arg6 : Memref sig .tc .vmem S1x128x100 .f32) (harg6 : arg6.IsWhole)
    (x0 : Vec F S1x128x1203 .f32) (x1 : Vec F S1x1x128 .i32) (x2 : Vec F S1x128x4 .f32) (x3 : Vec F S1x4x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (stored x0 x1 x2 x3)) -∗ K ⟨⟩))
      ⊢ wp frame (wpE (defs₀ (F := F)) Variants.none c none) E (cc0__cost_kernel i arg2 harg2 arg3 harg3 arg4 harg4 arg5 harg5 arg6 harg6) K := by
  simp only [cc0__cost_kernel_eq_skeleton]; unfold cc0__cost_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the result buffer read back: its one covering piece, whose payload is the composition of the loads' values
  rw [View.read_writes_eq_canon _ _ _ (wholeResult_covers _)]
  sl_unfold_words
  rw [View.canon_unit_zero offsets_zero]
  simp only [View.readAt_eq_ld, View.ld_unit_zero (S := S1x128x1203) offsets_zero, View.ld_unit_zero (S := S1x1x128) offsets_zero,
    View.ld_unit_zero (S := S1x128x4) offsets_zero, View.ld_unit_zero (S := S1x4x128) offsets_zero]
  rfl

end Cert.KernelIdeal.Hand

end
-- ==== Proof.FrameData.lean ====
/-
  The proof data of the launch and the body's obligation, at any float instance.

  After the body at a grid point the logits and query boxes buffers hold what their fetches brought (the block's
  rows inside the array; past the array's end anything), the label and target boxes buffers their blocks, and the
  result buffer the stored value. The result is meant to end as an array `Aout`: the proof data names, for the
  result buffer, `Aout`'s block filled out past the array's end. The body meets that description exactly when the
  stored value, cut to the rows inside the array, is `Aout`'s block (`obligation_of_cut`); and with the result
  buffer's contents left unstated it meets it outright (`obligation_forget`). Rows past the array's end are never
  compared: every clipped window is described on its rows inside the array only.
-/
import proofs.«409724_j36000415875396_3_alg».proof.Proof.Body
import Idealize.ShloMosaic.Lib.Pipeline.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (Aout : (c : Dev nD) → S8x900x100.Idx → Elt F .f32)

/-- Contents nothing reads: what fills a clipped block out past the array's end in the proof data. -/
def pastEnd {S : Shape} {e : EltTy} : S.Idx → Elt F e := fun _ => Classical.arbitrary _

/-- `Aout`'s block at point t: what the write-back at t is meant to write. -/
def resultBlk (c : Dev nD) (t : Fin cfg0.N) : ((cfg0.win 4).xblock (cfg0.grid.coords t)).Idx → Elt F .f32 :=
  ((cfg0.win 4).blk t).view.read (Elt F) (Aout c)

/-- The proof data of the one launch on core c. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) pastEnd (iblk m c 0 t)
    | ⟨1, _⟩ => iblk m c 1 t
    | ⟨2, _⟩ => win0_2.fill (grid0.coords t) pastEnd (iblk m c 2 t)
    | ⟨3, _⟩ => iblk m c 3 t
    | ⟨4, _⟩ => win0_4.fill (grid0.coords t) pastEnd (resultBlk Aout c t)
  Φ _ := Pipeline.ΦA spec0 c
  q _ := fullShare
  owed _ := 0

theorem A_eq (c : Dev nD) (w : Fin cfg0.W) : (dats m Aout 0 c).A w = V m c (Pipeline.arrRef spec0 w) := by
  dsimp only [dats]

theorem after0_0 (c : Dev nD) (t : Fin cfg0.N) :
    (dats m Aout 0 c).after 0 t = win0_0.fill (grid0.coords t) pastEnd (iblk m c 0 t) := by dsimp only [dats]
theorem after0_1 (c : Dev nD) (t : Fin cfg0.N) : (dats m Aout 0 c).after 1 t = iblk m c 1 t := by dsimp only [dats]
theorem after0_2 (c : Dev nD) (t : Fin cfg0.N) :
    (dats m Aout 0 c).after 2 t = win0_2.fill (grid0.coords t) pastEnd (iblk m c 2 t) := by dsimp only [dats]
theorem after0_3 (c : Dev nD) (t : Fin cfg0.N) : (dats m Aout 0 c).after 3 t = iblk m c 3 t := by dsimp only [dats]
theorem after0_4 (c : Dev nD) (t : Fin cfg0.N) :
    (dats m Aout 0 c).after 4 t = win0_4.fill (grid0.coords t) pastEnd (resultBlk Aout c t) := by dsimp only [dats]

/-- The logits buffer as the body finds it: fetched at every point, so the block on the rows inside the array and
    anything past them. -/
theorem before0_0 (c : Dev nD) (t : Fin cfg0.N) (d) :
    (dats m Aout 0 c).before 0 t d = win0_0.fill (grid0.coords t) d (iblk m c 0 t) := by
  unfold Dat.before; rw [if_pos (fetch0_0 t)]; rfl
/-- The query boxes buffer likewise. -/
theorem before0_2 (c : Dev nD) (t : Fin cfg0.N) (d) :
    (dats m Aout 0 c).before 2 t d = win0_2.fill (grid0.coords t) d (iblk m c 2 t) := by
  unfold Dat.before; rw [if_pos (fetch0_2 t)]; rfl
/-- The label buffer holds its block at every point, fetched there or not; -/
theorem before0_1 (c : Dev nD) (t : Fin cfg0.N) (d) : (dats m Aout 0 c).before 1 t d = iblk m c 1 t :=
  before0_1_of m (dats m Aout 0 c) (A_eq m Aout c 1) (after0_1 m Aout c) t d
/-- and so does the target boxes buffer. -/
theorem before0_3 (c : Dev nD) (t : Fin cfg0.N) (d) : (dats m Aout 0 c).before 3 t d = iblk m c 3 t :=
  before0_3_of m (dats m Aout 0 c) (A_eq m Aout c 3) (after0_3 m Aout c) t d

/-- The value the body stores at point t when the two clipped buffers hold `d0`, `d2` past the array's end. -/
def storedAt (c : Dev nD) (t : Fin cfg0.N) (d0 : S1x128x1203.Idx → Elt F .f32) (d2 : S1x128x4.Idx → Elt F .f32) :
    S1x128x100.Idx → Elt F .f32 :=
  stored (win0_0.fill (grid0.coords t) d0 (iblk m c 0 t)) (iblk m c 1 t)
    (win0_2.fill (grid0.coords t) d2 (iblk m c 2 t)) (iblk m c 3 t)

/-- THE BODY OBLIGATION, when the stored value's rows inside the array are `Aout`'s block whatever the two clipped
    input buffers hold past the array's end. -/
theorem obligation_of_cut (c : Dev nD)
    (hcut : ∀ (t : Fin cfg0.N) d0 d2, win0_4.cut (grid0.coords t) (storedAt m c t d0 d2) = resultBlk Aout c t) :
    BodyObligationLoose (dats m Aout 0 c) (defs₀ (F := F)) Variants.none () Set.univ := fun t => by
  rw [bigSep_W0, bigSep_W0]
  simp only
  rw [show (dats m Aout 0 c).Φ t.succ = (dats m Aout 0 c).Φ t.castSucc from rfl,
    show (dats m Aout 0 c).owesAt () t.succ = (dats m Aout 0 c).owesAt () t.castSucc from rfl]
  iintro ⟨HΦ, Ho, ⟨%d0, H0⟩, ⟨%d1, H1⟩, ⟨%d2, H2⟩, ⟨%d3, H3⟩, ⟨%d4, H4⟩⟩
  rw [before0_0 m Aout c t d0, before0_1 m Aout c t d1, before0_2 m Aout c t d2, before0_3 m Aout c t d3]
  iapply (sound_kernel (F := F) c Set.univ (grid0.coords t) _ _ _ _ _ _ _ _ _ _
    (win0_0.fill (grid0.coords t) d0 (iblk m c 0 t)) (iblk m c 1 t) (win0_2.fill (grid0.coords t) d2 (iblk m c 2 t)) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  -- each clipped buffer is handed back described on its rows inside the array
  have h0 : win0_0.cut (grid0.coords t) ((dats m Aout 0 c).after 0 t) = iblk m c 0 t := by
    rw [after0_0]; exact win0_0.cut_fill _ _ _
  have h2 : win0_2.cut (grid0.coords t) ((dats m Aout 0 c).after 2 t) = iblk m c 2 t := by
    rw [after0_2]; exact win0_2.cut_fill _ _ _
  have h4 : win0_4.cut (grid0.coords t) ((dats m Aout 0 c).after 4 t) = win0_4.cut (grid0.coords t) (storedAt m c t d0 d2) := by
    rw [after0_4, hcut t d0 d2]; exact win0_4.cut_fill _ _ _
  isplitl [H0]
  · iexists d0
    change _ ⊢ owns (c : Thread nD τ) (st0_0 t) fullShare (win0_0.fill (grid0.coords t) d0 (win0_0.cut (grid0.coords t) ((dats m Aout 0 c).after 0 t)))
    rw [h0]; try iexact H0
  isplitl [H1]
  · rw [after0_1]; try iexact H1
  isplitl [H2]
  · iexists d2
    change _ ⊢ owns (c : Thread nD τ) (st0_2 t) fullShare (win0_2.fill (grid0.coords t) d2 (win0_2.cut (grid0.coords t) ((dats m Aout 0 c).after 2 t)))
    rw [h2]; try iexact H2
  isplitl [H3]
  · rw [after0_3]; try iexact H3
  · iexists storedAt m c t d0 d2
    change _ ⊢ owns (c : Thread nD τ) (st0_4 t) fullShare (win0_4.fill (grid0.coords t) (storedAt m c t d0 d2) (win0_4.cut (grid0.coords t) ((dats m Aout 0 c).after 4 t)))
    rw [h4, win0_4.fill_cut]; exact BI.Entails.refl _

/-- The result window, whose contents the frame does not read. -/
abbrev forgetResult : Fin cfg0.W → Bool := fun
  | 0 => false | 1 => false | 2 => false | 3 => false | 4 => true
  | ⟨_ + 5, h⟩ => absurd h (Nat.not_lt.2 (Nat.le_add_left _ _))

/-- THE BODY OBLIGATION with the result buffer's contents left unstated. -/
theorem obligation_forget (c : Dev nD) :
    BodyObligationLoose (dats m Aout 0 c) (defs₀ (F := F)) Variants.none () Set.univ forgetResult := fun t => by
  rw [bigSep_W0, bigSep_W0]
  simp only
  rw [show (dats m Aout 0 c).Φ t.succ = (dats m Aout 0 c).Φ t.castSucc from rfl,
    show (dats m Aout 0 c).owesAt () t.succ = (dats m Aout 0 c).owesAt () t.castSucc from rfl]
  iintro ⟨HΦ, Ho, ⟨%d0, H0⟩, ⟨%d1, H1⟩, ⟨%d2, H2⟩, ⟨%d3, H3⟩, ⟨%d4, H4⟩⟩
  rw [before0_0 m Aout c t d0, before0_1 m Aout c t d1, before0_2 m Aout c t d2, before0_3 m Aout c t d3]
  iapply (sound_kernel (F := F) c Set.univ (grid0.coords t) _ _ _ _ _ _ _ _ _ _
    (win0_0.fill (grid0.coords t) d0 (iblk m c 0 t)) (iblk m c 1 t) (win0_2.fill (grid0.coords t) d2 (iblk m c 2 t)) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  have h0 : win0_0.cut (grid0.coords t) ((dats m Aout 0 c).after 0 t) = iblk m c 0 t := by
    rw [after0_0]; exact win0_0.cut_fill _ _ _
  have h2 : win0_2.cut (grid0.coords t) ((dats m Aout 0 c).after 2 t) = iblk m c 2 t := by
    rw [after0_2]; exact win0_2.cut_fill _ _ _
  isplitl [H0]
  · iexists d0
    change _ ⊢ owns (c : Thread nD τ) (st0_0 t) fullShare (win0_0.fill (grid0.coords t) d0 (win0_0.cut (grid0.coords t) ((dats m Aout 0 c).after 0 t)))
    rw [h0]; try iexact H0
  isplitl [H1]
  · rw [after0_1]; try iexact H1
  isplitl [H2]
  · iexists d2
    change _ ⊢ owns (c : Thread nD τ) (st0_2 t) fullShare (win0_2.fill (grid0.coords t) d2 (win0_2.cut (grid0.coords t) ((dats m Aout 0 c).after 2 t)))
    rw [h2]; try iexact H2
  isplitl [H3]
  · rw [after0_3]; try iexact H3
  · iexists _; iexact H4

end Cert.KernelIdeal.Hand

end
-- ==== Proof.FrameAny.lean ====
/-
  The frame, at any float instance: the launch runs to the end, nothing faults, and the four argument arrays end as
  they began.

  For the frame nothing need be said of what the result array holds, so the result buffer's contents are left
  unstated in the body's obligation; the run then says of the logits and query boxes arrays, which the launch only
  reads, that they hold what they held at the launch, and of the labels and target boxes arrays, which no window
  touches, the same.
-/
import proofs.«409724_j36000415875396_3_alg».proof.Proof.FrameData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

variable (m : (ℓ : Loc nD τ sig) → Buf (Elt F) ℓ) (ρ : Dev nD → PrngReg)

/-- An array for the proof data to name where nothing reads it. -/
def anyResult (c : Dev nD) : S8x900x100.Idx → Elt F .f32 := pastEnd

set_option backward.isDefEq.respectTransparency.types false in
/-- Every weakly fair execution of @main terminates without a fault; the arrays the windows stage hold what they may
    hold after the last write-back, the others what they held when the launch began. -/
theorem run_forget : θ_run defs (onTc (τ := τ) (main (F := F))) (s₀ m ρ)
    (Pipeline.RDat.FramePost cfg0 (fun c => (dats m anyResult 0 c).toRForget forgetResult) (V m)) :=
  Pipeline.RDat.θ_run_frame cfgs (0 : Fin 1) launch0 defs₀ Variants.none
    (fun c => (dats m anyResult 0 c).toRForget forgetResult) m ρ main
    (hbody := fun c => (obligation_forget m anyResult c).toRForget)
    (hshare := fun c => (dats m anyResult 0 c).share_full fun _ => rfl)
    (howed := fun _ _ => rfl) (V := V m) (hmain := hmain m Variants.none)
    (hA := fun c w => A_eq m anyResult c w) (hΦ := fun _ _ => rfl)

/-- THE FRAME: the four argument arrays end unchanged. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(((dats m anyResult 0 c).toRForget_arrAt_iff (fgt := forgetResult) (w := 0) rfl _ _).mp ((h c).1 0)).trans
        (((dats m anyResult 0 c).arrAt_in 0 rfl _).trans ((A_eq m anyResult c 0).trans (V_main_arg0 m c))),
      (((dats m anyResult 0 c).toRForget_arrAt_iff (fgt := forgetResult) (w := 2) rfl _ _).mp ((h c).1 2)).trans
        (((dats m anyResult 0 c).arrAt_in 2 rfl _).trans ((A_eq m anyResult c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_forget m ρ)

end Cert.KernelIdeal.Hand

end
-- ==== Proof.Spec.lean ====
/-
  The matching cost, as ONE function of the four argument arrays over the extended reals.

  For a batch entry `b`, a query `q` and a target `n` the cost is
      2 · focal(x) + 5 · ‖box_q − tbox_n‖₁ + 2 · (0 − giou(box_q, tbox_n)),
  where `x` is the logit of query `q` at the class the target's label names, `focal` is the difference of the
  two focal terms of the sigmoid probability `p = 1 / (1 + e^{-x})`,
      (−1/4) (1 − p)² log (max p ε)  −  (−3/4) p² log (max (1 − p) ε),
  boxes are (centre x, centre y, width, height), the L1 distance is taken coordinate by coordinate, and `giou` is the
  generalised intersection over union of the two boxes read as corner pairs (centre ∓ half the extent).
  Float literals stay the words both programs print; nothing here evaluates one.
  The class index is the label read as a signed word and clamped to the last class, `min l 1202`: for a label in
  the class range `0 ≤ l < 1203` that is the label itself.
-/
import Idealize.ShloMosaic.PureOps.Ideal
import Idealize.ShloMosaic.PureOps.Ideal.Laws
import Idealize.ShloMosaic.Lib.ValueIdx

noncomputable section

namespace Cert.CostSpec

open Idealize.ShloMosaic Idealize.ShloMosaic.ValueIdx

/-- The printed literals: 1, ε (the f32 nearest 1e-8), −1/4, −3/4, 1/2, 0, 2, 5. -/
abbrev one : EReal := Ideal.ofBits .f32 0x3F800000#32
abbrev eps : EReal := Ideal.ofBits .f32 0x322BCC77#32
abbrev negQuarter : EReal := Ideal.ofBits .f32 0xBE800000#32
abbrev negThreeQuarters : EReal := Ideal.ofBits .f32 0xBF400000#32
abbrev half : EReal := Ideal.ofBits .f32 0x3F000000#32
abbrev zero : EReal := Ideal.ofBits .f32 0x00000000#32
abbrev two : EReal := Ideal.ofBits .f32 0x40000000#32
abbrev five : EReal := Ideal.ofBits .f32 0x40A00000#32

/-- The focal class cost of a logit `x`: with `p` the sigmoid of `x` and `q = 1 − p`,
    `(−1/4) q² log (max p ε) − (−3/4) p² log (max q ε)`. -/
def focalOf (p : EReal) : EReal :=
  (negQuarter * ((one - p) * (one - p))) * Ideal.log (max p eps)
    - (negThreeQuarters * (p * p)) * Ideal.log (max (one - p) eps)

def focal (x : EReal) : EReal := focalOf (Ideal.logistic x)

/-- A box side's two corners from its centre `c` and extent `s`. -/
def lower (c s : EReal) : EReal := c - half * s
def upper (c s : EReal) : EReal := c + half * s

/-- The length of an interval `[a, b]` clipped at zero. -/
def span (a b : EReal) : EReal := max (b - a) zero

/-- The generalised IoU of the boxes (cx, cy, w, h) and (tcx, tcy, tw, th): with `inter` the area of the
    intersection of the two corner boxes, `union` the sum of the areas less `inter`, and `hull` the area of the
    smallest box holding both, `inter / union − (hull − union) / hull`. -/
def giou (cx cy w h tcx tcy tw th : EReal) : EReal :=
  let area1 := (upper cx w - lower cx w) * (upper cy h - lower cy h)
  let area2 := (upper tcx tw - lower tcx tw) * (upper tcy th - lower tcy th)
  let inter := span (max (lower cx w) (lower tcx tw)) (min (upper cx w) (upper tcx tw))
             * span (max (lower cy h) (lower tcy th)) (min (upper cy h) (upper tcy th))
  let union := area1 + area2 - inter
  let hull := span (min (lower cx w) (lower tcx tw)) (max (upper cx w) (upper tcx tw))
            * span (min (lower cy h) (lower tcy th)) (max (upper cy h) (upper tcy th))
  Ideal.div inter union - Ideal.div (hull - union) hull

/-- The L1 distance of the two boxes, coordinate by coordinate, summed from the left. -/
def l1 (cx cy w h tcx tcy tw th : EReal) : EReal :=
  FloatOps.absf (F := Ideal) (φ := .f32) (cx - tcx) + FloatOps.absf (F := Ideal) (φ := .f32) (cy - tcy)
    + FloatOps.absf (F := Ideal) (φ := .f32) (w - tw) + FloatOps.absf (F := Ideal) (φ := .f32) (h - th)

/-- The cost of one (query, target) pair from the gathered logit and the two boxes. -/
def pairCost (x cx cy w h tcx tcy tw th : EReal) : EReal :=
  two * focal x + five * l1 cx cy w h tcx tcy tw th + two * (zero - giou cx cy w h tcx tcy tw th)

/-- The class a label word names: the word read signed, clamped to the last of the 1203 classes. -/
def classOf (l : BitVec 32) : Fin 1203 := ⟨min l.toInt.toNat 1202, by omega⟩

/-- A label in the class range names itself. -/
theorem classOf_val {l : BitVec 32} (h0 : 0 ≤ l.toInt) (h1 : l.toInt < 1203) : (classOf l).val = l.toInt.toNat := by
  unfold classOf; simp only; omega

abbrev SLogits : Shape := ⟨3, ![8, 900, 1203]⟩
abbrev SBoxes : Shape := ⟨3, ![8, 900, 4]⟩
abbrev SLabels : Shape := ⟨2, ![8, 100]⟩
abbrev STBoxes : Shape := ⟨3, ![8, 100, 4]⟩
abbrev SCost : Shape := ⟨3, ![8, 900, 100]⟩

/-- THE SPECIFICATION: entry (b, q, n) of the cost array. -/
def G (logits : SLogits.Idx → EReal) (boxes : SBoxes.Idx → EReal) (labels : SLabels.Idx → BitVec 32)
    (tboxes : STBoxes.Idx → EReal) : SCost.Idx → EReal := fun j =>
  pairCost (logits (ix3 (j 0) (j 1) (classOf (labels (ix2 (j 0) (j 2))))))
    (boxes (ix3 (j 0) (j 1) (0 : Fin 4))) (boxes (ix3 (j 0) (j 1) (1 : Fin 4)))
    (boxes (ix3 (j 0) (j 1) (2 : Fin 4))) (boxes (ix3 (j 0) (j 1) (3 : Fin 4)))
    (tboxes (ix3 (j 0) (j 2) (0 : Fin 4))) (tboxes (ix3 (j 0) (j 2) (1 : Fin 4)))
    (tboxes (ix3 (j 0) (j 2) (2 : Fin 4))) (tboxes (ix3 (j 0) (j 2) (3 : Fin 4)))

end Cert.CostSpec

end
-- ==== Proof.KernelPay.lean ====
/-
  The stored value at an index, over the extended reals.

  Entry (r, n) of the value the body stores (row r of the block, target lane n < 100) is the pair cost of
  the logit of row r at the class the lane's label names, the row's box and the lane's target box.
  The one-hot product gathers: for a row of finite logits, the sum over classes k of logit(r, k) times the 0/1
  indicator of "k is the lane's label" is the logit at the label, and the second product, of the row less itself,
  adds zero.
-/
import proofs.«409724_j36000415875396_3_alg».proof.Proof.Stored
import proofs.«409724_j36000415875396_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Idealize.ShloMosaic Idealize.ShloMosaic.ValueIdx Cert.KernelIdeal Cert.KernelIdeal.Gen Cert.KernelIdeal.Hand Cert.CostSpec

/-! ## Layout operations at coordinates -/

/-- A column `[128, 1]` spread over 128 lanes reads, at `(p, c)`, the column's entry of row `p`. -/
theorem bcol_apply {α : Type} (v : S128x1.Idx → α) (h : S128x1.Broadcasts S128x128) (p c : Fin 128) :
    broadcastTo S128x128 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- A row `[1, 128]` spread over 128 rows reads, at `(p, c)`, the row's entry of lane `c`. -/
theorem brow_apply {α : Type} (v : S1x128.Idx → α) (h : S1x128.Broadcasts S128x128) (p c : Fin 128) :
    broadcastTo S128x128 v h (ix2 p c) = v (ix2 (0 : Fin 1) c) :=
  broadcastTo_1b_ab_apply v h p c

/-- The label row spread over the 1203 class rows reads, at `(k, c)`, the label of lane `c`. -/
theorem blab_apply {α : Type} (v : S1x128.Idx → α) (h : S1x128.Broadcasts S1203x128) (k : Fin 1203) (c : Fin 128) :
    broadcastTo S1203x128 v h (ix2 k c) = v (ix2 (0 : Fin 1) c) :=
  broadcastTo_1b_ab_apply v h k c

/-- Column `o` of a `[128, 4]` matrix, cut out as a `[128, 1]` column. -/
theorem qcol_apply {α : Type} (o : Nat) (q : S128x4.Idx → α) (h : S128x4.Slices ![0, o] S128x1) (p : Fin 128) (k : Fin 4)
    (hk : k.val = o) : extractStridedSlice S128x1 ![0, o] q h (ix2 p (0 : Fin 1)) = q (ix2 p k) :=
  slice2_axis1_apply o q h p (0 : Fin 1) k (by rw [hk]; rfl)

/-- Row `o` of a `[4, 128]` matrix, cut out as a `[1, 128]` row. -/
theorem trow_apply {α : Type} (o : Nat) (t : S4x128.Idx → α) (h : S4x128.Slices ![o, 0] S1x128) (c : Fin 128) (k : Fin 4)
    (hk : k.val = o) : extractStridedSlice S1x128 ![o, 0] t h (ix2 (0 : Fin 1) c) = t (ix2 k c) :=
  slice2_axis0_apply o t h (0 : Fin 1) c k (by rw [hk]; rfl)

/-- The query boxes block as a matrix reads the block at batch position 0. -/
theorem qboxes_apply (X2 : Vec Ideal S1x128x4 .f32) (p : Fin 128) (k : Fin 4) :
    qboxes X2 (ix2 p k) = X2 (ix3 (0 : Fin 1) p k) :=
  shapeCast_1ab_ab_apply X2 shapeCasts_S1x128x4_S128x4 p k

/-- The target boxes block as a matrix reads the block at batch position 0. -/
theorem tboxes_apply (X3 : Vec Ideal S1x4x128 .f32) (k : Fin 4) (c : Fin 128) :
    tboxes X3 (ix2 k c) = X3 (ix3 (0 : Fin 1) k c) :=
  shapeCast_1ab_ab_apply X3 shapeCasts_S1x4x128_S4x128 k c

/-! ## The one-hot product -/

/-- The 0/1 word of "the two words are equal", widened to 32 bits and read as a float, is `1` or `0`. -/
theorem indicator_eq (a l : BitVec 32) :
    FloatOps.sitofp (F := Ideal) .f32 ((IntOp.cmpi .eq a l).setWidth 32) = if a = l then (1 : EReal) else 0 := by
  show (((((IntOp.cmpi .eq a l).setWidth 32).toInt : ℝ)) : EReal) = _
  by_cases h : a = l
  · subst h; simp [IntOp.cmpi]
  · have hb : (a == l) = false := by simpa using h
    simp [IntOp.cmpi, hb, h]

/-- The dimension numbers of the `[128, 1203]` by `[1203, 128]` product. -/
abbrev DD := dot_S128x1203_S1203x128_S128x128_1_0_0_1_n_n

/-- The operand indices of the product at output `(j 0, j 1)` and class `k`: `(j 0, k)` on the left, `(k, j 1)` on the right,
    coordinate by coordinate. -/
theorem lhs_ax0 (j : S128x128.Idx) (k : DD.contr.Idx) : (DD.lhsIdx j k 0).val = (j 0).val := by
  simp [DotDims.lhsIdx, DD, dot_S128x1203_S1203x128_S128x128_1_0_0_1_n_n]; rfl
theorem lhs_ax1 (j : S128x128.Idx) (k : DD.contr.Idx) : (DD.lhsIdx j k 1).val = (k ⟨0, by decide⟩).val :=
  DD.lhsIdx_val_of_single rfl j k
theorem rhs_ax0 (j : S128x128.Idx) (k : DD.contr.Idx) : (DD.rhsIdx j k 0).val = (k ⟨0, by decide⟩).val :=
  DD.rhsIdx_val_of_single rfl j k
theorem rhs_ax1 (j : S128x128.Idx) (k : DD.contr.Idx) : (DD.rhsIdx j k 1).val = (j 1).val := by
  simp [DotDims.rhsIdx, DD, dot_S128x1203_S1203x128_S128x128_1_0_0_1_n_n]; rfl

/-- The matrix product into the zero accumulator, entry `(r, c)`: the sum over the 1203 classes. -/
theorem product_apply (A : FVec Ideal S128x1203 .bf16) (B : FVec Ideal S1203x128 .bf16) (r c : Fin 128) :
    matmul DD none A B (constant (F := Ideal) S128x128 .f32 0x00000000#32) (ix2 r c)
      = ∑ k : Fin 1203, A (ix2 r k) * B (ix2 k c) := by
  refine (Ideal.matmul_constant_zero_apply DD none A B (ix2 r c)).trans ?_
  rw [← Equiv.sum_comp (contrEquiv1 DD 1203 rfl rfl).symm]
  refine Finset.sum_congr rfl fun k _ => ?_
  have hk := contrEquiv1_symm_val DD 1203 rfl rfl k
  congr 2
  · apply Shape.idx_ext₂
    · exact lhs_ax0 _ _
    · exact (lhs_ax1 _ _).trans hk
  · apply Shape.idx_ext₂
    · exact (rhs_ax0 _ _).trans hk
    · exact rhs_ax1 _ _

/-! ## The gather -/

/-- A word below 1203 is the word of the class with that number. -/
theorem ofNat_eq_iff (k : Fin 1203) (l : BitVec 32) : BitVec.ofNat 32 k.val = l ↔ k.val = l.toNat := by
  constructor
  · intro h
    rw [← h, BitVec.toNat_ofNat]
    have := k.isLt
    omega
  · intro h
    apply BitVec.eq_of_toNat_eq
    rw [BitVec.toNat_ofNat, h]
    exact Nat.mod_eq_of_lt l.isLt

/-- A label in the class range is, as an unsigned word, the number of its class. -/
theorem classOf_toNat {l : BitVec 32} (h0 : 0 ≤ l.toInt) (h1 : l.toInt < 1203) : (classOf l).val = l.toNat := by
  rw [classOf_val h0 h1]
  have hl := l.isLt
  have hc := BitVec.toInt_eq_toNat_cond l
  split at hc <;> omega

/-- Row `k` of the class counter carries a lane's label exactly when `k` is the label's class. -/
theorem label_word {l : BitVec 32} (h0 : 0 ≤ l.toInt) (h1 : l.toInt < 1203) (k : Fin 1203) :
    BitVec.ofNat 32 k.val = l ↔ k = classOf l := by
  rw [ofNat_eq_iff, ← classOf_toNat h0 h1]
  exact ⟨fun h => Fin.ext h, fun h => congrArg Fin.val h⟩

/-- THE GATHER: the sum over the classes of a row's entries against the 0/1 indicator of the label's class is the
    row's entry at that class. -/
theorem gather_sum (v : Fin 1203 → EReal) {l : BitVec 32} (h0 : 0 ≤ l.toInt) (h1 : l.toInt < 1203) :
    ∑ k : Fin 1203, v k * (if BitVec.ofNat 32 k.val = l then (1 : EReal) else 0) = v (classOf l) := by
  rw [Finset.sum_eq_single (classOf l)]
  · rw [if_pos ((label_word h0 h1 _).mpr rfl), mul_one]
  · intro k _ hk
    rw [if_neg (fun h => hk ((label_word h0 h1 k).mp h)), mul_zero]
  · intro h
    exact absurd (Finset.mem_univ _) h

/-- A finite row less itself is zero entry by entry, so its product with anything sums to zero. -/
theorem zero_sum (v w : Fin 1203 → EReal) (hv : ∀ k, v k ≠ ⊤ ∧ v k ≠ ⊥) :
    ∑ k : Fin 1203, (v k - v k) * w k = 0 := by
  refine Finset.sum_eq_zero fun k _ => ?_
  rw [EReal.sub_self (hv k).1 (hv k).2, zero_mul]

/-! ## The class cost block -/

/-- The logits block as a `[128, 1203]` matrix. -/
abbrev logits (X0 : Vec Ideal S1x128x1203 .f32) : FVec Ideal S128x1203 .f32 :=
  shapeCast S128x1203 X0 shapeCasts_S1x128x1203_S128x1203

/-- The logits matrix reads the block at batch position 0. -/
theorem logits_apply (X0 : Vec Ideal S1x128x1203 .f32) (r : Fin 128) (k : Fin 1203) :
    logits X0 (ix2 r k) = X0 (ix3 (0 : Fin 1) r k) :=
  shapeCast_1ab_ab_apply X0 shapeCasts_S1x128x1203_S128x1203 r k

/-- The one-hot matrix: entry `(k, c)` is `1` when class `k` is lane `c`'s label, else `0`. -/
abbrev onehot (X1 : Vec Ideal S1x1x128 .i32) : FVec Ideal S1203x128 .bf16 :=
  truncf .bf16 (sitofp .f32 (extui 32 (cmpi .eq (iota .tc S1203x128 32 [0] iota_S1203x128_d0_w32)
    (broadcastTo S1203x128 (shapeCast S1x128 X1 shapeCasts_S1x1x128_S1x128) broadcasts_S1x128_S1203x128)) natLt_1_32))
    bitsLt_bf16_f32

/-- The class counter along the rows reads `k`, the label row spread over them reads lane `c`'s label, and the word of their
    equality read as a float is the indicator. -/
theorem onehot_apply (X1 : Vec Ideal S1x1x128 .i32) (k : Fin 1203) (c : Fin 128) :
    onehot X1 (ix2 k c)
      = if BitVec.ofNat 32 k.val = X1 (ix3 (0 : Fin 1) (0 : Fin 1) c) then (1 : EReal) else 0 := by
  have e1 : iota .tc S1203x128 32 [0] iota_S1203x128_d0_w32 (ix2 k c) = BitVec.ofNat 32 k.val :=
    iota_single_apply .tc S1203x128 32 0 iota_S1203x128_d0_w32 (ix2 k c)
  have e2 : broadcastTo S1203x128 (shapeCast S1x128 X1 shapeCasts_S1x1x128_S1x128) broadcasts_S1x128_S1203x128 (ix2 k c)
      = X1 (ix3 (0 : Fin 1) (0 : Fin 1) c) :=
    (blab_apply _ broadcasts_S1x128_S1203x128 k c).trans
      (shapeCast_1ab_ab_apply X1 shapeCasts_S1x1x128_S1x128 (0 : Fin 1) c)
  show FloatOps.sitofp (F := Ideal) .f32 ((IntOp.cmpi .eq (iota .tc S1203x128 32 [0] iota_S1203x128_d0_w32 (ix2 k c))
    (broadcastTo S1203x128 (shapeCast S1x128 X1 shapeCasts_S1x1x128_S1x128) broadcasts_S1x128_S1203x128 (ix2 k c))).setWidth 32) = _
  rw [e1, e2]
  exact indicator_eq _ _

/-- The gathered logit: entry `(r, c)` of the two products' sum is the logit of row `r` at lane `c`'s class. -/
theorem gathered_apply (X0 : Vec Ideal S1x128x1203 .f32) (X1 : Vec Ideal S1x1x128 .i32) (r c : Fin 128)
    (hfin : ∀ k : Fin 1203, X0 (ix3 (0 : Fin 1) r k) ≠ ⊤ ∧ X0 (ix3 (0 : Fin 1) r k) ≠ ⊥)
    (hlab : 0 ≤ (X1 (ix3 (0 : Fin 1) (0 : Fin 1) c)).toInt ∧ (X1 (ix3 (0 : Fin 1) (0 : Fin 1) c)).toInt < 1203) :
    matmul DD none (truncf .bf16 (logits X0) bitsLt_bf16_f32) (onehot X1) (constant (F := Ideal) S128x128 .f32 0x00000000#32) (ix2 r c)
      + matmul DD none (truncf .bf16 (subf (logits X0) (logits X0)) bitsLt_bf16_f32) (onehot X1)
          (constant (F := Ideal) S128x128 .f32 0x00000000#32) (ix2 r c)
      = X0 (ix3 (0 : Fin 1) r (classOf (X1 (ix3 (0 : Fin 1) (0 : Fin 1) c)))) := by
  rw [product_apply, product_apply]
  have h1 : ∑ k : Fin 1203, truncf .bf16 (logits X0) bitsLt_bf16_f32 (ix2 r k) * onehot X1 (ix2 k c)
      = X0 (ix3 (0 : Fin 1) r (classOf (X1 (ix3 (0 : Fin 1) (0 : Fin 1) c)))) := by
    refine (Finset.sum_congr rfl fun k _ => ?_).trans
      (gather_sum (fun k => X0 (ix3 (0 : Fin 1) r k)) hlab.1 hlab.2)
    rw [onehot_apply]
    exact congrArg (· * _) (logits_apply X0 r k)
  have h2 : ∑ k : Fin 1203, truncf .bf16 (subf (logits X0) (logits X0)) bitsLt_bf16_f32 (ix2 r k) * onehot X1 (ix2 k c) = 0 := by
    refine (Finset.sum_congr rfl fun k _ => ?_).trans
      (zero_sum (fun k => X0 (ix3 (0 : Fin 1) r k)) (fun k => onehot X1 (ix2 k c)) hfin)
    show (logits X0 (ix2 r k) - logits X0 (ix2 r k)) * _ = _
    rw [logits_apply]
  rw [h1, h2, add_zero]

/-- Entry `(r, c)` of the focal class cost block is the focal cost of the gathered logit. -/
theorem pay2_apply (X0 : Vec Ideal S1x128x1203 .f32) (X1 : Vec Ideal S1x1x128 .i32) (r c : Fin 128)
    (hfin : ∀ k : Fin 1203, X0 (ix3 (0 : Fin 1) r k) ≠ ⊤ ∧ X0 (ix3 (0 : Fin 1) r k) ≠ ⊥)
    (hlab : 0 ≤ (X1 (ix3 (0 : Fin 1) (0 : Fin 1) c)).toInt ∧ (X1 (ix3 (0 : Fin 1) (0 : Fin 1) c)).toInt < 1203) :
    k0_pay2 (F := Ideal) X0 X1 (ix2 r c) = focal (X0 (ix3 (0 : Fin 1) r (classOf (X1 (ix3 (0 : Fin 1) (0 : Fin 1) c))))) := by
  rw [← gathered_apply X0 X1 r c hfin hlab]
  rfl

/-! ## The box columns and rows -/

/-- The absolute value of a vector reads entry by entry. -/
theorem absf_at {s : Shape} {φ : FTy} (a : FVec Ideal s φ) (i : s.Idx) : absf a i = FloatOps.absf (a i) := rfl

/-- The four columns of the query boxes (centre x, centre y, width, height), each as a `[128, 1]` column, at row `r`. -/
theorem pay5_apply (q : FVec Ideal S128x4 .f32) (r : Fin 128) : k0_pay5 q (ix2 r (0 : Fin 1)) = q (ix2 r (0 : Fin 4)) :=
  qcol_apply 0 q slices_S128x4_o0_0_S128x1 r 0 rfl
theorem pay6_apply (q : FVec Ideal S128x4 .f32) (r : Fin 128) : k0_pay6 q (ix2 r (0 : Fin 1)) = q (ix2 r (1 : Fin 4)) :=
  qcol_apply 1 q slices_S128x4_o0_1_S128x1 r 1 rfl
theorem pay7_apply (q : FVec Ideal S128x4 .f32) (r : Fin 128) : k0_pay7 q (ix2 r (0 : Fin 1)) = q (ix2 r (2 : Fin 4)) :=
  qcol_apply 2 q slices_S128x4_o0_2_S128x1 r 2 rfl
theorem pay8_apply (q : FVec Ideal S128x4 .f32) (r : Fin 128) : k0_pay8 q (ix2 r (0 : Fin 1)) = q (ix2 r (3 : Fin 4)) :=
  qcol_apply 3 q slices_S128x4_o0_3_S128x1 r 3 rfl

/-- The four rows of the target boxes (centre x, centre y, width, height), each as a `[1, 128]` row, at lane `c`. -/
theorem pay13_apply (t : FVec Ideal S4x128 .f32) (c : Fin 128) : k0_pay13 t (ix2 (0 : Fin 1) c) = t (ix2 (0 : Fin 4) c) :=
  trow_apply 0 t slices_S4x128_o0_0_S1x128 c 0 rfl
theorem pay14_apply (t : FVec Ideal S4x128 .f32) (c : Fin 128) : k0_pay14 t (ix2 (0 : Fin 1) c) = t (ix2 (1 : Fin 4) c) :=
  trow_apply 1 t slices_S4x128_o1_0_S1x128 c 1 rfl
theorem pay15_apply (t : FVec Ideal S4x128 .f32) (c : Fin 128) : k0_pay15 t (ix2 (0 : Fin 1) c) = t (ix2 (2 : Fin 4) c) :=
  trow_apply 2 t slices_S4x128_o2_0_S1x128 c 2 rfl
theorem pay16_apply (t : FVec Ideal S4x128 .f32) (c : Fin 128) : k0_pay16 t (ix2 (0 : Fin 1) c) = t (ix2 (3 : Fin 4) c) :=
  trow_apply 3 t slices_S4x128_o3_0_S1x128 c 3 rfl

/-! ## The L1 block -/

/-- Entry `(r, c)` of the L1 block is the L1 distance of row `r`'s box and lane `c`'s target box: each column spread over
    the lanes and each row over the rows read their one entry, and the four absolute differences add from the left. -/
theorem l1Block_apply (X2 : Vec Ideal S1x128x4 .f32) (X3 : Vec Ideal S1x4x128 .f32) (r c : Fin 128) :
    l1Block (F := Ideal) X2 X3 (ix2 r c)
      = l1 (X2 (ix3 (0 : Fin 1) r (0 : Fin 4))) (X2 (ix3 (0 : Fin 1) r (1 : Fin 4)))
          (X2 (ix3 (0 : Fin 1) r (2 : Fin 4))) (X2 (ix3 (0 : Fin 1) r (3 : Fin 4)))
          (X3 (ix3 (0 : Fin 1) (0 : Fin 4) c)) (X3 (ix3 (0 : Fin 1) (1 : Fin 4) c))
          (X3 (ix3 (0 : Fin 1) (2 : Fin 4) c)) (X3 (ix3 (0 : Fin 1) (3 : Fin 4) c)) := by
  simp only [l1Block, k0_pay27, l1, addf_apply, subf_apply, absf_at, bcol_apply, brow_apply,
    pay5_apply, pay6_apply, pay7_apply, pay8_apply, pay13_apply, pay14_apply, pay15_apply, pay16_apply,
    qboxes_apply, tboxes_apply]

/-! ## The generalised-IoU block -/

/-- Entry `(r, c)` of the generalised-IoU block is the generalised IoU of row `r`'s box and lane `c`'s target box: the
    corners are centre ∓ half the extent, the areas, the clipped overlaps and the hull are the same expressions in them. -/
theorem giouBlock_apply (X2 : Vec Ideal S1x128x4 .f32) (X3 : Vec Ideal S1x4x128 .f32) (r c : Fin 128) :
    giouBlock (F := Ideal) X2 X3 (ix2 r c)
      = giou (X2 (ix3 (0 : Fin 1) r (0 : Fin 4))) (X2 (ix3 (0 : Fin 1) r (1 : Fin 4)))
          (X2 (ix3 (0 : Fin 1) r (2 : Fin 4))) (X2 (ix3 (0 : Fin 1) r (3 : Fin 4)))
          (X3 (ix3 (0 : Fin 1) (0 : Fin 4) c)) (X3 (ix3 (0 : Fin 1) (1 : Fin 4) c))
          (X3 (ix3 (0 : Fin 1) (2 : Fin 4) c)) (X3 (ix3 (0 : Fin 1) (3 : Fin 4) c)) := by
  simp only [giouBlock, k0_pay26, k0_pay25, k0_pay24, k0_pay23, k0_pay22, k0_pay21, k0_pay20, k0_pay19, k0_pay18,
    k0_pay17, k0_pay12, k0_pay11, k0_pay10, k0_pay9, giou, span, lower, upper,
    addf_apply, subf_apply, mulf_apply, divf_apply, maximumf_apply, minimumf_apply, broadcast_apply,
    bcol_apply, brow_apply,
    pay5_apply, pay6_apply, pay7_apply, pay8_apply, pay13_apply, pay14_apply, pay15_apply, pay16_apply,
    qboxes_apply, tboxes_apply]
  rfl

/-! ## The stored value -/

/-- Entry `(0, r, n)` of the combined cost, cut to the first 100 lanes and given its leading unit axis, is the combination
    of the three blocks' entries at `(r, n)`. -/
theorem pay1_apply (v122 v141 v143 v144 : FVec Ideal S128x128 .f32) (r : Fin 128) (n : Fin 100) :
    k0_pay1 v122 v141 v143 v144 (ix3 (0 : Fin 1) r n)
      = v143 (ix2 r (⟨n.val, by omega⟩ : Fin 128)) + v144 (ix2 r (⟨n.val, by omega⟩ : Fin 128)) * v141 (ix2 r (⟨n.val, by omega⟩ : Fin 128))
          + two * (zero - v122 (ix2 r (⟨n.val, by omega⟩ : Fin 128))) := by
  unfold k0_pay1
  refine (shapeCast_ab_1ab_apply _ shapeCasts_S128x100_S1x128x100 (0 : Fin 1) r n).trans ?_
  refine (slice2_axis1_apply 0 _ slices_S128x128_o0_0_S128x100 r n (⟨n.val, by omega⟩ : Fin 128) (Nat.zero_add _).symm).trans ?_
  rfl

/-- Entry (r, n) of the stored value is the pair cost, when row r of the logits block is finite and lane n's
    label lies in the class range. -/
theorem stored_apply (X0 : Vec Ideal S1x128x1203 .f32) (X1 : Vec Ideal S1x1x128 .i32) (X2 : Vec Ideal S1x128x4 .f32)
    (X3 : Vec Ideal S1x4x128 .f32) (r : Fin 128) (n : Fin 100)
    (hfin : ∀ k : Fin 1203, X0 (ix3 (0 : Fin 1) r k) ≠ ⊤ ∧ X0 (ix3 (0 : Fin 1) r k) ≠ ⊥)
    (hlab : 0 ≤ (X1 (ix3 (0 : Fin 1) (0 : Fin 1) (⟨n.val, by omega⟩ : Fin 128))).toInt
      ∧ (X1 (ix3 (0 : Fin 1) (0 : Fin 1) (⟨n.val, by omega⟩ : Fin 128))).toInt < 1203) :
    stored (F := Ideal) X0 X1 X2 X3 (ix3 (0 : Fin 1) r n)
      = pairCost (X0 (ix3 (0 : Fin 1) r (classOf (X1 (ix3 (0 : Fin 1) (0 : Fin 1) (⟨n.val, by omega⟩ : Fin 128))))))
          (X2 (ix3 (0 : Fin 1) r (0 : Fin 4))) (X2 (ix3 (0 : Fin 1) r (1 : Fin 4)))
          (X2 (ix3 (0 : Fin 1) r (2 : Fin 4))) (X2 (ix3 (0 : Fin 1) r (3 : Fin 4)))
          (X3 (ix3 (0 : Fin 1) (0 : Fin 4) (⟨n.val, by omega⟩ : Fin 128))) (X3 (ix3 (0 : Fin 1) (1 : Fin 4) (⟨n.val, by omega⟩ : Fin 128)))
          (X3 (ix3 (0 : Fin 1) (2 : Fin 4) (⟨n.val, by omega⟩ : Fin 128))) (X3 (ix3 (0 : Fin 1) (3 : Fin 4) (⟨n.val, by omega⟩ : Fin 128))) := by
  unfold stored
  refine (pay1_apply (giouBlock X2 X3) (l1Block X2 X3) (clsBlock X0 X1) (k0_pay29 (F := Ideal)) r n).trans ?_
  have hcls : clsBlock (F := Ideal) X0 X1 (ix2 r (⟨n.val, by omega⟩ : Fin 128))
      = two * focal (X0 (ix3 (0 : Fin 1) r (classOf (X1 (ix3 (0 : Fin 1) (0 : Fin 1) (⟨n.val, by omega⟩ : Fin 128)))))) := by
    show two * k0_pay2 (F := Ideal) X0 X1 (ix2 r (⟨n.val, by omega⟩ : Fin 128)) = _
    rw [pay2_apply X0 X1 r (⟨n.val, by omega⟩ : Fin 128) hfin hlab]
  rw [hcls, l1Block_apply, giouBlock_apply]
  rfl

end Cert.KernelIdeal.Pay

end
-- ==== Proof.Pre.lean ====
/-
  What the precondition says, entry by entry.

  The printed precondition is the conjunction of four `all`-reductions: every logit, every query box coordinate
  and every target box coordinate is of absolute value below +∞, and every label l satisfies 0 ≤ l < 1203 as a
  signed word. Read at an entry: a logit is a real number, and a label lies in the class range.
-/
import proofs.«409724_j36000415875396_3_alg».proof.Pre_finite_inputs
import proofs.«409724_j36000415875396_3_alg».proof.Proof.Gen.Pre_finite_inputs
import Idealize.ShloMosaic.PureOps.Ideal
import Idealize.ShloMosaic.PureOps.Ideal.Laws
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.ValueIdx Cert.Pre_finite_inputs

/-- The scalar shape has a single index. -/
instance : Subsingleton S_.Idx := ⟨fun a b => funext fun d => d.elim0⟩

/-- The f32 pattern 0x7F800000 denotes +∞. -/
private theorem inf_word : Ideal.ofBits .f32 0x7F800000#32 = (⊤ : EReal) := by simp [Ideal.ofBits, Ideal.ieee]

/-- An extended real x with max x (-x) strictly below +∞ is neither +∞ nor -∞: were x = +∞ the maximum would be
    +∞; were x = -∞, then -x = +∞ and again the maximum would be +∞. -/
private theorem real_of_abs_lt (x : EReal)
    (hx : Ideal.cmp .olt (max x (-x)) (Ideal.ofBits .f32 0x7F800000#32) = 1#1) : x ≠ ⊤ ∧ x ≠ ⊥ := by
  rw [inf_word] at hx
  simp only [Ideal.cmp, StableHlo.Predicate.ofBool_eq_one_iff, decide_eq_true_eq, max_lt_iff] at hx
  refine ⟨fun e => ?_, fun e => ?_⟩
  · rw [e] at hx; exact lt_irrefl _ hx.1
  · rw [e, EReal.neg_bot] at hx; exact lt_irrefl _ hx.2

/-- The precondition split into its four conjuncts, each read at an entry: the three float arrays have every
    |entry| below the word for +∞, and every label passes both signed compares, against 0 and against 1203. -/
private theorem conjuncts (a0 : FVec Ideal S8x900x1203 .f32) (a1 : FVec Ideal S8x900x4 .f32) (a2 : IVec S8x100 32)
    (a3 : FVec Ideal S8x100x4 .f32)
    (h : Cert.Pre_finite_inputs.fn (F := Ideal) a0 a1 a2 a3 = fun _ => 1#1) :
    (∀ i, Ideal.cmp .olt (max (a0 i) (-(a0 i))) (Ideal.ofBits .f32 0x7F800000#32) = 1#1)
      ∧ (∀ i, Ideal.cmp .olt (max (a1 i) (-(a1 i))) (Ideal.ofBits .f32 0x7F800000#32) = 1#1)
      ∧ (∀ i, Ideal.cmp .olt (max (a3 i) (-(a3 i))) (Ideal.ofBits .f32 0x7F800000#32) = 1#1)
      ∧ (∀ j, IntOp.cmpi .sge (a2 j) 0#32 = 1#1 ∧ IntOp.cmpi .slt (a2 j) 1203#32 = 1#1) := by
  have h0 := congrFun h ValueIdx.ix0
  dsimp only [fn, fn_part1] at h0
  -- the result word is ((c₀ ∧ c₁) ∧ c₃) ∧ c₂, each cₖ an all-reduction
  obtain ⟨h013, h2⟩ := IntOp.andi_eq_one.1 h0
  obtain ⟨h01, h3⟩ := IntOp.andi_eq_one.1 h013
  obtain ⟨h0', h1⟩ := IntOp.andi_eq_one.1 h01
  exact ⟨fun i => Host.reduce_andi_all _ _ _ _ _ h0' i, fun i => Host.reduce_andi_all _ _ _ _ _ h1 i,
    fun i => Host.reduce_andi_all _ _ _ _ _ h3 i, fun j => IntOp.andi_eq_one.1 (Host.reduce_andi_all _ _ _ _ _ h2 j)⟩

/-- Under the precondition every logit is a real number. -/
theorem logits_finite (a0 : FVec Ideal S8x900x1203 .f32) (a1 : FVec Ideal S8x900x4 .f32) (a2 : IVec S8x100 32)
    (a3 : FVec Ideal S8x100x4 .f32)
    (h : Cert.Pre_finite_inputs.fn (F := Ideal) a0 a1 a2 a3 = fun _ => 1#1) (i : S8x900x1203.Idx) :
    a0 i ≠ ⊤ ∧ a0 i ≠ ⊥ :=
  real_of_abs_lt (a0 i) ((conjuncts a0 a1 a2 a3 h).1 i)

/-- Under the precondition every label lies in the class range, read as a signed word. -/
theorem labels_range (a0 : FVec Ideal S8x900x1203 .f32) (a1 : FVec Ideal S8x900x4 .f32) (a2 : IVec S8x100 32)
    (a3 : FVec Ideal S8x100x4 .f32)
    (h : Cert.Pre_finite_inputs.fn (F := Ideal) a0 a1 a2 a3 = fun _ => 1#1) (j : S8x100.Idx) :
    0 ≤ (a2 j).toInt ∧ (a2 j).toInt < 1203 := by
  obtain ⟨hge, hlt⟩ := (conjuncts a0 a1 a2 a3 h).2.2.2 j
  -- a signed compare that came out 1 is the order of the signed values; the two constants are 0 and 1203
  have h0 : (0#32).toInt = 0 := by decide
  have h1203 : (1203#32).toInt = 1203 := by decide
  have hge' := IntOp.cmpi_sge.1 hge
  have hlt' := IntOp.cmpi_slt.1 hlt
  rw [h0] at hge'
  rw [h1203] at hlt'
  exact ⟨hge', hlt'⟩

end Cert.PreFacts

end
-- ==== Proof.Blocks.lean ====
/-
  The windows' blocks, entry by entry.

  Grid point t stands for batch entry b = t / 8 and row block q = t % 8. The logits, query boxes and result
  windows take the block of 128 rows starting at row 128 q of batch entry b (the last one, q = 7, has only the four
  rows 896 … 899 inside the array); the label and target boxes windows take batch entry b's whole row, the same at
  all eight points of the entry. So a staging buffer filled by a fetch holds, at a block index whose row lies inside
  the array, the array's entry at (b, 128 q + row, ·), whatever it holds past the array's end.
-/
import proofs.«409724_j36000415875396_3_alg».proof.Proof.Gen.KernelIdeal.Frame
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.RA Idealize.SL.Sem
open Idealize.ShloMosaic.Pipeline (Dat Cfg Window)
open Cert.KernelIdeal Cert.KernelIdeal.Gen

variable {F : FTy → Type} [FloatOps F]

/-- The batch entry of a grid point, -/
def bOf (t : Fin cfg0.N) : Fin 8 :=
  ⟨t.val / 8, by have h : t.val < 64 := Nat.lt_of_lt_of_eq t.isLt (N_0 : cfg0.N = 64); omega⟩
/-- and its row block. -/
def qOf (t : Fin cfg0.N) : Fin 8 := ⟨t.val % 8, Nat.mod_lt _ (by decide)⟩

/-- The logits window's printed index map and the sizes of what its transfers move, at each of the 64 points:
    block index (b, q, 0); all 128 rows of the block but at q = 7, where only four rows lie inside the array. -/
theorem logits_maps : ∀ t : Fin cfg0.N,
    win0_0.index t (0 : Fin 3) = t.val / 8 ∧ win0_0.index t 1 = t.val % 8 ∧ win0_0.index t 2 = 0
      ∧ win0_0.xsize (grid0.coords t) 0 = 1
      ∧ win0_0.xsize (grid0.coords t) 1 = (if t.val % 8 = 7 then 4 else 128)
      ∧ win0_0.xsize (grid0.coords t) 2 = 1203 :=
  (by decide +kernel : ∀ t : Fin grid0.N, _)

/-- The query boxes window's likewise: block index (b, q, 0), four rows at q = 7. -/
theorem qboxes_maps : ∀ t : Fin cfg0.N,
    win0_2.index t (0 : Fin 3) = t.val / 8 ∧ win0_2.index t 1 = t.val % 8 ∧ win0_2.index t 2 = 0
      ∧ win0_2.xsize (grid0.coords t) 0 = 1
      ∧ win0_2.xsize (grid0.coords t) 1 = (if t.val % 8 = 7 then 4 else 128)
      ∧ win0_2.xsize (grid0.coords t) 2 = 4 :=
  (by decide +kernel : ∀ t : Fin grid0.N, _)

/-- The result window's likewise: block index (b, q, 0), four rows at q = 7. -/
theorem result_maps : ∀ t : Fin cfg0.N,
    win0_4.index t (0 : Fin 3) = t.val / 8 ∧ win0_4.index t 1 = t.val % 8 ∧ win0_4.index t 2 = 0
      ∧ win0_4.xsize (grid0.coords t) 0 = 1
      ∧ win0_4.xsize (grid0.coords t) 1 = (if t.val % 8 = 7 then 4 else 128)
      ∧ win0_4.xsize (grid0.coords t) 2 = 100 :=
  (by decide +kernel : ∀ t : Fin grid0.N, _)

/-- The label window's index map: block index (b, 0, 0), the same at the eight points of a batch entry. -/
theorem labels_maps : ∀ t : Fin cfg0.N,
    win0_1.index t (0 : Fin 3) = t.val / 8 ∧ win0_1.index t 1 = 0 ∧ win0_1.index t 2 = 0 :=
  (by decide +kernel : ∀ t : Fin grid0.N, _)

/-- The target boxes window's index map: block index (b, 0, 0) too. -/
theorem tboxes_maps : ∀ t : Fin cfg0.N,
    win0_3.index t (0 : Fin 3) = t.val / 8 ∧ win0_3.index t 1 = 0 ∧ win0_3.index t 2 = 0 :=
  (by decide +kernel : ∀ t : Fin grid0.N, _)

variable (m : (ℓ : Loc nD τ sig) → Buf (Elt F) ℓ)

/-- The logits buffer after its fetch at point t, at a block index whose row is inside the array. -/
theorem logits_block (c : Dev nD) (t : Fin cfg0.N) (d : S1x128x1203.Idx → Elt F .f32) (j : S1x128x1203.Idx)
    (hj : (qOf t).val * 128 + (j 1).val < 900) :
    win0_0.fill (grid0.coords t) d (iblk m c 0 t) j
      = (V m c main_arg0 : S8x900x1203.Idx → Elt F .f32)
          (ix3 (bOf t) (⟨(qOf t).val * 128 + (j 1).val, hj⟩ : Fin 900) (⟨(j 2).val, (j 2).isLt⟩ : Fin 1203)) := by
  obtain ⟨i0, i1, i2, x0, x1, x2⟩ := logits_maps t
  have hq : (qOf t).val = t.val % 8 := rfl
  have hb : (bOf t).val = t.val / 8 := rfl
  have h0 : (j 0).val < 1 := (j 0).isLt
  have h1 : (j 1).val < 128 := (j 1).isLt
  have h2 : (j 2).val < 1203 := (j 2).isLt
  -- the row is inside the array, so the fetch moves this entry
  have hm : win0_0.moved (grid0.coords t) j = true := by
    rw [Window.moved_iff]
    intro a
    match a with
    | ⟨0, _⟩ => show (j 0).val < win0_0.xsize (grid0.coords t) 0; rw [x0]; exact h0
    | ⟨1, _⟩ =>
      show (j 1).val < win0_0.xsize (grid0.coords t) 1
      rw [x1]; split <;> omega
    | ⟨2, _⟩ => show (j 2).val < win0_0.xsize (grid0.coords t) 2; rw [x2]; exact h2
  unfold Window.fill
  rw [dif_pos hm]
  unfold iblk
  rw [View.read_apply]
  -- the block's entry sits in the array at block index × block size + its own coordinate, axis by axis
  show (V m c main_arg0 : S8x900x1203.Idx → Elt F .f32) ((win0_0.rect t).emb _) = _
  refine congrArg _ (funext fun a => Fin.ext ?_)
  rw [Window.rect_emb_val]
  match a with
  | ⟨0, _⟩ => show win0_0.index t 0 * 1 + (j 0).val = (bOf t).val; rw [i0, hb]; omega
  | ⟨1, _⟩ => show win0_0.index t 1 * 128 + (j 1).val = (qOf t).val * 128 + (j 1).val; rw [i1, hq]
  | ⟨2, _⟩ => show win0_0.index t 2 * 1203 + (j 2).val = (j 2).val; rw [i2]; omega

/-- The query boxes buffer after its fetch at point t, at a block index whose row is inside the array. -/
theorem qboxes_block (c : Dev nD) (t : Fin cfg0.N) (d : S1x128x4.Idx → Elt F .f32) (j : S1x128x4.Idx)
    (hj : (qOf t).val * 128 + (j 1).val < 900) :
    win0_2.fill (grid0.coords t) d (iblk m c 2 t) j
      = (V m c main_arg1 : S8x900x4.Idx → Elt F .f32)
          (ix3 (bOf t) (⟨(qOf t).val * 128 + (j 1).val, hj⟩ : Fin 900) (⟨(j 2).val, (j 2).isLt⟩ : Fin 4)) := by
  obtain ⟨i0, i1, i2, x0, x1, x2⟩ := qboxes_maps t
  have hq : (qOf t).val = t.val % 8 := rfl
  have hb : (bOf t).val = t.val / 8 := rfl
  have h0 : (j 0).val < 1 := (j 0).isLt
  have h1 : (j 1).val < 128 := (j 1).isLt
  have h2 : (j 2).val < 4 := (j 2).isLt
  -- the row is inside the array, so the fetch moves this entry
  have hm : win0_2.moved (grid0.coords t) j = true := by
    rw [Window.moved_iff]
    intro a
    match a with
    | ⟨0, _⟩ => show (j 0).val < win0_2.xsize (grid0.coords t) 0; rw [x0]; exact h0
    | ⟨1, _⟩ =>
      show (j 1).val < win0_2.xsize (grid0.coords t) 1
      rw [x1]; split <;> omega
    | ⟨2, _⟩ => show (j 2).val < win0_2.xsize (grid0.coords t) 2; rw [x2]; exact h2
  unfold Window.fill
  rw [dif_pos hm]
  unfold iblk
  rw [View.read_apply]
  -- the block's entry sits in the array at block index × block size + its own coordinate, axis by axis
  show (V m c main_arg1 : S8x900x4.Idx → Elt F .f32) ((win0_2.rect t).emb _) = _
  refine congrArg _ (funext fun a => Fin.ext ?_)
  rw [Window.rect_emb_val]
  match a with
  | ⟨0, _⟩ => show win0_2.index t 0 * 1 + (j 0).val = (bOf t).val; rw [i0, hb]; omega
  | ⟨1, _⟩ => show win0_2.index t 1 * 128 + (j 1).val = (qOf t).val * 128 + (j 1).val; rw [i1, hq]
  | ⟨2, _⟩ => show win0_2.index t 2 * 4 + (j 2).val = (j 2).val; rw [i2]; omega

/-- The label block at point t is batch entry b's row of the padded label array. -/
theorem labels_block (c : Dev nD) (t : Fin cfg0.N) (j : S1x1x128.Idx) :
    iblk m c 1 t j
      = (V m c main_v2 : S8x1x128.Idx → Elt F .i32) (ix3 (bOf t) (0 : Fin 1) (⟨(j 2).val, (j 2).isLt⟩ : Fin 128)) := by
  obtain ⟨i0, i1, i2⟩ := labels_maps t
  have hb : (bOf t).val = t.val / 8 := rfl
  have h0 : (j 0).val < 1 := (j 0).isLt
  have h1 : (j 1).val < 1 := (j 1).isLt
  unfold iblk
  rw [View.read_apply]
  show (V m c main_v2 : S8x1x128.Idx → Elt F .i32) ((win0_1.rect t).emb j) = _
  refine congrArg _ (funext fun a => Fin.ext ?_)
  rw [Window.rect_emb_val]
  match a with
  | ⟨0, _⟩ => show win0_1.index t 0 * 1 + (j 0).val = (bOf t).val; rw [i0, hb]; omega
  | ⟨1, _⟩ => show win0_1.index t 1 * 1 + (j 1).val = 0; rw [i1]; omega
  | ⟨2, _⟩ => show win0_1.index t 2 * 128 + (j 2).val = (j 2).val; rw [i2]; omega

/-- The target boxes block at point t is batch entry b's slab of the padded, transposed target boxes array. -/
theorem tboxes_block (c : Dev nD) (t : Fin cfg0.N) (j : S1x4x128.Idx) :
    iblk m c 3 t j
      = (V m c main_v9 : S8x4x128.Idx → Elt F .f32)
          (ix3 (bOf t) (⟨(j 1).val, (j 1).isLt⟩ : Fin 4) (⟨(j 2).val, (j 2).isLt⟩ : Fin 128)) := by
  obtain ⟨i0, i1, i2⟩ := tboxes_maps t
  have hb : (bOf t).val = t.val / 8 := rfl
  have h0 : (j 0).val < 1 := (j 0).isLt
  unfold iblk
  rw [View.read_apply]
  show (V m c main_v9 : S8x4x128.Idx → Elt F .f32) ((win0_3.rect t).emb j) = _
  refine congrArg _ (funext fun a => Fin.ext ?_)
  rw [Window.rect_emb_val]
  match a with
  | ⟨0, _⟩ => show win0_3.index t 0 * 1 + (j 0).val = (bOf t).val; rw [i0, hb]; omega
  | ⟨1, _⟩ => show win0_3.index t 1 * 4 + (j 1).val = (j 1).val; rw [i1]; omega
  | ⟨2, _⟩ => show win0_3.index t 2 * 128 + (j 2).val = (j 2).val; rw [i2]; omega

/-- A block-shaped value whose entries on the rows inside the array are the array's entries at (b, 128 q + row, ·)
    is, cut to those rows, the array read through point t's result block. -/
theorem result_block (t : Fin cfg0.N) (X : S1x128x100.Idx → Elt F .f32) (A : S8x900x100.Idx → Elt F .f32)
    (h : ∀ (j : S1x128x100.Idx) (hj : (qOf t).val * 128 + (j 1).val < 900),
      X j = A (ix3 (bOf t) (⟨(qOf t).val * 128 + (j 1).val, hj⟩ : Fin 900) (⟨(j 2).val, (j 2).isLt⟩ : Fin 100))) :
    win0_4.cut (grid0.coords t) X = ((cfg0.win 4).blk t).view.read (Elt F) A := by
  obtain ⟨i0, i1, i2, x0, x1, x2⟩ := result_maps t
  have hq : (qOf t).val = t.val % 8 := rfl
  have hb : (bOf t).val = t.val / 8 := rfl
  funext y
  have h0 : (y (0 : Fin 3)).val < win0_4.xsize (grid0.coords t) 0 := (y (0 : Fin 3)).isLt
  have h1 : (y (1 : Fin 3)).val < win0_4.xsize (grid0.coords t) 1 := (y (1 : Fin 3)).isLt
  rw [x0] at h0
  rw [x1] at h1
  -- a row the write-back moves is a row inside the array
  have hrow : (qOf t).val * 128 + (win0_4.xinj (grid0.coords t) y 1).val < 900 := by
    show (qOf t).val * 128 + (y (1 : Fin 3)).val < 900
    rw [hq]; split at h1 <;> omega
  show X (win0_4.xinj (grid0.coords t) y) = _
  rw [h _ hrow, View.read_apply]
  show A _ = A ((win0_4.rect t).emb y)
  refine congrArg _ (funext fun a => Fin.ext ?_)
  rw [Window.rect_emb_val]
  match a with
  | ⟨0, _⟩ => show (bOf t).val = win0_4.index t 0 * 1 + (y (0 : Fin 3)).val; rw [i0, hb]; omega
  | ⟨1, _⟩ => show (qOf t).val * 128 + (y (1 : Fin 3)).val = win0_4.index t 1 * 128 + (y (1 : Fin 3)).val; rw [i1, hq]
  | ⟨2, _⟩ => show (y (2 : Fin 3)).val = win0_4.index t 2 * 100 + (y (2 : Fin 3)).val; rw [i2]; omega

end Cert.KernelIdeal.Hand

end
-- ==== Proof.HostGlue.lean ====
/-
  The arrays the host operations make before the launch, at an index.

  The label array the kernel sees is the labels clamped to the class range, padded along the target axis from 100
  to 128 lanes with −1, with a unit axis inserted: at a lane below 100, and for a label already in the class range,
  it is the label. The target boxes array the kernel sees is the target boxes padded from 100 to 128 targets (the
  padding lanes replaced by a unit box) and transposed to (batch, coordinate, target): at a lane below 100 it is
  the target's coordinate.
-/
import proofs.«409724_j36000415875396_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost
import Idealize.ShloMosaic.Lib.Affine

set_option maxRecDepth 16384

noncomputable section

namespace Cert.KernelIdeal.Glue

open Idealize.ShloMosaic Idealize.ShloMosaic.TcCoe Idealize.ShloMosaic.ValueIdx
open Idealize.SL Idealize.SL.RA Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ)

/-! ## Words -/

/-- A word l with 0 ≤ l < 1203 signed is its own clamp to [0, 1202], as the clamp is written: the minimum of 1202
    and the maximum of 0 and l, each choosing its first operand only on a strict signed inequality. -/
private theorem clamp_of_range (l : BitVec 32) (h0 : 0 ≤ l.toInt) (h1 : l.toInt < 1203) :
    IntOp.minsi 1202#32 (IntOp.maxsi 0#32 l) = l := by
  have e0 : (0#32).toInt = 0 := by decide
  have e1 : (1202#32).toInt = 1202 := by decide
  have hmax : IntOp.maxsi 0#32 l = l := by
    unfold IntOp.maxsi
    rw [if_neg]
    simp only [BitVec.slt, e0, decide_eq_true_eq]; omega
  rw [hmax]
  unfold IntOp.minsi
  rw [if_neg]
  simp only [BitVec.slt, e1, decide_eq_true_eq]; omega

/-- A lane number below 100, as a 32-bit word, is not ≥ 100 signed: the compare's bit is 0. -/
private theorem lane_lt_bit (n : Nat) (hn : n < 100) : IntOp.cmpi .sge (BitVec.ofNat 32 n) 100#32 = 0#1 := by
  refine eq_zero_of_ne_one fun h => ?_
  have h' := IntOp.cmpi_sge.1 h
  have e100 : (100#32).toInt = 100 := by decide
  have en : (BitVec.ofNat 32 n).toInt = n := by
    rw [BitVec.toInt_eq_msb_cond, BitVec.msb_eq_false_iff_two_mul_lt.mpr (by simp [BitVec.toNat_ofNat]; omega)]
    simp [BitVec.toNat_ofNat]; omega
  rw [e100, en] at h'
  omega

/-! ## The label array: clamp, pad, insert a unit axis -/

/-- The clamped labels padded from 100 to 128 lanes and given a unit middle axis, read at batch b and a lane n < 100,
    is the label there when that label is already in [0, 1203). -/
private theorem labels_read (lab : S8x100.Idx → BitVec 32) (b : Fin 8) (n : Fin 128) (hn : n.val < 100)
    (h0 : 0 ≤ (lab (ix2 b (⟨n.val, hn⟩ : Fin 100))).toInt) (h1 : (lab (ix2 b (⟨n.val, hn⟩ : Fin 100))).toInt < 1203) :
    broadcastInDim S8x1x128 ![0, 2] bcast_S8x128_S8x1x128_0_2
        (pad S8x128 ![0, 0] ![0, 28] ![0, 0]
          (minsi (broadcastInDim S8x100 ![] bcast_S_S8x100 (constantI S_ 32 1202#32))
            (maxsi (broadcastInDim S8x100 ![] bcast_S_S8x100 (constantI S_ 32 0#32)) lab))
          (constantI S_ 32 4294967295#32) pads_S8x100_S8x128_000_0280 h_S_) (ix3 b (0 : Fin 1) n)
      = lab (ix2 b (⟨n.val, hn⟩ : Fin 100)) := by
  -- the unit axis: result (b, 0, n) reads the padded array at (b, n)
  rw [broadcastInDim_apply ![0, 2] bcast_S8x128_S8x1x128_0_2 _ (ix3 b (0 : Fin 1) n) (ix2 b n)
    (fun a => match a with | ⟨0, _⟩ => rfl | ⟨1, _⟩ => rfl)]
  -- the padding: lane n < 100 lies inside the operand, at (b, n)
  rw [pad_apply_of_inside ![0, 0] ![0, 28] ![0, 0] _ _ pads_S8x100_S8x128_000_0280 h_S_ (ix2 b n)
    (ix2 b (⟨n.val, hn⟩ : Fin 100))
    (fun a => match a with
      | ⟨0, _⟩ => by show b.val = 0 + b.val * (0 + 1); omega
      | ⟨1, _⟩ => by show n.val = 0 + n.val * (0 + 1); omega)]
  -- the clamp of a word already in range
  exact clamp_of_range _ h0 h1

/-! ## The target boxes: pad, replace the padding lanes, transpose -/

/-- The mask "lane ≥ 100" spread over [8, 128, 4] has bit 0 at a lane n < 100. -/
private theorem mask_read (b : Fin 8) (n : Fin 128) (k : Fin 4) (hn : n.val < 100) :
    broadcastInDim S8x128x4 ![0, 1, 2] bcast_S1x128x1_S8x128x4_0_1_2
        (broadcastInDim S1x128x1 ![1] bcast_S128_S1x128x1_1
          (cmpi .sge (iotaInDim S128 32 0) (broadcastInDim S128 ![] bcast_S_S128 (constantI S_ 32 100#32))))
        (ix3 b n k) = 0#1 := by
  rw [broadcastInDim_apply ![0, 1, 2] bcast_S1x128x1_S8x128x4_0_1_2 _ (ix3 b n k) (ix3 (0 : Fin 1) n (0 : Fin 1))
    (fun a => match a with | ⟨0, _⟩ => rfl | ⟨1, _⟩ => rfl | ⟨2, _⟩ => rfl)]
  rw [broadcastInDim_apply ![1] bcast_S128_S1x128x1_1 _ (ix3 (0 : Fin 1) n (0 : Fin 1)) (ix1 n)
    (fun a => match a with | ⟨0, _⟩ => rfl)]
  exact lane_lt_bit n.val hn

/-- The padded target boxes, the padding lanes replaced by a constant box, transposed to (batch, coordinate, lane),
    read at a lane n < 100: the target box's coordinate. -/
private theorem tboxes_read {α : Type} (tb : S8x100x4.Idx → α) (ubox : S4.Idx → α) (z : S_.Idx → α)
    (b : Fin 8) (k : Fin 4) (n : Fin 128) (hn : n.val < 100) :
    transpose S8x4x128 [0, 2, 1]
        (select
          (broadcastInDim S8x128x4 ![0, 1, 2] bcast_S1x128x1_S8x128x4_0_1_2
            (broadcastInDim S1x128x1 ![1] bcast_S128_S1x128x1_1
              (cmpi .sge (iotaInDim S128 32 0) (broadcastInDim S128 ![] bcast_S_S128 (constantI S_ 32 100#32)))))
          (broadcastInDim S8x128x4 ![2] bcast_S4_S8x128x4_2 ubox)
          (pad S8x128x4 ![0, 0, 0] ![0, 28, 0] ![0, 0, 0] tb z pads_S8x100x4_S8x128x4_000_0280_000 h_S_))
        transposes_S8x128x4_S8x4x128_0_2_1 (ix3 b k n)
      = tb (ix3 b (⟨n.val, hn⟩ : Fin 100) k) := by
  rw [transpose_ix3_021_apply _ transposes_S8x128x4_S8x4x128_0_2_1 b k n, select_apply, mask_read b n k hn, select_zero]
  exact pad_apply_of_inside ![0, 0, 0] ![0, 28, 0] ![0, 0, 0] tb z pads_S8x100x4_S8x128x4_000_0280_000 h_S_ (ix3 b n k)
    (ix3 b (⟨n.val, hn⟩ : Fin 100) k)
    (fun a => match a with
      | ⟨0, _⟩ => by show b.val = 0 + b.val * (0 + 1); omega
      | ⟨1, _⟩ => by show n.val = 0 + n.val * (0 + 1); omega
      | ⟨2, _⟩ => by show k.val = 0 + k.val * (0 + 1); omega)

/-! ## The two arrays as the host operations' terms -/

/-- The label array the region finds is the chain of host operations over the launched labels: clamp, pad, unit axis. -/
private theorem labels_term (c : Dev nD) :
    (V m c main_v2 : S8x1x128.Idx → BitVec 32)
      = broadcastInDim S8x1x128 ![0, 2] bcast_S8x128_S8x1x128_0_2
          (pad S8x128 ![0, 0] ![0, 28] ![0, 0]
            (minsi (broadcastInDim S8x100 ![] bcast_S_S8x100 (constantI S_ 32 1202#32))
              (maxsi (broadcastInDim S8x100 ![] bcast_S_S8x100 (constantI S_ 32 0#32))
                (m ((c : Thread nD τ).loc main_arg2) : S8x100.Idx → BitVec 32)))
            (constantI S_ 32 4294967295#32) pads_S8x100_S8x128_000_0280 h_S_) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

/-- The target boxes array the region finds is the chain of host operations over the launched target boxes: pad with zero,
    replace the lanes ≥ 100 by the constant box, transpose. -/
private theorem tboxes_term (c : Dev nD) :
    (V m c main_v9 : S8x4x128.Idx → Elt F .f32)
      = transpose S8x4x128 [0, 2, 1]
          (select
            (broadcastInDim S8x128x4 ![0, 1, 2] bcast_S1x128x1_S8x128x4_0_1_2
              (broadcastInDim S1x128x1 ![1] bcast_S128_S1x128x1_1
                (cmpi .sge (iotaInDim S128 32 0) (broadcastInDim S128 ![] bcast_S_S128 (constantI S_ 32 100#32)))))
            (broadcastInDim S8x128x4 ![2] bcast_S4_S8x128x4_2
              (fun i => (FloatOps.ofBits .f32 (lit0 (S4.rowMajor i)) : Elt F .f32)))
            (pad S8x128x4 ![0, 0, 0] ![0, 28, 0] ![0, 0, 0]
              (m ((c : Thread nD τ).loc main_arg3) : S8x100x4.Idx → Elt F .f32)
              (constant (F := F) S_ .f32 0x00000000#32) pads_S8x100x4_S8x128x4_000_0280_000 h_S_))
          transposes_S8x128x4_S8x4x128_0_2_1 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

/-! ## At a real lane -/

/-- The padded label array at a real lane is the label, for a label in the class range. -/
theorem labels_apply (c : Dev nD) (b : Fin 8) (n : Fin 128) (hn : n.val < 100)
    (hr : 0 ≤ ((V m c main_arg2 : S8x100.Idx → BitVec 32) (ix2 b (⟨n.val, hn⟩ : Fin 100))).toInt
      ∧ ((V m c main_arg2 : S8x100.Idx → BitVec 32) (ix2 b (⟨n.val, hn⟩ : Fin 100))).toInt < 1203) :
    (V m c main_v2 : S8x1x128.Idx → BitVec 32) (ix3 b (0 : Fin 1) n)
      = (V m c main_arg2 : S8x100.Idx → BitVec 32) (ix2 b (⟨n.val, hn⟩ : Fin 100)) := by
  rw [labels_term m c]
  rw [V_main_arg2 m c] at hr ⊢
  exact labels_read _ b n hn hr.1 hr.2

/-- The padded, transposed target boxes array at a real lane is the target's coordinate. -/
theorem tboxes_apply (c : Dev nD) (b : Fin 8) (k : Fin 4) (n : Fin 128) (hn : n.val < 100) :
    (V m c main_v9 : S8x4x128.Idx → Elt F .f32) (ix3 b k n)
      = (V m c main_arg3 : S8x100x4.Idx → Elt F .f32) (ix3 b (⟨n.val, hn⟩ : Fin 100) k) := by
  rw [tboxes_term m c]
  rw [V_main_arg3 m c]
  exact tboxes_read _ _ _ b k n hn

end Cert.KernelIdeal.Glue

end
-- ==== Proof.Cover.lean ====
/-
  The result array from its blocks.

  The 64 grid points write back, in order, the rows of their result blocks that lie inside the array: point t
  the rows 128 (t % 8) … of batch entry t / 8, eight points to an entry, the eighth with four rows. These row
  ranges are disjoint and together make up all 900 rows of all 8 entries. So if what each point writes back is an
  array A read through that point's block, the result array ends as A, whatever it held at the launch.
-/
import proofs.«409724_j36000415875396_3_alg».proof.Proof.Gen.KernelIdeal.Frame
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.RA Idealize.SL.Sem
open Idealize.ShloMosaic.Pipeline (Dat Cfg Window)
open Cert.KernelIdeal Cert.KernelIdeal.Gen

variable {F : FTy → Type} [FloatOps F]

/-- The result window's index map and the sizes of its blocks' parts inside the array, at every one of the 64 grid
    points: point t is at block index (t / 8, t % 8, 0); the part of its block inside the array is one batch entry
    deep and all 100 columns wide, and has 128 rows, except the eighth block of an entry, which has the last four
    (900 = 7 * 128 + 4). Decided over the grid. -/
theorem result_block_facts : ∀ t : Fin cfg0.N,
    win0_4.index t (0 : Fin 3) = t.val / 8 ∧ win0_4.index t (1 : Fin 3) = t.val % 8 ∧ win0_4.index t (2 : Fin 3) = 0
    ∧ win0_4.xsize (grid0.coords t) (0 : Fin 3) = 1
    ∧ (t.val % 8 = 7 → win0_4.xsize (grid0.coords t) (1 : Fin 3) = 4)
    ∧ (t.val % 8 < 7 → win0_4.xsize (grid0.coords t) (1 : Fin 3) = 128)
    ∧ win0_4.xsize (grid0.coords t) (2 : Fin 3) = 100 :=
  (by decide +kernel : ∀ t : Fin grid0.N, _)

/-- An index of the result array is in point t's block iff, on each axis, its coordinate is at least the block's
    offset (block index times block size) and less than the offset plus the size of the part inside the array. -/
theorem mem_result_block (t : Fin cfg0.N) (i : S8x900x100.Idx) :
    i ∈ ((cfg0.win 4).blk t).view.set ↔ ∀ a : Fin 3, win0_4.index t a * S1x128x100.size a ≤ (i a).val
      ∧ (i a).val < win0_4.index t a * S1x128x100.size a + win0_4.xsize (grid0.coords t) a := by
  show i ∈ ((View.whole main_v10).slice (win0_4.rect t)).set ↔ _
  rw [View.set_slice_whole, Rect.mem_set_unit]
  exact Iff.rfl

/-- Every index (b, r, k) of the result array is in the block of a point that writes back: the point
    8 b + r / 128. Its block holds batch entry b, all columns, and the rows from 128 (r / 128) on: 128 of them when
    r / 128 < 7, and when r / 128 = 7 the four rows 896 … 899, among which r then is, being below 900. -/
theorem result_covered (i : S8x900x100.Idx) :
    ∃ t : Fin cfg0.N, (cfg0.win 4).flush t = true ∧ i ∈ ((cfg0.win 4).blk t).view.set := by
  have hi0 : (i 0).val < 8 := (i 0).isLt
  have hi1 : (i 1).val < 900 := (i 1).isLt
  have hi2 : (i 2).val < 100 := (i 2).isLt
  have hN : cfg0.N = 64 := N_0
  have ht : 8 * (i 0).val + (i 1).val / 128 < cfg0.N := by rw [hN]; omega
  refine ⟨⟨8 * (i 0).val + (i 1).val / 128, ht⟩, flush0_4 _, ?_⟩
  rw [mem_result_block]
  obtain ⟨e0, e1, e2, s0, s1, s1', s2⟩ := result_block_facts ⟨8 * (i 0).val + (i 1).val / 128, ht⟩
  have tv : (⟨8 * (i 0).val + (i 1).val / 128, ht⟩ : Fin cfg0.N).val = 8 * (i 0).val + (i 1).val / 128 := rfl
  rw [tv] at e0 e1 s1 s1'
  intro a
  match a with
  | ⟨0, _⟩ =>
    show win0_4.index ⟨8 * (i 0).val + (i 1).val / 128, ht⟩ (0 : Fin 3) * 1 ≤ (i 0).val
      ∧ (i 0).val < win0_4.index ⟨8 * (i 0).val + (i 1).val / 128, ht⟩ (0 : Fin 3) * 1
          + win0_4.xsize (grid0.coords ⟨8 * (i 0).val + (i 1).val / 128, ht⟩) (0 : Fin 3)
    rw [e0, s0]; omega
  | ⟨1, _⟩ =>
    show win0_4.index ⟨8 * (i 0).val + (i 1).val / 128, ht⟩ (1 : Fin 3) * 128 ≤ (i 1).val
      ∧ (i 1).val < win0_4.index ⟨8 * (i 0).val + (i 1).val / 128, ht⟩ (1 : Fin 3) * 128
          + win0_4.xsize (grid0.coords ⟨8 * (i 0).val + (i 1).val / 128, ht⟩) (1 : Fin 3)
    rw [e1]
    by_cases h7 : (8 * (i 0).val + (i 1).val / 128) % 8 = 7
    · rw [s1 h7]; omega
    · rw [s1' (by omega)]; omega
  | ⟨2, _⟩ =>
    show win0_4.index ⟨8 * (i 0).val + (i 1).val / 128, ht⟩ (2 : Fin 3) * 100 ≤ (i 2).val
      ∧ (i 2).val < win0_4.index ⟨8 * (i 0).val + (i 1).val / 128, ht⟩ (2 : Fin 3) * 100
          + win0_4.xsize (grid0.coords ⟨8 * (i 0).val + (i 1).val / 128, ht⟩) (2 : Fin 3)
    rw [e2, s2]; omega

/-- The result array after the last point is A, when every point writes back A's block. -/
theorem result_of_flushed {c : Dev nD} (dat : Dat τ (Elt F) Unit ℕ (UR sig nD τ) ℕ cfg0 c)
    (A : Buf (Elt F) (((cfg0.win 4).arr.view.loc (c.tc : Thread nD τ))))
    (h : ∀ t : Fin cfg0.N, dat.flushed 4 t = ((cfg0.win 4).blk t).view.read (Elt F) A) :
    dat.arrAt 4 cfg0.N = A :=
  -- every point writes back A's block, and the blocks cover the array: every index ends holding A's entry
  dat.arrAt_eq_of_cover 4 A (fun t _ => h t) result_covered

end Cert.KernelIdeal.Hand

end
-- ==== Proof.FrameIdeal.lean ====
/-
  The idealized kernel's run, and what its result array holds.

  Under the precondition the logits are real numbers and the labels lie in the class range. At grid point t = 8 b + q
  the body stores, at row r and target n of the result block, the pair cost of the logit of query 128 q + r at
  target n's label, that query's box and that target's box: the filled logits and query boxes buffers are the
  argument arrays at (b, 128 q + r, ·) on the rows inside the array, the label and target boxes blocks are batch
  entry b's rows of the arrays the host operations made, which at a real target are the label and the target's
  box. That is the specification's entry (b, 128 q + r, n). So every point writes back the specification's block,
  and the result array ends as the specification.
-/
import proofs.«409724_j36000415875396_3_alg».proof.Proof.FrameData
import proofs.«409724_j36000415875396_3_alg».proof.Proof.KernelPay
import proofs.«409724_j36000415875396_3_alg».proof.Proof.Pre
import proofs.«409724_j36000415875396_3_alg».proof.Proof.Blocks
import proofs.«409724_j36000415875396_3_alg».proof.Proof.HostGlue
import proofs.«409724_j36000415875396_3_alg».proof.Proof.Cover
import proofs.«409724_j36000415875396_3_alg».proof.Proof.Spec
import proofs.«409724_j36000415875396_3_alg».proof.Defs

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen Cert.CostSpec

variable (m : (ℓ : Loc nD τ sig) → Buf (Elt Ideal) ℓ) (ρ : Dev nD → PrngReg)

/-- The specification of the argument arrays as the launch finds them. -/
def specArr (c : Dev nD) : S8x900x100.Idx → Elt Ideal .f32 :=
  G (V m c main_arg0 : S8x900x1203.Idx → EReal) (V m c main_arg1 : S8x900x4.Idx → EReal)
    (V m c main_arg2 : S8x100.Idx → BitVec 32) (V m c main_arg3 : S8x100x4.Idx → EReal)

/-- At every point the stored value's rows inside the array are the specification's block, whatever the two clipped
    input buffers hold past the array's end. -/
theorem cut_stored (hpre : Cert.Pre_KernelIdeal m) (c : Dev nD) (t : Fin cfg0.N)
    (d0 : S1x128x1203.Idx → Elt Ideal .f32) (d2 : S1x128x4.Idx → Elt Ideal .f32) :
    win0_4.cut (grid0.coords t) (storedAt m c t d0 d2) = resultBlk (specArr m) c t := by
  -- what the precondition gives, over the arrays as the launch finds them (the arguments themselves)
  have hfin : ∀ i : S8x900x1203.Idx, ((V m c main_arg0 : S8x900x1203.Idx → EReal) i : EReal) ≠ (⊤ : EReal)
      ∧ ((V m c main_arg0 : S8x900x1203.Idx → EReal) i : EReal) ≠ (⊥ : EReal) := by
    intro i
    have h := Cert.PreFacts.logits_finite _ _ _ _ (hpre c) i
    simpa only [V_main_arg0 m c] using h
  have hlab : ∀ j, 0 ≤ ((V m c main_arg2 : S8x100.Idx → BitVec 32) j).toInt
      ∧ ((V m c main_arg2 : S8x100.Idx → BitVec 32) j).toInt < 1203 := by
    intro j
    have h := Cert.PreFacts.labels_range _ _ _ _ (hpre c) j
    simpa only [V_main_arg2 m c] using h
  unfold resultBlk
  refine result_block t _ (specArr m c) (fun j hj => ?_)
  obtain ⟨z, r, n, rfl⟩ : ∃ (z : Fin 1) (r : Fin 128) (n : Fin 100), j = ix3 z r n := ⟨j 0, j 1, j 2, eq_ix3 j⟩
  obtain rfl : z = 0 := Subsingleton.elim _ _
  have hn : n.val < 100 := n.isLt
  have hq : (qOf t).val * 128 + r.val < 900 := hj
  -- the four buffers at the indices the stored value reads: the arrays at (b, 128 q + r, ·) and at (b, n, ·)
  have e0 : ∀ k : Fin 1203, win0_0.fill (grid0.coords t) d0 (iblk m c 0 t) (ix3 (0 : Fin 1) r k)
      = (V m c main_arg0 : S8x900x1203.Idx → EReal) (ix3 (bOf t) (⟨(qOf t).val * 128 + r.val, hq⟩ : Fin 900) k) :=
    fun k => logits_block m c t d0 (ix3 (0 : Fin 1) r k) hq
  have e2 : ∀ k : Fin 4, win0_2.fill (grid0.coords t) d2 (iblk m c 2 t) (ix3 (0 : Fin 1) r k)
      = (V m c main_arg1 : S8x900x4.Idx → EReal) (ix3 (bOf t) (⟨(qOf t).val * 128 + r.val, hq⟩ : Fin 900) k) :=
    fun k => qboxes_block m c t d2 (ix3 (0 : Fin 1) r k) hq
  have e1 : iblk m c 1 t (ix3 (0 : Fin 1) (0 : Fin 1) (⟨n.val, by omega⟩ : Fin 128))
      = (V m c main_arg2 : S8x100.Idx → BitVec 32) (ix2 (bOf t) n) := by
    rw [labels_block m c t _]
    exact Cert.KernelIdeal.Glue.labels_apply m c (bOf t) (⟨n.val, by omega⟩ : Fin 128) hn (hlab _)
  have e3 : ∀ k : Fin 4, iblk m c 3 t (ix3 (0 : Fin 1) k (⟨n.val, by omega⟩ : Fin 128))
      = (V m c main_arg3 : S8x100x4.Idx → EReal) (ix3 (bOf t) n k) := fun k => by
    rw [tboxes_block m c t _]
    exact Cert.KernelIdeal.Glue.tboxes_apply m c (bOf t) k (⟨n.val, by omega⟩ : Fin 128) hn
  unfold storedAt
  rw [Cert.KernelIdeal.Pay.stored_apply _ _ _ _ r n (fun k => by rw [e0 k]; exact hfin _) (by rw [e1]; exact hlab _)]
  simp only [e0, e1, e2, e3]
  rfl

set_option backward.isDefEq.respectTransparency.types false in
/-- Every weakly fair execution of @main terminates without a fault, every staged array at what the write-backs leave
    and every other array as the launch found it. -/
theorem run_main (hpre : Cert.Pre_KernelIdeal m) :
    θ_run defs (onTc (τ := τ) (main (F := Ideal))) (s₀ m ρ) (Pipeline.FramePost cfgs (dats m (specArr m)) 0 (V m)) :=
  Pipeline.θ_run_frame cfgs (dats m (specArr m)) (0 : Fin 1) launch0 defs₀ Variants.none m ρ main
    (hbody := fun c => obligation_of_cut m (specArr m) c (cut_stored m hpre c))
    (hshare := fun c => (dats m (specArr m) 0 c).share_full fun _ => rfl)
    (howed := fun _ _ => rfl) (V := V m) (hmain := hmain m Variants.none) (hA := A_eq m (specArr m)) (hΦ := fun _ _ => rfl)

/-- The result array after the last point is the specification. -/
theorem result_eq (c : Dev nD) : (dats m (specArr m) 0 c).arrAt 4 cfg0.N = specArr m c :=
  result_of_flushed (dats m (specArr m) 0 c) (specArr m c) (fun t => by
    show win0_4.cut (grid0.coords t) ((dats m (specArr m) 0 c).after 4 t) = _
    rw [after0_4]; exact win0_4.cut_fill _ _ _)

/-- The specification of the arrays as the launch finds them is the specification of the argument arrays. -/
theorem specArr_eq (c : Dev nD) :
    specArr m c = G (m ((c.tc : Thread nD τ).loc main_arg0)) (m ((c.tc : Thread nD τ).loc main_arg1))
      (m ((c.tc : Thread nD τ).loc main_arg2)) (m ((c.tc : Thread nD τ).loc main_arg3)) := by
  unfold specArr
  rw [V_main_arg0 m c, V_main_arg1 m c, V_main_arg2 m c, V_main_arg3 m c]

/-- THE KERNEL'S RUN: it terminates without a fault, the result array ends as the specification of the argument
    arrays, and those end unchanged. -/
theorem kernel_run (hpre : Cert.Pre_KernelIdeal m) :
    θ_run defs (onTc (τ := τ) (main (F := Ideal))) ⟨m, fun _ => 0, ρ⟩ (fun r => ∀ c : Dev nD,
      r.2.mem ((c.tc : Thread nD τ).loc main_v10)
          = G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 4).trans ((result_eq m c).trans (specArr_eq m c)),
      ((h c).1 0).trans (((dats m (specArr m) 0 c).arrAt_in 0 rfl _).trans ((A_eq m (specArr m) c 0).trans (V_main_arg0 m c))),
      ((h c).1 2).trans (((dats m (specArr m) 0 c).arrAt_in 2 rfl _).trans ((A_eq m (specArr m) c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ hpre)

end Cert.KernelIdeal.Hand

end
-- ==== Proof.RefValue.lean ====
/-
  The reference's result is the specification.

  The reference applies the focal transform to every logit and then picks, for each target, the entry at the
  target's label; a pointwise transform commutes with picking an entry, so entry (b, q, n) is the focal cost of
  the logit of query q at the label's class. For a label in the class range the index is not wrapped, the
  gather's clamp does nothing, and the out-of-range fill is not taken. For a real logit x the host's
  1 / (1 + e^{-x}) is the sigmoid, and a real number to the power 2 is its square. The L1 distance is the host's
  sum over the four coordinates from a zero start, the corners and the areas are the same expressions read through
  slices, broadcasts and the two concatenations, and the negation is 0 − ·.
-/
import proofs.«409724_j36000415875396_3_alg».proof.Proof.Gen.ReferenceIdeal.Read
import proofs.«409724_j36000415875396_3_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.PureOps.Reduce
import Idealize.ShloMosaic.Lib.Affine
import Mathlib.Analysis.SpecialFunctions.Pow.Real

noncomputable section

namespace Cert.ReferenceIdeal.RefValue

open Idealize.ShloMosaic Idealize.ShloMosaic.ValueIdx Cert.ReferenceIdeal Cert.ReferenceIdeal.Gen Cert.ReferenceIdeal.Read Cert.CostSpec

/-! ## The literals 1 and 2, the square, and the focal transform at a real logit -/
/-- The word 0x3F800000 is the real number 1. -/
theorem one_eq : (Ideal.ofBits .f32 0x3F800000#32 : EReal) = 1 := by
  simp [Ideal.ofBits, Ideal.ieee]
  exact_mod_cast (by norm_num : (8388608 : ℝ) * (2 ^ 23)⁻¹ = 1)

/-- The word 0x40000000 is the real number 2. -/
theorem two_eq : (Ideal.ofBits .f32 0x40000000#32 : EReal) = ((2 : ℝ) : EReal) := by
  simp [Ideal.ofBits, Ideal.ieee]
  exact_mod_cast (by norm_num : (8388608 : ℝ) * (2 ^ 22)⁻¹ = 2)

/-- A real number to the power 2 is its square. -/
theorem pow_two_real (y : ℝ) : Ideal.pow (y : EReal) (Ideal.ofBits .f32 0x40000000#32) = (y : EReal) * (y : EReal) := by
  rw [two_eq, Ideal.pow_coe_coe, ← EReal.coe_mul]
  congr 1
  show y ^ (2 : ℝ) = y * y
  rw [Real.rpow_two, sq]

/-- The focal transform of the reference at an index with a real logit: the host's 1 / (1 + e^{-x}) is the sigmoid, a real
    number, and the two powers are squares. -/
theorem focal_at (x0 : (⟨S8x900x1203, .f32⟩ : BufTy).Contents (Elt Ideal)) (i : S8x900x1203.Idx) (r : ℝ) (hr : x0 i = (r : EReal)) :
    val_main_v26 (F := Ideal) x0 i = focal (x0 i) := by
  simp only [val_main_v26_apply, val_main_v15_apply, val_main_v11_apply, val_main_v10_apply, val_main_cst_3_apply,
    val_main_v9_apply, val_main_v7_apply, val_main_v6_apply, val_main_cst_1_apply, val_main_v5_apply, val_main_v4_apply,
    val_main_cst_0_apply, val_main_v3_apply, val_main_v2_apply, val_main_cst_apply, val_main_v1_apply, val_main_v0_apply,
    val_main_v8_apply, val_main_cst_2_apply, val_main_v14_apply, val_main_v13_apply, val_main_v12_apply, val_main_cst_4_apply,
    val_main_v25_apply, val_main_v19_apply, val_main_v18_apply, val_main_cst_6_apply, val_main_v17_apply, val_main_v16_apply,
    val_main_cst_5_apply, val_main_v24_apply, val_main_v23_apply, val_main_v21_apply, val_main_v20_apply, val_main_cst_7_apply,
    val_main_v22_apply, val_main_cst_8_apply]
  simp only [Ideal.ofBits_def, Ideal.addf_def, Ideal.subf_def, Ideal.mulf_def, Ideal.hostDivf_def, Ideal.negf_def, Ideal.maximumf_def,
    Ideal.hostUnary_exp_def, Ideal.hostUnary_log_def, Ideal.hostPowf_def, Ideal.hostNegf_def]
  have hp : Ideal.div (Ideal.ofBits .f32 0x3F800000#32) (Ideal.ofBits .f32 0x3F800000#32 + Ideal.exp (-x0 i))
      = Ideal.logistic (x0 i) := by
    rw [one_eq]; rfl
  obtain ⟨s, hs⟩ : ∃ s : ℝ, Ideal.logistic (x0 i) = (s : EReal) := ⟨_, by rw [hr]; exact Ideal.logistic_coe r⟩
  have h1 : Ideal.ofBits .f32 0x3F800000#32 - Ideal.logistic (x0 i) = ((1 - s : ℝ) : EReal) := by
    rw [hs, one_eq, EReal.coe_sub, EReal.coe_one]
  rw [hp]
  unfold focal focalOf
  rw [h1, hs, pow_two_real, pow_two_real]

/-! ## The gather at an index -/
/-- The gather read at (b, q, n): on the batch axis the result's batch coordinate, on the query axis its offset
    coordinate, on the class axis the start index read signed and clamped to the last class. -/
theorem gather_at (x : S8x900x1203.Idx → EReal) (idx : IVec S8x100x1 32) (b : Fin 8) (q : Fin 900) (n : Fin 100) :
    Host.gather gather_S8x900x1203_S8x100x1_S8x900x100_1_2_0_0_2_2_19001 x idx (ix3 b q n)
      = x (ix3 b q (classOf (idx (ix3 b n (0 : Fin 1))))) := by
  unfold Host.gather
  congr 1
  funext a
  refine Fin.ext ?_
  match a with
  | ⟨0, _⟩ =>
    show gather_S8x900x1203_S8x100x1_S8x900x100_1_2_0_0_2_2_19001.start (ix3 b q n) idx 0
      + gather_S8x900x1203_S8x100x1_S8x900x100_1_2_0_0_2_2_19001.batchCoord (ix3 b q n) 0
      + gather_S8x900x1203_S8x100x1_S8x900x100_1_2_0_0_2_2_19001.offCoord (ix3 b q n) 0 = b.val
    rw [GatherDims.start_batching _ _ _ _ (by decide), GatherDims.offCoord_eq_zero _ _ _ (by decide)]
    simp only [Nat.add_zero, Nat.zero_add]
    unfold GatherDims.batchCoord
    rw [dif_pos (by decide)]
    rfl
  | ⟨1, _⟩ =>
    show gather_S8x900x1203_S8x100x1_S8x900x100_1_2_0_0_2_2_19001.start (ix3 b q n) idx 1
      + gather_S8x900x1203_S8x100x1_S8x900x100_1_2_0_0_2_2_19001.batchCoord (ix3 b q n) 1
      + gather_S8x900x1203_S8x100x1_S8x900x100_1_2_0_0_2_2_19001.offCoord (ix3 b q n) 1 = q.val
    rw [GatherDims.batchCoord_eq_zero _ _ _ (by decide)]
    unfold GatherDims.start GatherDims.offCoord
    rw [dif_neg (by decide), dif_pos (by decide)]
    simp only [Nat.add_zero, Nat.zero_add]
    rfl
  | ⟨2, _⟩ =>
    show gather_S8x900x1203_S8x100x1_S8x900x100_1_2_0_0_2_2_19001.start (ix3 b q n) idx 2
      + gather_S8x900x1203_S8x100x1_S8x900x100_1_2_0_0_2_2_19001.batchCoord (ix3 b q n) 2
      + gather_S8x900x1203_S8x100x1_S8x900x100_1_2_0_0_2_2_19001.offCoord (ix3 b q n) 2 = _
    rw [GatherDims.batchCoord_eq_zero _ _ _ (by decide), GatherDims.offCoord_eq_zero _ _ _ (by decide)]
    simp only [Nat.add_zero]
    unfold GatherDims.start
    rw [dif_pos (by decide)]
    have hsi : gather_S8x900x1203_S8x100x1_S8x900x100_1_2_0_0_2_2_19001.siIdx (ix3 b q n)
        ⟨List.idxOf (2 : Fin 3) gather_S8x900x1203_S8x100x1_S8x900x100_1_2_0_0_2_2_19001.startIndexMap,
          List.idxOf_lt_length_iff.2 (by decide)⟩ = ix3 b n (0 : Fin 1) := by
      funext c; refine Fin.ext ?_
      match c with
      | ⟨0, _⟩ => rfl
      | ⟨1, _⟩ => rfl
      | ⟨2, _⟩ => rfl
    rw [hsi]
    rfl

/-! ## The wrap of the labels and the in-bounds mask -/
/-- A left fold by `and` from 1 over words that are all 1 is 1. -/
theorem foldl_andi_one {ι : Type} (f : ι → BitVec 1) (hf : ∀ i, f i = 1#1) (l : List ι) :
    l.foldl (fun r i => IntOp.andi r (f i)) 1#1 = 1#1 := by
  induction l with
  | nil => rfl
  | cons a l ih =>
    have h11 : IntOp.andi 1#1 1#1 = 1#1 := by decide
    rw [List.foldl_cons, hf a, h11]; exact ih

/-- The start index of target (b, n): a non-negative label is not wrapped. -/
theorem start_at (x2 : (⟨S8x100, .i32⟩ : BufTy).Contents (Elt Ideal)) (b : Fin 8) (n : Fin 100)
    (h0 : 0 ≤ (x2 (ix2 b n)).toInt) :
    val_main_call0_v5 (F := Ideal) x2 (ix3 b n (0 : Fin 1)) = x2 (ix2 b n) := by
  have e1 : idx_main_call0_v5 (ix3 b n (0 : Fin 1)) = ix3 b (0 : Fin 1) n :=
    funext fun a => Fin.ext (match a with
      | ⟨0, _⟩ => (by show ((b.val * 100 + n.val) * 1 + 0) / 100 = b.val; omega)
      | ⟨1, _⟩ => rfl
      | ⟨2, _⟩ => (by show ((b.val * 100 + n.val) * 1 + 0) % 100 = n.val; omega))
  have e2 : idx_main_v27 (ix3 b (0 : Fin 1) n) = ix2 b n :=
    funext fun a => Fin.ext (match a with | ⟨0, _⟩ => rfl | ⟨1, _⟩ => rfl)
  rw [val_main_call0_v5_apply, e1, val_main_call0_v4_apply, val_main_call0_v1_apply, val_main_call0_v3_apply,
    val_main_v27_apply, e2, val_main_call0_v0_apply, val_main_call0_c_apply]
  have hc : IntOp.cmpi .slt (x2 (ix2 b n)) 0#32 = 0#1 :=
    eq_zero_of_ne_one fun h => by
      have h' := IntOp.cmpi_slt.mp h
      have hz : (0#32 : BitVec 32).toInt = 0 := by decide
      omega
  rw [hc, select_zero]

/-- The in-bounds mask of the take is 1 everywhere when every label is in the class range. -/
theorem mask_at (x2 : (⟨S8x100, .i32⟩ : BufTy).Contents (Elt Ideal))
    (hlab : ∀ j, 0 ≤ (x2 j).toInt ∧ (x2 j).toInt < 1203) (j : S8x100.Idx) :
    val_main_call0_v12 (F := Ideal) x2 j = 1#1 := by
  have hall : ∀ i, val_main_call0_v11 (F := Ideal) x2 i = 1#1 := by
    intro i
    obtain ⟨b, n, z, rfl⟩ : ∃ (b : Fin 8) (n : Fin 100) (z : Fin 1), i = ix3 b n z := ⟨i 0, i 1, i 2, eq_ix3 i⟩
    obtain rfl : z = 0 := Subsingleton.elim _ _
    rw [val_main_call0_v11_apply, val_main_call0_v7_apply, val_main_call0_v10_apply, start_at x2 b n (hlab _).1,
      val_main_call0_v6_apply, val_main_call0_c_2_apply, val_main_call0_v9_apply, val_main_call0_v8_apply,
      val_main_call0_c_1_apply]
    have hz : (0#32 : BitVec 32).toInt = 0 := by decide
    have hm : (1202#32 : BitVec 32).toInt = 1202 := by decide
    rw [IntOp.cmpi_sge.mpr (by rw [hz]; exact (hlab _).1), IntOp.cmpi_sle.mpr (by rw [hm]; have := (hlab (ix2 b n)).2; omega)]
    decide
  unfold val_main_call0_v12
  rw [Host.reduce_eq_foldl]
  have hinit : val_main_call0_c_3 (F := Ideal) (Shape.Idx.first h_S_) = 1#1 := rfl
  rw [hinit]
  exact foldl_andi_one _ hall _

/-! ## The class term and the L1 term at an index -/
/-- The take at (b, q, n): the mask is 1, the gather reads the focal array at the label's class, and the logit there is real. -/
theorem take_at (x0 : (⟨S8x900x1203, .f32⟩ : BufTy).Contents (Elt Ideal)) (x2 : (⟨S8x100, .i32⟩ : BufTy).Contents (Elt Ideal))
    (hfin : ∀ i, x0 i ≠ ⊤ ∧ x0 i ≠ ⊥) (hlab : ∀ j, 0 ≤ (x2 j).toInt ∧ (x2 j).toInt < 1203)
    (b : Fin 8) (q : Fin 900) (n : Fin 100) :
    val_main_v28 (F := Ideal) x0 x2 (ix3 b q n) = focal (x0 (ix3 b q (classOf (x2 (ix2 b n))))) := by
  have e : idx_main_call0_v14 (ix3 b q n) = ix2 b n :=
    funext fun a => Fin.ext (match a with | ⟨0, _⟩ => rfl | ⟨1, _⟩ => rfl)
  rw [val_main_v28_apply, val_main_call0_v14_apply, e, mask_at x2 hlab, select_one]
  unfold val_main_call0_v13
  refine (gather_at _ _ b q n).trans ?_
  rw [start_at x2 b n (hlab _).1]
  have h := hfin (ix3 b q (classOf (x2 (ix2 b n))))
  exact focal_at x0 _ (x0 (ix3 b q (classOf (x2 (ix2 b n))))).toReal (EReal.coe_toReal h.1 h.2).symm

/-- The L1 distance at (b, q, n): the host's sum over the four coordinates from a zero start. -/
theorem l1_at (x1 : (⟨S8x900x4, .f32⟩ : BufTy).Contents (Elt Ideal)) (x3 : (⟨S8x100x4, .f32⟩ : BufTy).Contents (Elt Ideal))
    (b : Fin 8) (q : Fin 900) (n : Fin 100) :
    val_main_v35 (F := Ideal) x1 x3 (ix3 b q n)
      = l1 (x1 (ix3 b q (0 : Fin 4))) (x1 (ix3 b q (1 : Fin 4))) (x1 (ix3 b q (2 : Fin 4))) (x1 (ix3 b q (3 : Fin 4)))
          (x3 (ix3 b n (0 : Fin 4))) (x3 (ix3 b n (1 : Fin 4))) (x3 (ix3 b n (2 : Fin 4))) (x3 (ix3 b n (3 : Fin 4))) := by
  have e : ∀ k : Fin 4, val_main_v34 (F := Ideal) x1 x3 (idx_main_v35 (ix3 b q n) k)
      = FloatOps.absf (F := Ideal) (φ := .f32) (x1 (ix3 b q k) - x3 (ix3 b n k)) := by
    intro k
    have e1 : idx_main_v29 (idx_main_v31 (idx_main_v35 (ix3 b q n) k)) = ix3 b q k :=
      funext fun a => Fin.ext (match a with | ⟨0, _⟩ => rfl | ⟨1, _⟩ => rfl | ⟨2, _⟩ => rfl)
    have e2 : idx_main_v30 (idx_main_v32 (idx_main_v35 (ix3 b q n) k)) = ix3 b n k :=
      funext fun a => Fin.ext (match a with | ⟨0, _⟩ => rfl | ⟨1, _⟩ => rfl | ⟨2, _⟩ => rfl)
    rw [val_main_v34_apply, val_main_v33_apply, val_main_v31_apply, val_main_v29_apply, val_main_v32_apply,
      val_main_v30_apply, e1, e2]
    rfl
  rw [val_main_v35_apply, Fin.sum_univ_four, e 0, e 1, e 2, e 3, val_main_cst_9_apply, Ideal.ofBits_def,
    Ideal.ofBits_zero_f32, zero_add]
  rfl

/-! ## The boxes: coordinates and corners -/
/-! ### Index arithmetic of the reshapes that drop a trailing unit axis -/

theorem dm900 (b : Fin 8) (q : Fin 900) :
    (b.val * 900 + q.val) / 900 = b.val ∧ (b.val * 900 + q.val) / 1 % 900 = q.val := by omega

theorem dm100 (b : Fin 8) (n : Fin 100) :
    (b.val * 100 + n.val) / 100 = b.val ∧ (b.val * 100 + n.val) / 1 % 100 = n.val := by omega

theorem dm90000 (b : Fin 8) (q : Fin 900) (n : Fin 100) :
    ((b.val * 900 + q.val) * 100 + n.val) / 90000 = b.val ∧ ((b.val * 900 + q.val) * 100 + n.val) / 100 % 900 = q.val
      ∧ ((b.val * 900 + q.val) * 100 + n.val) / 1 % 100 = n.val := by omega

/-! ### A column of a box array: the slice [d : d+1] of the last axis, its unit axis dropped, reads coordinate d -/

theorem col900_0 (b : Fin 8) (q : Fin 900) : idx_main_v36 (idx_main_v37 (ix2 b q)) = ix3 b q (0 : Fin 4) :=
  funext fun a => Fin.ext (match a with | ⟨0, _⟩ => (dm900 b q).1 | ⟨1, _⟩ => (dm900 b q).2 | ⟨2, _⟩ => rfl)
theorem col900_1 (b : Fin 8) (q : Fin 900) : idx_main_v38 (idx_main_v37 (ix2 b q)) = ix3 b q (1 : Fin 4) :=
  funext fun a => Fin.ext (match a with | ⟨0, _⟩ => (dm900 b q).1 | ⟨1, _⟩ => (dm900 b q).2 | ⟨2, _⟩ => rfl)
theorem col900_2 (b : Fin 8) (q : Fin 900) : idx_main_v40 (idx_main_v37 (ix2 b q)) = ix3 b q (2 : Fin 4) :=
  funext fun a => Fin.ext (match a with | ⟨0, _⟩ => (dm900 b q).1 | ⟨1, _⟩ => (dm900 b q).2 | ⟨2, _⟩ => rfl)
theorem col900_3 (b : Fin 8) (q : Fin 900) : idx_main_v42 (idx_main_v37 (ix2 b q)) = ix3 b q (3 : Fin 4) :=
  funext fun a => Fin.ext (match a with | ⟨0, _⟩ => (dm900 b q).1 | ⟨1, _⟩ => (dm900 b q).2 | ⟨2, _⟩ => rfl)

theorem col100_0 (b : Fin 8) (n : Fin 100) : idx_main_v61 (idx_main_v62 (ix2 b n)) = ix3 b n (0 : Fin 4) :=
  funext fun a => Fin.ext (match a with | ⟨0, _⟩ => (dm100 b n).1 | ⟨1, _⟩ => (dm100 b n).2 | ⟨2, _⟩ => rfl)
theorem col100_1 (b : Fin 8) (n : Fin 100) : idx_main_v63 (idx_main_v62 (ix2 b n)) = ix3 b n (1 : Fin 4) :=
  funext fun a => Fin.ext (match a with | ⟨0, _⟩ => (dm100 b n).1 | ⟨1, _⟩ => (dm100 b n).2 | ⟨2, _⟩ => rfl)
theorem col100_2 (b : Fin 8) (n : Fin 100) : idx_main_v65 (idx_main_v62 (ix2 b n)) = ix3 b n (2 : Fin 4) :=
  funext fun a => Fin.ext (match a with | ⟨0, _⟩ => (dm100 b n).1 | ⟨1, _⟩ => (dm100 b n).2 | ⟨2, _⟩ => rfl)
theorem col100_3 (b : Fin 8) (n : Fin 100) : idx_main_v67 (idx_main_v62 (ix2 b n)) = ix3 b n (3 : Fin 4) :=
  funext fun a => Fin.ext (match a with | ⟨0, _⟩ => (dm100 b n).1 | ⟨1, _⟩ => (dm100 b n).2 | ⟨2, _⟩ => rfl)

/-- The four coordinates (centre x, centre y, width, height) of query box (b, q). -/
theorem box1_at (x1 : (⟨S8x900x4, .f32⟩ : BufTy).Contents (Elt Ideal)) (b : Fin 8) (q : Fin 900) :
    val_main_v37 (F := Ideal) x1 (ix2 b q) = x1 (ix3 b q (0 : Fin 4))
      ∧ val_main_v39 (F := Ideal) x1 (ix2 b q) = x1 (ix3 b q (1 : Fin 4))
      ∧ val_main_v41 (F := Ideal) x1 (ix2 b q) = x1 (ix3 b q (2 : Fin 4))
      ∧ val_main_v43 (F := Ideal) x1 (ix2 b q) = x1 (ix3 b q (3 : Fin 4)) := by
  refine ⟨?_, ?_, ?_, ?_⟩
  · rw [val_main_v37_apply, val_main_v36_apply]; exact congrArg x1 (col900_0 b q)
  · rw [val_main_v39_apply, val_main_v38_apply]; exact congrArg x1 (col900_1 b q)
  · rw [val_main_v41_apply, val_main_v40_apply]; exact congrArg x1 (col900_2 b q)
  · rw [val_main_v43_apply, val_main_v42_apply]; exact congrArg x1 (col900_3 b q)

/-- The four coordinates of target box (b, n). -/
theorem box3_at (x3 : (⟨S8x100x4, .f32⟩ : BufTy).Contents (Elt Ideal)) (b : Fin 8) (n : Fin 100) :
    val_main_v62 (F := Ideal) x3 (ix2 b n) = x3 (ix3 b n (0 : Fin 4))
      ∧ val_main_v64 (F := Ideal) x3 (ix2 b n) = x3 (ix3 b n (1 : Fin 4))
      ∧ val_main_v66 (F := Ideal) x3 (ix2 b n) = x3 (ix3 b n (2 : Fin 4))
      ∧ val_main_v68 (F := Ideal) x3 (ix2 b n) = x3 (ix3 b n (3 : Fin 4)) := by
  refine ⟨?_, ?_, ?_, ?_⟩
  · rw [val_main_v62_apply, val_main_v61_apply]; exact congrArg x3 (col100_0 b n)
  · rw [val_main_v64_apply, val_main_v63_apply]; exact congrArg x3 (col100_1 b n)
  · rw [val_main_v66_apply, val_main_v65_apply]; exact congrArg x3 (col100_2 b n)
  · rw [val_main_v68_apply, val_main_v67_apply]; exact congrArg x3 (col100_3 b n)

/-- The corner coordinates (lower x, lower y, upper x, upper y) of query box (b, q): centre ∓ half the extent. -/
theorem corner1_at (x1 : (⟨S8x900x4, .f32⟩ : BufTy).Contents (Elt Ideal)) (b : Fin 8) (q : Fin 900) :
    val_main_v46 (F := Ideal) x1 (ix2 b q) = lower (x1 (ix3 b q (0 : Fin 4))) (x1 (ix3 b q (2 : Fin 4)))
      ∧ val_main_v49 (F := Ideal) x1 (ix2 b q) = lower (x1 (ix3 b q (1 : Fin 4))) (x1 (ix3 b q (3 : Fin 4)))
      ∧ val_main_v52 (F := Ideal) x1 (ix2 b q) = upper (x1 (ix3 b q (0 : Fin 4))) (x1 (ix3 b q (2 : Fin 4)))
      ∧ val_main_v55 (F := Ideal) x1 (ix2 b q) = upper (x1 (ix3 b q (1 : Fin 4))) (x1 (ix3 b q (3 : Fin 4))) := by
  obtain ⟨h0, h1, h2, h3⟩ := box1_at x1 b q
  refine ⟨?_, ?_, ?_, ?_⟩
  · rw [val_main_v46_apply, val_main_v45_apply, val_main_v44_apply, val_main_cst_10_apply, h0, h2]; rfl
  · rw [val_main_v49_apply, val_main_v48_apply, val_main_v47_apply, val_main_cst_11_apply, h1, h3]; rfl
  · rw [val_main_v52_apply, val_main_v51_apply, val_main_v50_apply, val_main_cst_12_apply, h0, h2]; rfl
  · rw [val_main_v55_apply, val_main_v54_apply, val_main_v53_apply, val_main_cst_13_apply, h1, h3]; rfl

/-- The corner coordinates of target box (b, n). -/
theorem corner3_at (x3 : (⟨S8x100x4, .f32⟩ : BufTy).Contents (Elt Ideal)) (b : Fin 8) (n : Fin 100) :
    val_main_v71 (F := Ideal) x3 (ix2 b n) = lower (x3 (ix3 b n (0 : Fin 4))) (x3 (ix3 b n (2 : Fin 4)))
      ∧ val_main_v74 (F := Ideal) x3 (ix2 b n) = lower (x3 (ix3 b n (1 : Fin 4))) (x3 (ix3 b n (3 : Fin 4)))
      ∧ val_main_v77 (F := Ideal) x3 (ix2 b n) = upper (x3 (ix3 b n (0 : Fin 4))) (x3 (ix3 b n (2 : Fin 4)))
      ∧ val_main_v80 (F := Ideal) x3 (ix2 b n) = upper (x3 (ix3 b n (1 : Fin 4))) (x3 (ix3 b n (3 : Fin 4))) := by
  obtain ⟨h0, h1, h2, h3⟩ := box3_at x3 b n
  refine ⟨?_, ?_, ?_, ?_⟩
  · rw [val_main_v71_apply, val_main_v70_apply, val_main_v69_apply, val_main_cst_14_apply, h0, h2]; rfl
  · rw [val_main_v74_apply, val_main_v73_apply, val_main_v72_apply, val_main_cst_15_apply, h1, h3]; rfl
  · rw [val_main_v77_apply, val_main_v76_apply, val_main_v75_apply, val_main_cst_16_apply, h0, h2]; rfl
  · rw [val_main_v80_apply, val_main_v79_apply, val_main_v78_apply, val_main_cst_17_apply, h1, h3]; rfl

/-! ## The two concatenations -/
/-- A concatenation of four width-1 pieces along the last axis into an [8, m, 4] array: entry d of the last axis is piece d. -/
theorem concat4_at {m : Nat} (p0 p1 p2 p3 : (⟨3, ![8, m, 1]⟩ : Shape).Idx → EReal)
    (h : Shape.Concatenates (([⟨⟨3, ![8, m, 1]⟩, p0⟩, ⟨⟨3, ![8, m, 1]⟩, p1⟩, ⟨⟨3, ![8, m, 1]⟩, p2⟩, ⟨⟨3, ![8, m, 1]⟩, p3⟩] :
      List ((s : Shape) × (s.Idx → EReal))).map (·.1)) ⟨3, ![8, m, 4]⟩ 2) (b : Fin 8) (q : Fin m) :
    concatenate ⟨3, ![8, m, 4]⟩ 2 [⟨⟨3, ![8, m, 1]⟩, p0⟩, ⟨⟨3, ![8, m, 1]⟩, p1⟩, ⟨⟨3, ![8, m, 1]⟩, p2⟩, ⟨⟨3, ![8, m, 1]⟩, p3⟩] h
        (ix3 b q (0 : Fin 4)) = p0 (ix3 b q (0 : Fin 1))
      ∧ concatenate ⟨3, ![8, m, 4]⟩ 2 [⟨⟨3, ![8, m, 1]⟩, p0⟩, ⟨⟨3, ![8, m, 1]⟩, p1⟩, ⟨⟨3, ![8, m, 1]⟩, p2⟩, ⟨⟨3, ![8, m, 1]⟩, p3⟩] h
        (ix3 b q (1 : Fin 4)) = p1 (ix3 b q (0 : Fin 1))
      ∧ concatenate ⟨3, ![8, m, 4]⟩ 2 [⟨⟨3, ![8, m, 1]⟩, p0⟩, ⟨⟨3, ![8, m, 1]⟩, p1⟩, ⟨⟨3, ![8, m, 1]⟩, p2⟩, ⟨⟨3, ![8, m, 1]⟩, p3⟩] h
        (ix3 b q (2 : Fin 4)) = p2 (ix3 b q (0 : Fin 1))
      ∧ concatenate ⟨3, ![8, m, 4]⟩ 2 [⟨⟨3, ![8, m, 1]⟩, p0⟩, ⟨⟨3, ![8, m, 1]⟩, p1⟩, ⟨⟨3, ![8, m, 1]⟩, p2⟩, ⟨⟨3, ![8, m, 1]⟩, p3⟩] h
        (ix3 b q (3 : Fin 4)) = p3 (ix3 b q (0 : Fin 1)) := by
  have hi : ∀ (d : Fin 4) (c : Fin (⟨3, ![8, m, 1]⟩ : Shape).rank), c.cast (rfl : (3 : Nat) = 3) ≠ (2 : Fin 3) →
      ((ix3 b q (0 : Fin 1) : (⟨3, ![8, m, 1]⟩ : Shape).Idx) c).val = ((ix3 b q d : (⟨3, ![8, m, 4]⟩ : Shape).Idx) (c.cast rfl)).val :=
    fun d c hc => match c, hc with
      | ⟨0, _⟩, _ => rfl
      | ⟨1, _⟩, _ => rfl
      | ⟨2, _⟩, hc => (hc (Fin.ext rfl)).elim
  refine ⟨?_, ?_, ?_, ?_⟩
  · exact concatenate_apply_piece _ _ h _ 0 (by show 0 < 4; decide) _ p0 rfl rfl 0 rfl (ix3 b q (0 : Fin 1)) (hi 0) rfl
  · exact concatenate_apply_piece _ _ h _ 1 (by show 1 < 4; decide) _ p1 rfl rfl 1 rfl (ix3 b q (0 : Fin 1)) (hi 1) rfl
  · exact concatenate_apply_piece _ _ h _ 2 (by show 2 < 4; decide) _ p2 rfl rfl 2 rfl (ix3 b q (0 : Fin 1)) (hi 2) rfl
  · exact concatenate_apply_piece _ _ h _ 3 (by show 3 < 4; decide) _ p3 rfl rfl 3 rfl (ix3 b q (0 : Fin 1)) (hi 3) rfl

/-- The corner array of the query boxes at (b, q, d): lower x, lower y, upper x, upper y for d = 0, 1, 2, 3. -/
theorem xyxy1_at (x1 : (⟨S8x900x4, .f32⟩ : BufTy).Contents (Elt Ideal)) (b : Fin 8) (q : Fin 900) :
    val_main_v60 (F := Ideal) x1 (ix3 b q (0 : Fin 4)) = lower (x1 (ix3 b q (0 : Fin 4))) (x1 (ix3 b q (2 : Fin 4)))
      ∧ val_main_v60 (F := Ideal) x1 (ix3 b q (1 : Fin 4)) = lower (x1 (ix3 b q (1 : Fin 4))) (x1 (ix3 b q (3 : Fin 4)))
      ∧ val_main_v60 (F := Ideal) x1 (ix3 b q (2 : Fin 4)) = upper (x1 (ix3 b q (0 : Fin 4))) (x1 (ix3 b q (2 : Fin 4)))
      ∧ val_main_v60 (F := Ideal) x1 (ix3 b q (3 : Fin 4)) = upper (x1 (ix3 b q (1 : Fin 4))) (x1 (ix3 b q (3 : Fin 4))) := by
  obtain ⟨c0, c1, c2, c3⟩ := corner1_at x1 b q
  have e : idx_main_v56 (ix3 b q (0 : Fin 1)) = ix2 b q :=
    funext fun a => Fin.ext (match a with | ⟨0, _⟩ => rfl | ⟨1, _⟩ => rfl)
  obtain ⟨p0, p1, p2, p3⟩ := concat4_at (val_main_v56 (F := Ideal) x1) (val_main_v57 (F := Ideal) x1)
    (val_main_v58 (F := Ideal) x1) (val_main_v59 (F := Ideal) x1) concatenates_S8x900x1_S8x900x1_S8x900x1_S8x900x1_S8x900x4_d2 b q
  refine ⟨?_, ?_, ?_, ?_⟩
  · exact p0.trans (by rw [val_main_v56_apply, e, c0])
  · exact p1.trans (by rw [val_main_v57_apply, show idx_main_v57 (ix3 b q (0 : Fin 1)) = ix2 b q from e, c1])
  · exact p2.trans (by rw [val_main_v58_apply, show idx_main_v58 (ix3 b q (0 : Fin 1)) = ix2 b q from e, c2])
  · exact p3.trans (by rw [val_main_v59_apply, show idx_main_v59 (ix3 b q (0 : Fin 1)) = ix2 b q from e, c3])

/-- The corner array of the target boxes at (b, n, d). -/
theorem xyxy3_at (x3 : (⟨S8x100x4, .f32⟩ : BufTy).Contents (Elt Ideal)) (b : Fin 8) (n : Fin 100) :
    val_main_v85 (F := Ideal) x3 (ix3 b n (0 : Fin 4)) = lower (x3 (ix3 b n (0 : Fin 4))) (x3 (ix3 b n (2 : Fin 4)))
      ∧ val_main_v85 (F := Ideal) x3 (ix3 b n (1 : Fin 4)) = lower (x3 (ix3 b n (1 : Fin 4))) (x3 (ix3 b n (3 : Fin 4)))
      ∧ val_main_v85 (F := Ideal) x3 (ix3 b n (2 : Fin 4)) = upper (x3 (ix3 b n (0 : Fin 4))) (x3 (ix3 b n (2 : Fin 4)))
      ∧ val_main_v85 (F := Ideal) x3 (ix3 b n (3 : Fin 4)) = upper (x3 (ix3 b n (1 : Fin 4))) (x3 (ix3 b n (3 : Fin 4))) := by
  obtain ⟨c0, c1, c2, c3⟩ := corner3_at x3 b n
  have e : idx_main_v81 (ix3 b n (0 : Fin 1)) = ix2 b n :=
    funext fun a => Fin.ext (match a with | ⟨0, _⟩ => rfl | ⟨1, _⟩ => rfl)
  obtain ⟨p0, p1, p2, p3⟩ := concat4_at (val_main_v81 (F := Ideal) x3) (val_main_v82 (F := Ideal) x3)
    (val_main_v83 (F := Ideal) x3) (val_main_v84 (F := Ideal) x3) concatenates_S8x100x1_S8x100x1_S8x100x1_S8x100x1_S8x100x4_d2 b n
  refine ⟨?_, ?_, ?_, ?_⟩
  · exact p0.trans (by rw [val_main_v81_apply, e, c0])
  · exact p1.trans (by rw [val_main_v82_apply, show idx_main_v82 (ix3 b n (0 : Fin 1)) = ix2 b n from e, c1])
  · exact p2.trans (by rw [val_main_v83_apply, show idx_main_v83 (ix3 b n (0 : Fin 1)) = ix2 b n from e, c2])
  · exact p3.trans (by rw [val_main_v84_apply, show idx_main_v84 (ix3 b n (0 : Fin 1)) = ix2 b n from e, c3])

/-! ## Intersection, enclosing box and areas -/
/-! ### The corner arrays read through the pair slices [0:2] / [2:4] and the two broadcasts -/

theorem pairlo1 (b : Fin 8) (q : Fin 900) (n : Fin 100) (d : Fin 2) (d' : Fin 4) (hd : d'.val = d.val) :
    idx_main_v108 (idx_main_v109 (idx_main_v112 (ix4 b q n d))) = ix3 b q d' :=
  funext fun a => Fin.ext (match a with | ⟨0, _⟩ => rfl | ⟨1, _⟩ => rfl | ⟨2, _⟩ => hd.symm)
theorem pairhi1 (b : Fin 8) (q : Fin 900) (n : Fin 100) (d : Fin 2) (d' : Fin 4) (hd : d'.val = 2 + d.val) :
    idx_main_v115 (idx_main_v109 (idx_main_v112 (ix4 b q n d))) = ix3 b q d' :=
  funext fun a => Fin.ext (match a with | ⟨0, _⟩ => rfl | ⟨1, _⟩ => rfl | ⟨2, _⟩ => hd.symm)
theorem pairlo3 (b : Fin 8) (q : Fin 900) (n : Fin 100) (d : Fin 2) (d' : Fin 4) (hd : d'.val = d.val) :
    idx_main_v110 (idx_main_v111 (idx_main_v113 (ix4 b q n d))) = ix3 b n d' :=
  funext fun a => Fin.ext (match a with | ⟨0, _⟩ => rfl | ⟨1, _⟩ => rfl | ⟨2, _⟩ => hd.symm)
theorem pairhi3 (b : Fin 8) (q : Fin 900) (n : Fin 100) (d : Fin 2) (d' : Fin 4) (hd : d'.val = 2 + d.val) :
    idx_main_v117 (idx_main_v111 (idx_main_v113 (ix4 b q n d))) = ix3 b n d' :=
  funext fun a => Fin.ext (match a with | ⟨0, _⟩ => rfl | ⟨1, _⟩ => rfl | ⟨2, _⟩ => hd.symm)

/-- One side of the intersection at (b, q, n): along axis d (x or y), the overlap of the two boxes' intervals clipped at zero. -/
theorem interSide_at (x1 : (⟨S8x900x4, .f32⟩ : BufTy).Contents (Elt Ideal)) (x3 : (⟨S8x100x4, .f32⟩ : BufTy).Contents (Elt Ideal))
    (b : Fin 8) (q : Fin 900) (n : Fin 100) (d : Fin 2) (lo hi : Fin 4) (hlo : lo.val = d.val) (hhi : hi.val = 2 + d.val) :
    val_main_v123 (F := Ideal) x1 x3 (ix4 b q n d)
      = span (max (val_main_v60 (F := Ideal) x1 (ix3 b q lo)) (val_main_v85 (F := Ideal) x3 (ix3 b n lo)))
          (min (val_main_v60 (F := Ideal) x1 (ix3 b q hi)) (val_main_v85 (F := Ideal) x3 (ix3 b n hi))) := by
  have a1 : val_main_v112 (F := Ideal) x1 (ix4 b q n d) = val_main_v60 (F := Ideal) x1 (ix3 b q lo) := by
    rw [val_main_v112_apply, val_main_v109_apply, val_main_v108_apply]
    exact congrArg (val_main_v60 (F := Ideal) x1) (pairlo1 b q n d lo hlo)
  have a3 : val_main_v113 (F := Ideal) x3 (ix4 b q n d) = val_main_v85 (F := Ideal) x3 (ix3 b n lo) := by
    rw [val_main_v113_apply, val_main_v111_apply, val_main_v110_apply]
    exact congrArg (val_main_v85 (F := Ideal) x3) (pairlo3 b q n d lo hlo)
  have b1 : val_main_v119 (F := Ideal) x1 (ix4 b q n d) = val_main_v60 (F := Ideal) x1 (ix3 b q hi) := by
    rw [val_main_v119_apply, val_main_v116_apply, val_main_v115_apply]
    exact congrArg (val_main_v60 (F := Ideal) x1) (pairhi1 b q n d hi hhi)
  have b3 : val_main_v120 (F := Ideal) x3 (ix4 b q n d) = val_main_v85 (F := Ideal) x3 (ix3 b n hi) := by
    rw [val_main_v120_apply, val_main_v118_apply, val_main_v117_apply]
    exact congrArg (val_main_v85 (F := Ideal) x3) (pairhi3 b q n d hi hhi)
  rw [val_main_v123_apply, val_main_call1_v1_apply, val_main_call1_v0_apply, val_main_cst_18_apply, val_main_v122_apply,
    val_main_v121_apply, val_main_v114_apply, a1, a3, b1, b3]
  simp only [Ideal.maximumf_def, Ideal.minimumf_def, Ideal.subf_def, Ideal.ofBits_def]
  exact max_comm _ _

/-- One side of the enclosing box at (b, q, n): along axis d, the extent of the smallest interval holding both, clipped at zero. -/
theorem hullSide_at (x1 : (⟨S8x900x4, .f32⟩ : BufTy).Contents (Elt Ideal)) (x3 : (⟨S8x100x4, .f32⟩ : BufTy).Contents (Elt Ideal))
    (b : Fin 8) (q : Fin 900) (n : Fin 100) (d : Fin 2) (lo hi : Fin 4) (hlo : lo.val = d.val) (hhi : hi.val = 2 + d.val) :
    val_main_v151 (F := Ideal) x1 x3 (ix4 b q n d)
      = span (min (val_main_v60 (F := Ideal) x1 (ix3 b q lo)) (val_main_v85 (F := Ideal) x3 (ix3 b n lo)))
          (max (val_main_v60 (F := Ideal) x1 (ix3 b q hi)) (val_main_v85 (F := Ideal) x3 (ix3 b n hi))) := by
  have a1 : val_main_v140 (F := Ideal) x1 (ix4 b q n d) = val_main_v60 (F := Ideal) x1 (ix3 b q lo) := by
    rw [val_main_v140_apply, val_main_v137_apply, val_main_v136_apply]
    exact congrArg (val_main_v60 (F := Ideal) x1) (pairlo1 b q n d lo hlo)
  have a3 : val_main_v141 (F := Ideal) x3 (ix4 b q n d) = val_main_v85 (F := Ideal) x3 (ix3 b n lo) := by
    rw [val_main_v141_apply, val_main_v139_apply, val_main_v138_apply]
    exact congrArg (val_main_v85 (F := Ideal) x3) (pairlo3 b q n d lo hlo)
  have b1 : val_main_v147 (F := Ideal) x1 (ix4 b q n d) = val_main_v60 (F := Ideal) x1 (ix3 b q hi) := by
    rw [val_main_v147_apply, val_main_v144_apply, val_main_v143_apply]
    exact congrArg (val_main_v60 (F := Ideal) x1) (pairhi1 b q n d hi hhi)
  have b3 : val_main_v148 (F := Ideal) x3 (ix4 b q n d) = val_main_v85 (F := Ideal) x3 (ix3 b n hi) := by
    rw [val_main_v148_apply, val_main_v146_apply, val_main_v145_apply]
    exact congrArg (val_main_v85 (F := Ideal) x3) (pairhi3 b q n d hi hhi)
  rw [val_main_v151_apply, val_main_call2_v1_apply, val_main_call2_v0_apply, val_main_cst_19_apply, val_main_v150_apply,
    val_main_v149_apply, val_main_v142_apply, a1, a3, b1, b3]
  simp only [Ideal.maximumf_def, Ideal.minimumf_def, Ideal.subf_def, Ideal.ofBits_def]
  exact max_comm _ _

/-! ### A pair array [8, 900, 100, 2] read through the slice [d : d+1] of its last axis, the unit axis dropped -/

theorem last0 (b : Fin 8) (q : Fin 900) (n : Fin 100) : idx_main_v124 (idx_main_v125 (ix3 b q n)) = ix4 b q n (0 : Fin 2) :=
  funext fun a => Fin.ext (match a with
    | ⟨0, _⟩ => (dm90000 b q n).1 | ⟨1, _⟩ => (dm90000 b q n).2.1 | ⟨2, _⟩ => (dm90000 b q n).2.2 | ⟨3, _⟩ => rfl)
theorem last1 (b : Fin 8) (q : Fin 900) (n : Fin 100) : idx_main_v126 (idx_main_v125 (ix3 b q n)) = ix4 b q n (1 : Fin 2) :=
  funext fun a => Fin.ext (match a with
    | ⟨0, _⟩ => (dm90000 b q n).1 | ⟨1, _⟩ => (dm90000 b q n).2.1 | ⟨2, _⟩ => (dm90000 b q n).2.2 | ⟨3, _⟩ => rfl)

/-- The area of query box (b, q). -/
theorem area1_at (x1 : (⟨S8x900x4, .f32⟩ : BufTy).Contents (Elt Ideal)) (b : Fin 8) (q : Fin 900) :
    val_main_v96 (F := Ideal) x1 (ix2 b q)
      = (upper (x1 (ix3 b q (0 : Fin 4))) (x1 (ix3 b q (2 : Fin 4))) - lower (x1 (ix3 b q (0 : Fin 4))) (x1 (ix3 b q (2 : Fin 4))))
        * (upper (x1 (ix3 b q (1 : Fin 4))) (x1 (ix3 b q (3 : Fin 4))) - lower (x1 (ix3 b q (1 : Fin 4))) (x1 (ix3 b q (3 : Fin 4)))) := by
  obtain ⟨k0, k1, k2, k3⟩ := xyxy1_at x1 b q
  have r0 : val_main_v89 (F := Ideal) x1 (ix2 b q) = val_main_v60 (F := Ideal) x1 (ix3 b q (0 : Fin 4)) := by
    rw [val_main_v89_apply, val_main_v88_apply]; exact congrArg (val_main_v60 (F := Ideal) x1) (col900_0 b q)
  have r1 : val_main_v94 (F := Ideal) x1 (ix2 b q) = val_main_v60 (F := Ideal) x1 (ix3 b q (1 : Fin 4)) := by
    rw [val_main_v94_apply, val_main_v93_apply]; exact congrArg (val_main_v60 (F := Ideal) x1) (col900_1 b q)
  have r2 : val_main_v87 (F := Ideal) x1 (ix2 b q) = val_main_v60 (F := Ideal) x1 (ix3 b q (2 : Fin 4)) := by
    rw [val_main_v87_apply, val_main_v86_apply]; exact congrArg (val_main_v60 (F := Ideal) x1) (col900_2 b q)
  have r3 : val_main_v92 (F := Ideal) x1 (ix2 b q) = val_main_v60 (F := Ideal) x1 (ix3 b q (3 : Fin 4)) := by
    rw [val_main_v92_apply, val_main_v91_apply]; exact congrArg (val_main_v60 (F := Ideal) x1) (col900_3 b q)
  rw [val_main_v96_apply, val_main_v90_apply, val_main_v95_apply, r0, r1, r2, r3, k0, k1, k2, k3]
  rfl

/-- The area of target box (b, n). -/
theorem area3_at (x3 : (⟨S8x100x4, .f32⟩ : BufTy).Contents (Elt Ideal)) (b : Fin 8) (n : Fin 100) :
    val_main_v107 (F := Ideal) x3 (ix2 b n)
      = (upper (x3 (ix3 b n (0 : Fin 4))) (x3 (ix3 b n (2 : Fin 4))) - lower (x3 (ix3 b n (0 : Fin 4))) (x3 (ix3 b n (2 : Fin 4))))
        * (upper (x3 (ix3 b n (1 : Fin 4))) (x3 (ix3 b n (3 : Fin 4))) - lower (x3 (ix3 b n (1 : Fin 4))) (x3 (ix3 b n (3 : Fin 4)))) := by
  obtain ⟨k0, k1, k2, k3⟩ := xyxy3_at x3 b n
  have r0 : val_main_v100 (F := Ideal) x3 (ix2 b n) = val_main_v85 (F := Ideal) x3 (ix3 b n (0 : Fin 4)) := by
    rw [val_main_v100_apply, val_main_v99_apply]; exact congrArg (val_main_v85 (F := Ideal) x3) (col100_0 b n)
  have r1 : val_main_v105 (F := Ideal) x3 (ix2 b n) = val_main_v85 (F := Ideal) x3 (ix3 b n (1 : Fin 4)) := by
    rw [val_main_v105_apply, val_main_v104_apply]; exact congrArg (val_main_v85 (F := Ideal) x3) (col100_1 b n)
  have r2 : val_main_v98 (F := Ideal) x3 (ix2 b n) = val_main_v85 (F := Ideal) x3 (ix3 b n (2 : Fin 4)) := by
    rw [val_main_v98_apply, val_main_v97_apply]; exact congrArg (val_main_v85 (F := Ideal) x3) (col100_2 b n)
  have r3 : val_main_v103 (F := Ideal) x3 (ix2 b n) = val_main_v85 (F := Ideal) x3 (ix3 b n (3 : Fin 4)) := by
    rw [val_main_v103_apply, val_main_v102_apply]; exact congrArg (val_main_v85 (F := Ideal) x3) (col100_3 b n)
  rw [val_main_v107_apply, val_main_v101_apply, val_main_v106_apply, r0, r1, r2, r3, k0, k1, k2, k3]
  rfl

/-! ## The generalised IoU and the assembly -/
/-- The generalised IoU at (b, q, n). -/
theorem giou_at (x1 : (⟨S8x900x4, .f32⟩ : BufTy).Contents (Elt Ideal)) (x3 : (⟨S8x100x4, .f32⟩ : BufTy).Contents (Elt Ideal))
    (b : Fin 8) (q : Fin 900) (n : Fin 100) :
    val_main_v159 (F := Ideal) x1 x3 (ix3 b q n)
      = giou (x1 (ix3 b q (0 : Fin 4))) (x1 (ix3 b q (1 : Fin 4))) (x1 (ix3 b q (2 : Fin 4))) (x1 (ix3 b q (3 : Fin 4)))
          (x3 (ix3 b n (0 : Fin 4))) (x3 (ix3 b n (1 : Fin 4))) (x3 (ix3 b n (2 : Fin 4))) (x3 (ix3 b n (3 : Fin 4))) := by
  obtain ⟨k0, k1, k2, k3⟩ := xyxy1_at x1 b q
  obtain ⟨t0, t1, t2, t3⟩ := xyxy3_at x3 b n
  have hinter : val_main_v128 (F := Ideal) x1 x3 (ix3 b q n)
      = val_main_v123 (F := Ideal) x1 x3 (ix4 b q n (0 : Fin 2)) * val_main_v123 (F := Ideal) x1 x3 (ix4 b q n (1 : Fin 2)) := by
    rw [val_main_v128_apply, val_main_v125_apply, val_main_v124_apply, val_main_v127_apply, val_main_v126_apply,
      show idx_main_v124 (idx_main_v125 (ix3 b q n)) = ix4 b q n (0 : Fin 2) from last0 b q n,
      show idx_main_v126 (idx_main_v127 (ix3 b q n)) = ix4 b q n (1 : Fin 2) from last1 b q n]
    rfl
  have hhull : val_main_v156 (F := Ideal) x1 x3 (ix3 b q n)
      = val_main_v151 (F := Ideal) x1 x3 (ix4 b q n (0 : Fin 2)) * val_main_v151 (F := Ideal) x1 x3 (ix4 b q n (1 : Fin 2)) := by
    rw [val_main_v156_apply, val_main_v153_apply, val_main_v152_apply, val_main_v155_apply, val_main_v154_apply,
      show idx_main_v152 (idx_main_v153 (ix3 b q n)) = ix4 b q n (0 : Fin 2) from last0 b q n,
      show idx_main_v154 (idx_main_v155 (ix3 b q n)) = ix4 b q n (1 : Fin 2) from last1 b q n]
    rfl
  have hsum : val_main_v133 (F := Ideal) x1 x3 (ix3 b q n)
      = val_main_v96 (F := Ideal) x1 (ix2 b q) + val_main_v107 (F := Ideal) x3 (ix2 b n) := by
    have e1 : idx_main_v129 (idx_main_v131 (ix3 b q n)) = ix2 b q :=
      funext fun a => Fin.ext (match a with | ⟨0, _⟩ => rfl | ⟨1, _⟩ => rfl)
    have e3 : idx_main_v130 (idx_main_v132 (ix3 b q n)) = ix2 b n :=
      funext fun a => Fin.ext (match a with | ⟨0, _⟩ => rfl | ⟨1, _⟩ => rfl)
    rw [val_main_v133_apply, val_main_v131_apply, val_main_v129_apply, e1, val_main_v132_apply, val_main_v130_apply, e3]
    rfl
  rw [val_main_v159_apply, val_main_v135_apply, val_main_v158_apply, val_main_v157_apply, val_main_v134_apply, hinter, hhull, hsum,
    interSide_at x1 x3 b q n 0 0 2 rfl rfl, interSide_at x1 x3 b q n 1 1 3 rfl rfl,
    hullSide_at x1 x3 b q n 0 0 2 rfl rfl, hullSide_at x1 x3 b q n 1 1 3 rfl rfl,
    area1_at, area3_at, k0, k1, k2, k3, t0, t1, t2, t3]
  rfl

/-- The reference's last stage is the specification, for real logits and labels in the class range. -/
theorem ref_eq (x0 : (⟨S8x900x1203, .f32⟩ : BufTy).Contents (Elt Ideal)) (x1 : (⟨S8x900x4, .f32⟩ : BufTy).Contents (Elt Ideal))
    (x2 : (⟨S8x100, .i32⟩ : BufTy).Contents (Elt Ideal)) (x3 : (⟨S8x100x4, .f32⟩ : BufTy).Contents (Elt Ideal))
    (hfin : ∀ i, x0 i ≠ ⊤ ∧ x0 i ≠ ⊥) (hlab : ∀ j, 0 ≤ (x2 j).toInt ∧ (x2 j).toInt < 1203) :
    val_main_v168 (F := Ideal) x0 x1 x2 x3 = G x0 x1 x2 x3 := by
  funext j
  obtain ⟨b, q, n, rfl⟩ : ∃ (b : Fin 8) (q : Fin 900) (n : Fin 100), j = ix3 b q n := ⟨j 0, j 1, j 2, eq_ix3 j⟩
  rw [val_main_v168_apply, val_main_v164_apply, val_main_v161_apply, val_main_v160_apply, val_main_cst_20_apply,
    val_main_v163_apply, val_main_v162_apply, val_main_cst_21_apply, val_main_v167_apply, val_main_v166_apply,
    val_main_cst_22_apply, val_main_v165_apply, take_at x0 x2 hfin hlab b q n, l1_at x1 x3 b q n, giou_at x1 x3 b q n]
  show _ = pairCost (x0 (ix3 b q (classOf (x2 (ix2 b n)))))
    (x1 (ix3 b q (0 : Fin 4))) (x1 (ix3 b q (1 : Fin 4))) (x1 (ix3 b q (2 : Fin 4))) (x1 (ix3 b q (3 : Fin 4)))
    (x3 (ix3 b n (0 : Fin 4))) (x3 (ix3 b n (1 : Fin 4))) (x3 (ix3 b n (2 : Fin 4))) (x3 (ix3 b n (3 : Fin 4)))
  unfold pairCost
  rw [show (zero : EReal) = 0 from Ideal.ofBits_zero_f32, zero_sub]
  rfl

end Cert.ReferenceIdeal.RefValue

end
-- ==== Proof.lean ====
/-
  The matching cost kernel equals its reference over the extended reals.

  Inputs: logits f32[8, 900, 1203], query boxes f32[8, 900, 4], labels i32[8, 100], target boxes f32[8, 100, 4];
  result f32[8, 900, 100]. Precondition: every float input is finite and every label l satisfies 0 ≤ l < 1203.

  Both programs compute, for batch entry b, query q and target n,
      2 · focal(x) + 5 · ‖box_q − tbox_n‖₁ + 2 · (0 − giou(box_q, tbox_n)),     x = logits(b, q, label(b, n)),
  the specification `Cert.CostSpec.G`.
  The kernel gathers the logit by a product with the 0/1 indicator of "class k is the target's label": for a row of
  real logits the sum over classes of logit · indicator is the logit at the label, and the second product, of the
  row less itself, is a sum of zeros; then it applies the focal transform to the gathered logit. The reference
  applies the focal transform to every logit and then picks the entry at the label; a pointwise transform commutes
  with picking an entry. For a label in the class range the reference's index is neither wrapped nor clamped and its
  out-of-range fill is not taken, and the kernel's clamp does nothing. For a real logit the host's 1 / (1 + e^{-x})
  is the sigmoid and a real number to the power 2 is its square. The box terms are the same expressions on both
  sides, the L1 distance up to the grouping of a sum of four terms from a zero start, the negation as 0 − ·.
  The kernel runs on a grid of 8 × 8 points in blocks of 128 queries; 900 = 7 · 128 + 4, so the last block of each
  batch entry reaches past the array's end. Every row of the result depends only on the same row of the logits and
  query boxes blocks, so what the buffers hold past the array's end never reaches a row that is written back.

  The three frames: the two kernels' launches run to the end without a fault and leave the argument arrays
  unchanged (for this nothing need be said of the result's contents); the reference's run is its sequence of host
  operations. The idealization's one rewrite, widening after narrowing to bf16 read as the identity, holds at the
  extended reals by definition.
-/
import proofs.«409724_j36000415875396_3_alg».proof.Defs
import proofs.«409724_j36000415875396_3_alg».proof.Proof.Gen.Kernel
import proofs.«409724_j36000415875396_3_alg».proof.Proof.Gen.KernelIdeal
import proofs.«409724_j36000415875396_3_alg».proof.Proof.Gen.ReferenceIdeal
import proofs.«409724_j36000415875396_3_alg».proof.Proof.Gen.ReferenceIdeal.Run
import proofs.«409724_j36000415875396_3_alg».proof.Proof.Gen.ReferenceIdeal.Read
import proofs.«409724_j36000415875396_3_alg».proof.Proof.Gen.Pre_finite_inputs
import proofs.«409724_j36000415875396_3_alg».proof.Proof.WFrameAny
import proofs.«409724_j36000415875396_3_alg».proof.Proof.FrameAny
import proofs.«409724_j36000415875396_3_alg».proof.Proof.FrameIdeal
import proofs.«409724_j36000415875396_3_alg».proof.Proof.RefValue
import proofs.«409724_j36000415875396_3_alg».proof.Proof.Pre
import Idealize.ShloMosaic.Adequacy
import Idealize.ShloMosaic.Init

noncomputable section

namespace Cert.Proof

open Idealize.ShloMosaic Idealize.SL.Sem

/-- The word-level kernel runs to the end, faults nowhere, and leaves its arguments unchanged. -/
theorem frame_kernel : Cert.frame_Kernel := fun m ρ _ => Cert.Kernel.Hand.frame_any (F := Bits) m ρ

/-- So does the idealized kernel. -/
theorem frame_kernel_ideal : Cert.frame_KernelIdeal := fun m ρ _ => Cert.KernelIdeal.Hand.frame_any (F := Ideal) m ρ

/-- The reference is a sequence of host operations: it runs to the end and writes none of its arguments. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: narrowing to bf16 and widening back is the identity on extended reals. -/
theorem preserves : Cert.preserves_Kernel_KernelIdeal :=
  IdealRules.truncf_extf.statement Cert.KernelIdeal.S128x1203 .f32 .bf16

/-- From memories agreeing on the arguments both idealized programs end with the specification of the arguments. -/
theorem algebraic : Cert.algebraic_KernelIdeal_ReferenceIdeal := by
  intro m ρ m' ρ' hpre hagree
  refine ⟨fun c => Cert.CostSpec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.kernel_run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v168_eq, (hagree c).1, (hagree c).2.1, (hagree c).2.2.1, (hagree c).2.2.2]
  exact Cert.ReferenceIdeal.RefValue.ref_eq _ _ _ _
    (fun i => Cert.PreFacts.logits_finite _ _ _ _ (hpre c) i) (fun j => Cert.PreFacts.labels_range _ _ _ _ (hpre c) j)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
